-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 2048]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Kernel.lean ====
abbrev S1024x1024 : Shape := ⟨2, ![1024, 1024]⟩
abbrev S8x1024 : Shape := ⟨2, ![8, 1024]⟩
abbrev S1x1024 : Shape := ⟨2, ![1, 1024]⟩
abbrev S2 : Shape := ⟨1, ![2]⟩
abbrev S_ : Shape := ⟨0, ![]⟩
abbrev S1 : Shape := ⟨1, ![1]⟩
abbrev S1024x1 : Shape := ⟨2, ![1024, 1]⟩
abbrev S1023x1024 : Shape := ⟨2, ![1023, 1024]⟩
abbrev S1024x1023 : Shape := ⟨2, ![1024, 1023]⟩
abbrev S1024x128 : Shape := ⟨2, ![1024, 128]⟩

abbrev nBuf : Space → Nat
  | .hbm => 2
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x1024, .f32⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 2 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_mult1 (d0 : Dev nD) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v17 : BitVec 1 := Scalar.cmpi .eq v2 c0_i32_12
  let c1016_i32 : BitVec 32 := 1016#32
  let c0_i32_13 : BitVec 32 := 0#32
  let v18 : BitVec 32 := Scalar.select v17 c1016_i32 c0_i32_13
  v18
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v17 : BitVec 1 := Scalar.cmpi .eq v2 c0_i32_12
  let c1016_i32 : BitVec 32 := 1016#32
  let c0_i32_13 : BitVec 32 := 0#32
  let v18 : BitVec 32 := Scalar.select v17 c1016_i32 c0_i32_13
  let v19 : BitVec 32 := v18
  let c0_i32_19 : BitVec 32 := 0#32
  ![v19.toNat, 0]
def k0_dev3 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v20 : BitVec 32 := Scalar.muli v6 c2_i32_16
  let v21 : BitVec 32 := Scalar.addi c0_i32_17 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v22 : BitVec 32 := Scalar.muli v5 c1_i32_18
  let v23 : BitVec 32 := Scalar.addi v21 v22
  v23.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v39 : BitVec 32 := Scalar.muli v2 c2_i32_27
  let v40 : BitVec 32 := Scalar.addi c0_i32_28 v39
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_29 : BitVec 32 := 1#32
  let v41 : BitVec 32 := Scalar.muli v7 c1_i32_29
  let v42 : BitVec 32 := Scalar.addi v40 v41
  v42.toNat
def k0_mult2 (d0 : Dev nD) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_51 : BitVec 32 := 1#32
  let v82 : BitVec 1 := Scalar.cmpi .eq v2 c1_i32_51
  let c0_i32_52 : BitVec 32 := 0#32
  let c1016_i32_53 : BitVec 32 := 1016#32
  let v83 : BitVec 32 := Scalar.select v82 c0_i32_52 c1016_i32_53
  v83
def k0_off2 (d0 : Dev nD) (c1_i32_51 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v82 : BitVec 1 := Scalar.cmpi .eq v2 c1_i32_51
  let c0_i32_52 : BitVec 32 := 0#32
  let c1016_i32_53 : BitVec 32 := 1016#32
  let v83 : BitVec 32 := Scalar.select v82 c0_i32_52 c1016_i32_53
  let v84 : BitVec 32 := v83
  let v96 : Index := Scalar.indexCast v84
  let c0_58 : Index := 0#32
  ![v96.toNat, 0]
def k0_mult3 (d0 : Dev nD) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v112 : BitVec 1 := Scalar.cmpi .eq v5 c1_i32_70
  let c0_i32_71 : BitVec 32 := 0#32
  let c896_i32 : BitVec 32 := 896#32
  let v113 : BitVec 32 := Scalar.select v112 c0_i32_71 c896_i32
  v113
def k0_off3 (d0 : Dev nD) (c1_i32_70 : BitVec 32) : Fin 2 → Nat :=
  let c0_76 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v112 : BitVec 1 := Scalar.cmpi .eq v5 c1_i32_70
  let c0_i32_71 : BitVec 32 := 0#32
  let c896_i32 : BitVec 32 := 896#32
  let v113 : BitVec 32 := Scalar.select v112 c0_i32_71 c896_i32
  let v114 : BitVec 32 := v113
  let v126 : Index := Scalar.indexCast v114
  ![0, v126.toNat]
def k0_mult4 (d0 : Dev nD) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_78 : BitVec 32 := 0#32
  let v132 : BitVec 1 := Scalar.cmpi .eq v2 c0_i32_78
  let c0_i32_79 : BitVec 32 := 0#32
  let c1016_i32_80 : BitVec 32 := 1016#32
  let v133 : BitVec 32 := Scalar.select v132 c0_i32_79 c1016_i32_80
  v133
def k0_mult5 (d0 : Dev nD) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_87 : BitVec 32 := 0#32
  let v148 : BitVec 1 := Scalar.cmpi .eq v5 c0_i32_87
  let c0_i32_88 : BitVec 32 := 0#32
  let c896_i32_89 : BitVec 32 := 896#32
  let v149 : BitVec 32 := Scalar.select v148 c0_i32_88 c896_i32_89
  v149
def k0_dev5 (d0 : Dev nD) : Nat :=
  let c0_i32_98_r0 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97_r0 : BitVec 32 := 2#32
  let v165_r0 : BitVec 32 := Scalar.muli v6 c2_i32_97_r0
  let v166_r0 : BitVec 32 := Scalar.addi c0_i32_98_r0 v165_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99_r0 : BitVec 32 := 1#32
  let v167_r0 : BitVec 32 := Scalar.muli v5 c1_i32_99_r0
  let v168_r0 : BitVec 32 := Scalar.addi v166_r0 v167_r0
  v168_r0.toNat
def k0_dev6 (d0 : Dev nD) : Nat :=
  let c0_i32_102_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101_r0 : BitVec 32 := 2#32
  let v169_r0 : BitVec 32 := Scalar.muli v2 c2_i32_101_r0
  let v170_r0 : BitVec 32 := Scalar.addi c0_i32_102_r0 v169_r0
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_103_r0 : BitVec 32 := 1#32
  let v171_r0 : BitVec 32 := Scalar.muli v7 c1_i32_103_r0
  let v172_r0 : BitVec 32 := Scalar.addi v170_r0 v171_r0
  v172_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1024x1024_S1024x1_0_1023 : ∀ a, (![0, 1023] : Fin 2 → Nat) a + S1024x1.size a ≤ S1024x1024.size a
  h_S1024x1 : 0 < S1024x1.numel
  shapeCasts_S1024x1_S1024x1 : S1024x1.ShapeCasts S1024x1
  inb_S1024x1024_S1024x1_0_0 : ∀ a, (![0, 0] : Fin 2 → Nat) a + S1024x1.size a ≤ S1024x1024.size a
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1023x1024 : S1024x1024.Slices ![0, 0] S1023x1024
  concatenates_S1x1024_S1023x1024_S1024x1024_d0 : Shape.Concatenates [S1x1024, S1023x1024] S1024x1024 0
  slices_S1024x1024_o1_0_S1023x1024 : S1024x1024.Slices ![1, 0] S1023x1024
  concatenates_S1023x1024_S1x1024_S1024x1024_d0 : Shape.Concatenates [S1023x1024, S1x1024] S1024x1024 0
  slices_S1024x1024_o0_0_S1024x1023 : S1024x1024.Slices ![0, 0] S1024x1023
  concatenates_S1024x1_S1024x1023_S1024x1024_d1 : Shape.Concatenates [S1024x1, S1024x1023] S1024x1024 1
  slices_S1024x1024_o0_1_S1024x1023 : S1024x1024.Slices ![0, 1] S1024x1023
  concatenates_S1024x1023_S1024x1_S1024x1024_d1 : Shape.Concatenates [S1024x1023, S1024x1] S1024x1024 1
  inb_S8x1024_S1x1024_7_0 : ∀ a, (![7, 0] : Fin 2 → Nat) a + S1x1024.size a ≤ S8x1024.size a
  inb_S8x1024_S1x1024_0_0 : ∀ a, (![0, 0] : Fin 2 → Nat) a + S1x1024.size a ≤ S8x1024.size a
  iota_S8x1024_d0_w32 : S8x1024.Iotas .tc 32 [0]
  broadcasts_S1x1024_S8x1024 : S1x1024.Broadcasts S8x1024
  h_S8x1024 : 0 < S8x1024.numel
  shapeCasts_S8x1024_S8x1024 : S8x1024.ShapeCasts S8x1024
  transposes_S1x1024_p1_0_S1024x1 : S1x1024.Transposes [1, 0] S1024x1
  iota_S1024x128_d1_w32 : S1024x128.Iotas .tc 32 [1]
  broadcasts_S1024x1_S1024x128 : S1024x1.Broadcasts S1024x128
  h_S1024x128 : 0 < S1024x128.numel
  shapeCasts_S1024x128_S1024x128 : S1024x128.ShapeCasts S1024x128
  hcc0_scoped0 : 1 + S_.numel ≤ 2
  hcc0_scratch3 : 2 + S2.numel ≤ 6
  hcc0_scratch4 : 4 + S2.numel ≤ 6
  k0_dev1_lt : ∀ d0 : Dev nD, (k0_dev1 d0) < nD
  k0_dev2_lt : ∀ d0 : Dev nD, (k0_dev2 d0) < nD
  k0_mult1_dvd : ∀ d0 : Dev nD, 8 ∣ (k0_mult1 d0).toNat
  k0_off1_inb : ∀ d0 : Dev nD, ∀ a, (k0_off1 d0) a + S8x1024.size a ≤ S1024x1024.size a
  k0_dev3_lt : ∀ d0 : Dev nD, (k0_dev3 d0) < nD
  k0_dev4_lt : ∀ d0 : Dev nD, (k0_dev4 d0) < nD
  k0_mult2_dvd : ∀ d0 : Dev nD, 8 ∣ (k0_mult2 d0).toNat
  k0_off2_inb : ∀ d0 : Dev nD, ∀ (r : Fin 2), ∀ a, (k0_off2 d0 (BitVec.ofNat 32 r.val)) a + S8x1024.size a ≤ S1024x1024.size a
  k0_mult3_dvd : ∀ d0 : Dev nD, 128 ∣ (k0_mult3 d0).toNat
  k0_off3_inb : ∀ d0 : Dev nD, ∀ (r : Fin 2), ∀ a, (k0_off3 d0 (BitVec.ofNat 32 r.val)) a + S1024x128.size a ≤ S1024x1024.size a
  k0_mult4_dvd : ∀ d0 : Dev nD, 8 ∣ (k0_mult4 d0).toNat
  k0_mult5_dvd : ∀ d0 : Dev nD, 128 ∣ (k0_mult5 d0).toNat
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scoped0 : Sems sig S_ := SemArray.consecutive 1 S_ hcc0_scoped0
abbrev cc0_scratch3 : DmaSems sig S2 := SemArray.consecutive 2 S2 hcc0_scratch3
abbrev cc0_scratch4 : DmaSems sig S2 := SemArray.consecutive 4 S2 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2046x2046 : Shape := ⟨2, ![2046, 2046]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2046x2046, .f32⟩
  | .hbm, ⟨2, _⟩ => ⟨S_, .f32⟩
  | .hbm, ⟨3, _⟩ => ⟨S2046x2046, .f32⟩
  | .hbm, ⟨4, _⟩ => ⟨S2046x2046, .f32⟩
  | .hbm, ⟨5, _⟩ => ⟨S2046x2046, .f32⟩
  | .hbm, ⟨6, _⟩ => ⟨S_, .f32⟩
  | .hbm, ⟨7, _⟩ => ⟨S2046x2046, .f32⟩
  | .hbm, ⟨8, _⟩ => ⟨S2046x2046, .f32⟩
  | .hbm, ⟨9, _⟩ => ⟨S2046x2046, .f32⟩
  | .hbm, ⟨10, _⟩ => ⟨S2046x2046, .f32⟩
  | .hbm, ⟨11, _⟩ => ⟨S_, .f32⟩
  | .hbm, ⟨12, _⟩ => ⟨S2046x2046, .f32⟩
  | .hbm, ⟨13, _⟩ => ⟨S2046x2046, .f32⟩
  | .hbm, ⟨14, _⟩ => ⟨S2046x2046, .f32⟩
  | .hbm, ⟨15, _⟩ => ⟨S2046x2046, .f32⟩
  | .hbm, ⟨16, _⟩ => ⟨S_, .f32⟩
  | .hbm, ⟨17, _⟩ => ⟨S2046x2046, .f32⟩
  | .hbm, ⟨18, _⟩ => ⟨S2046x2046, .f32⟩
  | .hbm, ⟨19, _⟩ => ⟨S2046x2046, .f32⟩
  | .hbm, ⟨20, _⟩ => ⟨S2046x2046, .f32⟩
  | .hbm, ⟨21, _⟩ => ⟨S_, .f32⟩
  | .hbm, ⟨22, _⟩ => ⟨S2046x2046, .f32⟩
  | .hbm, ⟨23, _⟩ => ⟨S2046x2046, .f32⟩
  | .hbm, ⟨24, _⟩ => ⟨S2046x2046, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S2048x2048_S2046x2046_1_1 : S2048x2048.Slices ![1, 1] S2046x2046
  bcast_S_S2046x2046 : S_.BroadcastsInDim S2046x2046 (![] : Fin 0 → Fin S2046x2046.rank)
  slices_S2048x2048_S2046x2046_0_1 : S2048x2048.Slices ![0, 1] S2046x2046
  slices_S2048x2048_S2046x2046_2_1 : S2048x2048.Slices ![2, 1] S2046x2046
  slices_S2048x2048_S2046x2046_1_0 : S2048x2048.Slices ![1, 0] S2046x2046
  slices_S2048x2048_S2046x2046_1_2 : S2048x2048.Slices ![1, 2] S2046x2046
  bcast_S_S1 : S_.BroadcastsInDim S1 (![] : Fin 0 → Fin S1.rank)
  concatenates_S1_S1_S2_d0 : Shape.Concatenates [S1, S1] S2 0
  scatter_S2048x2048_S2_S2046x2046_01_n_01_0_wf : ScatterDims.WF S2048x2048 S2 S2046x2046 [0, 1] [] [0, 1] 0

variable [Facts₀]

def scatter_S2048x2048_S2_S2046x2046_01_n_01_0 : ScatterDims S2048x2048 S2 S2046x2046 where
  updateWindowDims := [0, 1]
  insertedWindowDims := []
  scatterDimsToOperandDims := [0, 1]
  indexVectorDim := 0
  wf := scatter_S2048x2048_S2_S2046x2046_01_n_01_0_wf

class Facts : Prop extends Facts₀ where

variable [Facts]
-- ==== Proof.Kernel.Mesh.lean ====
/-
  The 2 × 2 mesh of the halo exchange. Device `c` sits at row `c / 2`, column `c % 2` of the mesh; its block of
  the 2048 × 2048 array is rows `1024 (c / 2) …`, columns `1024 (c % 2) …`. The kernel talks to two peers only:
  `px c`, the device in the other mesh row and the same mesh column (it holds the block above or below), and
  `py c`, the device in the same mesh row and the other mesh column (the block to the left or right). Both maps are
  involutions without fixed points, and they differ everywhere. Every `device_id` the kernel computes is one of them.
-/
import proofs.«900187_g7700000000000188_dist_halo2d_stencil_xy_m1024_n1024_v7x_xy2x2_f32_1_alg».proof.Proof.Gen.Kernel

noncomputable section

namespace Cert.Kernel.Halo

open Cert.Kernel Cert.Kernel.Gen
open Idealize.ShloMosaic Idealize.SL.Sem

/-- The peer across the row cut: same mesh column, other mesh row. -/
def px (c : Dev nD) : Dev nD := ⟨(c.val % 2 + 2) - 2 * (c.val / 2), by revert c; decide⟩
/-- The peer across the column cut: same mesh row, other mesh column. -/
def py (c : Dev nD) : Dev nD := ⟨(2 * (c.val / 2) + 1) - c.val % 2, by revert c; decide⟩

theorem px_px (c : Dev nD) : px (px c) = c := by revert c; decide
theorem py_py (c : Dev nD) : py (py c) = c := by revert c; decide
theorem px_ne_py (c : Dev nD) : px c ≠ py c := by revert c; decide
theorem px_ne (c : Dev nD) : px c ≠ c := by revert c; decide
theorem py_ne (c : Dev nD) : py c ≠ c := by revert c; decide
theorem px_py (c : Dev nD) : px (py c) = py (px c) := by revert c; decide

/-- The two flips as permutations of the mesh. -/
def flipX : Dev nD ≃ Dev nD := ⟨px, px, px_px, px_px⟩
def flipY : Dev nD ≃ Dev nD := ⟨py, py, py_py, py_py⟩

/-- The kernel's `device_id` chains: the entry signals, the two copies and the exit signals each name `px c` first
    and `py c` second. -/
theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = py c := Fin.ext (k0_dev2_eq c)
theorem dev3_eq (c : Dev nD) : (⟨k0_dev3 c, k0_dev3_lt c⟩ : Dev nD) = px c := Fin.ext (k0_dev3_eq c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = py c := Fin.ext (k0_dev6_eq c)

end Cert.Kernel.Halo

end
-- ==== Proof.Kernel.Contents.lean ====
/-
  What each buffer of a device holds at each stage of the kernel, as pure terms of what was loaded: the column the
  device sends, the eight rows and the column it receives, and its result block after each of the five stores — the
  local five-point sum with zeros outside the block, the halo row added, the halo column added, and the two
  rewrites that restore the whole array's outermost row and column to the input. Every term is written through the
  kernel body's named values (the skeleton's payloads), a load as the view's read and a store as the view's write.
-/
import proofs.«900187_g7700000000000188_dist_halo2d_stencil_xy_m1024_n1024_v7x_xy2x2_f32_1_alg».proof.Proof.Gen.Kernel.Skeleton
import proofs.«900187_g7700000000000188_dist_halo2d_stencil_xy_m1024_n1024_v7x_xy2x2_f32_1_alg».proof.Proof.Kernel.Mesh

noncomputable section

namespace Cert.Kernel.Halo

open Cert.Kernel Cert.Kernel.Gen
open Idealize.ShloMosaic Idealize.ShloMosaic.TcCoe Idealize.SL.Sem

variable {F : FTy → Type} [FloatOps F]

/-! ## The memrefs -/

/-- The staged input block, the staged result block, the eight received rows, the received column, the sent column. -/
abbrev xM : Memref sig .tc .vmem S1024x1024 .f32 := Memref.whole cc0_stg0_0
abbrev oM : Memref sig .tc .vmem S1024x1024 .f32 := Memref.whole cc0_stg1_0
abbrev rrM : Memref sig .tc .vmem S8x1024 .f32 := Memref.whole cc0_scratch0
abbrev crM : Memref sig .tc .vmem S1x1024 .f32 := Memref.whole cc0_scratch1
abbrev csM : Memref sig .tc .vmem S1x1024 .f32 := Memref.whole cc0_scratch2

abbrev XC (F : FTy → Type) : Type := (cc0_stg0_0 : Ref sig .tc).ty.Contents (Elt F)
abbrev OC (F : FTy → Type) : Type := (cc0_stg1_0 : Ref sig .tc).ty.Contents (Elt F)
abbrev RC (F : FTy → Type) : Type := (cc0_scratch0 : Ref sig .tc).ty.Contents (Elt F)
abbrev CC (F : FTy → Type) : Type := (cc0_scratch1 : Ref sig .tc).ty.Contents (Elt F)

/-! ## The device's mesh coordinates as the kernel computes them -/

/-- The mesh row of a device, as a word. -/
def wx (c : Dev nD) : BitVec 32 := Scalar.remsi (Scalar.divsi (Dev.word c) 2#32) 2#32
/-- The mesh column of a device, as a word. -/
def wy (c : Dev nD) : BitVec 32 := Scalar.remsi (Scalar.divsi (Dev.word c) 1#32) 2#32

/-! ## The rectangles the body reads and writes -/

abbrev rCol1023 : Rect S1024x1024 := Rect.unit (s := S1024x1024) ![0, 1023] S1024x1.size inb_S1024x1024_S1024x1_0_1023
abbrev rCol0 : Rect S1024x1024 := Rect.unit (s := S1024x1024) ![0, 0] S1024x1.size inb_S1024x1024_S1024x1_0_0
abbrev rAll : Rect S1024x1024 := Rect.unit (s := S1024x1024) ![0, 0] S1024x1024.size inb_S1024x1024_S1024x1024_0_0
abbrev rRecv7 : Rect S8x1024 := Rect.unit (s := S8x1024) ![7, 0] S1x1024.size inb_S8x1024_S1x1024_7_0
abbrev rRecv0 : Rect S8x1024 := Rect.unit (s := S8x1024) ![0, 0] S1x1024.size inb_S8x1024_S1x1024_0_0
abbrev rLine : Rect S1x1024 := Rect.unit (s := S1x1024) ![0, 0] S1x1024.size inb_S1x1024_S1x1024_0_0
/-- The eight-row band at the block's edge towards (`r = 1`) or away from (`r = 0`) the peer `px c`. -/
abbrev rBand (c : Dev nD) (r : Fin 2) : Rect S1024x1024 :=
  Rect.unit (s := S1024x1024) (k0_off2 c (BitVec.ofNat 32 r.val)) S8x1024.size (k0_off2_inb c r)
/-- The 128-column band at the block's edge towards (`r = 1`) or away from (`r = 0`) the peer `py c`. -/
abbrev rStrip (c : Dev nD) (r : Fin 2) : Rect S1024x1024 :=
  Rect.unit (s := S1024x1024) (k0_off3 c (BitVec.ofNat 32 r.val)) S1024x128.size (k0_off3_inb c r)
/-- The eight rows of its block a device sends to `px c`: the band next to that peer. -/
abbrev rowSrc (c : Dev nD) : Memref sig .tc .vmem S8x1024 .f32 :=
  xM.slice (Rect.unit (s := S1024x1024) (k0_off1 c) S8x1024.size (k0_off1_inb c)) (fun _ => rfl)

/-! ## Contents -/

/-- The column a device sends to `py c`, laid as a row: its block's last column in mesh column 0, its first in mesh column 1. -/
def colSent (c : Dev nD) (xs : XC F) : CC F :=
  k0_pay1 (wy c) 0#32 (xM.view.readAt (Elt F) rCol1023.toLoadRect xs) (xM.view.readAt (Elt F) rCol0.toLoadRect xs)

/-- The eight rows device `c` sends, read out of its block. -/
def rowSent (c : Dev nD) (xs : XC F) : RC F := (rowSrc c).view.read (Elt F) xs

/-- The result block after the first store: the five-point sum inside the block, zeros for neighbours outside it. -/
def out1 (xs : XC F) : OC F := k0_pay2 xs

/-- After the second store: the received row's share added on the edge row next to `px c`. -/
def out2 (c : Dev nD) (xs : XC F) (rr : RC F) : OC F :=
  ((oM.access (rBand c 1) : View sig .tc _ _ _)).write (Elt F) (out1 xs)
    (k0_pay3 (wx c) (rrM.view.readAt (Elt F) rRecv7.toLoadRect rr) (rrM.view.readAt (Elt F) rRecv0.toLoadRect rr)
      (oM.view.readAt (Elt F) (rBand c 1).toLoadRect (out1 xs))) Finset.univ

/-- After the third: the received column's share added on the edge column next to `py c`. -/
def out3 (c : Dev nD) (xs : XC F) (rr : RC F) (cr : CC F) : OC F :=
  ((oM.access (rStrip c 1) : View sig .tc _ _ _)).write (Elt F) (out2 c xs rr)
    (k0_pay4 (wy c) cr (oM.view.readAt (Elt F) (rStrip c 1).toLoadRect (out2 c xs rr))) Finset.univ

/-- After the fourth: the whole array's outermost row, where this block has it, restored to the input. -/
def out4 (c : Dev nD) (xs : XC F) (rr : RC F) (cr : CC F) : OC F :=
  ((oM.access (rBand c 0) : View sig .tc _ _ _)).write (Elt F) (out3 c xs rr cr)
    (k0_pay5 (wx c) (iota .tc S8x1024 32 [0] iota_S8x1024_d0_w32) (xM.view.readAt (Elt F) (rBand c 0).toLoadRect xs)
      (oM.view.readAt (Elt F) (rBand c 0).toLoadRect (out3 c xs rr cr))) Finset.univ

/-- After the fifth, the block the kernel returns: the outermost column restored as well. -/
def out5 (c : Dev nD) (xs : XC F) (rr : RC F) (cr : CC F) : OC F :=
  ((oM.access (rStrip c 0) : View sig .tc _ _ _)).write (Elt F) (out4 c xs rr cr)
    (k0_pay6 (wy c) (iota .tc S1024x128 32 [1] iota_S1024x128_d1_w32) (xM.view.readAt (Elt F) (rStrip c 0).toLoadRect xs)
      (oM.view.readAt (Elt F) (rStrip c 0).toLoadRect (out4 c xs rr cr))) Finset.univ

end Cert.Kernel.Halo

end
-- ==== Proof.Kernel.Cells.lean ====
/-
  The halo exchange's semaphores as cells, and what the buffers hold. A device has six cells: the entry barrier (the
  runtime's semaphore, one unit from each of its two peers), a send and a receive cell for the eight rows it exchanges
  with `px c`, a send and a receive cell for the column it exchanges with `py c`, and the exit barrier (one unit from
  each peer again). The contents are named from the launch memory: a device's staged block, the eight rows and the
  column that land on it, and the block it returns.
-/
import proofs.«900187_g7700000000000188_dist_halo2d_stencil_xy_m1024_n1024_v7x_xy2x2_f32_1_alg».proof.Proof.Kernel.Contents
import proofs.«900187_g7700000000000188_dist_halo2d_stencil_xy_m1024_n1024_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores and the cells -/

/-- The runtime's barrier semaphore (unscoped); the kernel's exit semaphore; the two pairs of transfer semaphores. -/
abbrev barS : Sem sig := (SemArray.scalar (sig.barrier 0 rfl) : Sems sig S_).sem
abbrev exitS : Sem sig := (cc0_scoped0 : Sems sig S_).sem
abbrev rowSendS : DmaSem sig := ((cc0_scratch3.slice (Rect.unit (s := S2) ![0] S1.size inb_S2_S1_0)).squeeze S_ squeezes_S1_S_ : DmaSems sig S_).sem
abbrev rowRecvS : DmaSem sig := ((cc0_scratch3.slice (Rect.unit (s := S2) ![1] S1.size inb_S2_S1_1)).squeeze S_ squeezes_S1_S_ : DmaSems sig S_).sem
abbrev colSendS : DmaSem sig := ((cc0_scratch4.slice (Rect.unit (s := S2) ![0] S1.size inb_S2_S1_0)).squeeze S_ squeezes_S1_S_ : DmaSems sig S_).sem
abbrev colRecvS : DmaSem sig := ((cc0_scratch4.slice (Rect.unit (s := S2) ![1] S1.size inb_S2_S1_1)).squeeze S_ squeezes_S1_S_ : DmaSems sig S_).sem

abbrev barCell (c : Dev nD) : GSem nD τ sig := ((c : Thread nD τ), .reg barS)
abbrev rowSendCell (c : Dev nD) : GSem nD τ sig := ((c : Thread nD τ), .dma rowSendS)
abbrev rowRecvCell (c : Dev nD) : GSem nD τ sig := ((c : Thread nD τ), .dma rowRecvS)
abbrev colSendCell (c : Dev nD) : GSem nD τ sig := ((c : Thread nD τ), .dma colSendS)
abbrev colRecvCell (c : Dev nD) : GSem nD τ sig := ((c : Thread nD τ), .dma colRecvS)
abbrev exitCell (c : Dev nD) : GSem nD τ sig := ((c : Thread nD τ), .reg exitS)

/-- The kernel's OWN (scoped) semaphores, as the launch indexes them: the four transfer semaphores and the exit one; -/
abbrev osem : Fin 5 → SemLoc sig := fun | 0 => .dma rowSendS | 1 => .dma rowRecvS | 2 => .dma colSendS | 3 => .dma colRecvS | 4 => .reg exitS
/-- all six of the exchange's, the barrier first. -/
abbrev csem : Fin 6 → SemLoc sig := fun | 0 => .reg barS | 1 => .dma rowSendS | 2 => .dma rowRecvS | 3 => .dma colSendS | 4 => .dma colRecvS | 5 => .reg exitS
abbrev kcell (ck : Dev nD × Fin 6) : GSem nD τ sig := ((ck.1 : Thread nD τ), csem ck.2)

/-- The credit of the eight rows and of the column. -/
abbrev Nrow : ℕ := (rrM : Memref sig .tc .vmem S8x1024 .f32).view.dmaCredit
abbrev Ncol : ℕ := (crM : Memref sig .tc .vmem S1x1024 .f32).view.dmaCredit
theorem Nrow_pos : 0 < Nrow := View.dmaCredit_pos _ (by decide)
theorem Ncol_pos : 0 < Ncol := View.dmaCredit_pos _ (by decide)

/-! ## Contents, from the launch memory -/

/-- Device `c`'s block as the pipeline stages it. -/
def xstg (c : Dev nD) : XC F := (win0_0.blk (0 : Fin 1)).view.read (Elt F) (m ((c : Thread nD τ).loc main_arg0))
/-- The eight rows that land on device `c`: `px c`'s edge band. -/
def rowLanded (c : Dev nD) : RC F := rowSent (px c) (xstg m (px c))
/-- The column device `c` sends, and the one that lands on it: `py c`'s edge column. -/
def colMine (c : Dev nD) : CC F := colSent c (xstg m c)
def colLanded (c : Dev nD) : CC F := colSent (py c) (xstg m (py c))
/-- The block device `c` returns. -/
def outAt (c : Dev nD) : OC F := out5 c (xstg m c) (rowLanded m c) (colLanded m c)

/-! ## The buffers as assertions -/

def rrPts (c : Dev nD) (f : Buf (Elt F) ((rrM : Memref sig .tc .vmem S8x1024 .f32).view.loc (c : Thread nD τ))) : sProp 𝕄 :=
  (rrM : Memref sig .tc .vmem S8x1024 .f32).view.loc (c : Thread nD τ) ↦[(rrM : Memref sig .tc .vmem S8x1024 .f32).view.set]{fullShare} f
def crPts (c : Dev nD) (f : Buf (Elt F) ((crM : Memref sig .tc .vmem S1x1024 .f32).view.loc (c : Thread nD τ))) : sProp 𝕄 :=
  (crM : Memref sig .tc .vmem S1x1024 .f32).view.loc (c : Thread nD τ) ↦[(crM : Memref sig .tc .vmem S1x1024 .f32).view.set]{fullShare} f
def csPts (c : Dev nD) (f : Buf (Elt F) ((csM : Memref sig .tc .vmem S1x1024 .f32).view.loc (c : Thread nD τ))) : sProp 𝕄 :=
  (csM : Memref sig .tc .vmem S1x1024 .f32).view.loc (c : Thread nD τ) ↦[(csM : Memref sig .tc .vmem S1x1024 .f32).view.set]{fullShare} f
/-- The half of the eight-row band that is lent to the row transfer while the body goes on reading the block. -/
def xLent (c : Dev nD) : sProp 𝕄 :=
  (rowSrc c).view.loc (c : Thread nD τ) ↦[(rowSrc c).view.set]{fullShare.right} xstg m c

omit [FloatOps F] in
instance rrPts_storable (c : Dev nD) (f) : BI.Storable (upEmb : UEmb _ 𝕄) (rrPts (F := F) c f) := by unfold rrPts; infer_instance
omit [FloatOps F] in
instance crPts_storable (c : Dev nD) (f) : BI.Storable (upEmb : UEmb _ 𝕄) (crPts (F := F) c f) := by unfold crPts; infer_instance
omit [FloatOps F] in
instance csPts_storable (c : Dev nD) (f) : BI.Storable (upEmb : UEmb _ 𝕄) (csPts (F := F) c f) := by unfold csPts; infer_instance
instance xLent_storable (c : Dev nD) : BI.Storable (upEmb : UEmb _ 𝕄) (xLent (F := F) m c) := by unfold xLent; infer_instance

omit [FloatOps F] in
theorem rrPts_eq (c : Dev nD) (f : Buf (Elt F) ((c : Thread nD τ).loc cc0_scratch0)) :
    rrPts c f = (((c : Thread nD τ).loc cc0_scratch0) ↦{fullShare} f : sProp 𝕄) := by unfold rrPts; rw [View.set_whole]
omit [FloatOps F] in
theorem crPts_eq (c : Dev nD) (f : Buf (Elt F) ((c : Thread nD τ).loc cc0_scratch1)) :
    crPts c f = (((c : Thread nD τ).loc cc0_scratch1) ↦{fullShare} f : sProp 𝕄) := by unfold crPts; rw [View.set_whole]
omit [FloatOps F] in
theorem csPts_eq (c : Dev nD) (f : Buf (Elt F) ((c : Thread nD τ).loc cc0_scratch2)) :
    csPts c f = (((c : Thread nD τ).loc cc0_scratch2) ↦{fullShare} f : sProp 𝕄) := by unfold csPts; rw [View.set_whole]

/-- What lands in a whole buffer copied whole from a source view is what the source view read. -/
theorem rowLanded_eq (c : Dev nD) (fd : Buf (Elt F) ((rrM : Memref sig .tc .vmem S8x1024 .f32).view.loc (c : Thread nD τ))) :
    (rrM : Memref sig .tc .vmem S8x1024 .f32).view.write (Elt F) fd ((rowSrc (px c)).view.read (Elt F) (xstg m (px c))) Finset.univ = rowLanded m c := by
  show (View.whole cc0_scratch0).write (Elt F) fd _ Finset.univ = _
  exact View.write_whole_univ _ _ _
theorem colLanded_eq (c : Dev nD) (fd : Buf (Elt F) ((crM : Memref sig .tc .vmem S1x1024 .f32).view.loc (c : Thread nD τ))) :
    (crM : Memref sig .tc .vmem S1x1024 .f32).view.write (Elt F) fd ((csM : Memref sig .tc .vmem S1x1024 .f32).view.read (Elt F) (colMine m (py c))) Finset.univ = colLanded m c := by
  show (View.whole cc0_scratch1).write (Elt F) fd ((View.whole cc0_scratch2).read (Elt F) _) Finset.univ = _
  rw [View.read_whole]
  exact View.write_whole_univ _ _ _

end Cert.Kernel.Halo

end
-- ==== Proof.Kernel.Sched.lean ====
/-
  The exchange's schedule: every cell has one round. An entry-barrier cell has two duties of one unit, one from each
  peer, and each hands the owner that peer's landing buffer — the eight-row buffer from `px c`, the column buffer from
  `py c` — together with the fact that the peer's receive cell stands at its round; a send cell's one duty returns what
  was lent to the transfer; a receive cell's one duty hands over the landing buffer holding what the peer sent; an
  exit-barrier cell has two duties of one unit that hand over nothing.
-/
import proofs.«900187_g7700000000000188_dist_halo2d_stencil_xy_m1024_n1024_v7x_xy2x2_f32_1_alg».proof.Proof.Kernel.Cells

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What `px c`'s entry signal hands `c`: `px c`'s eight-row landing buffer, and that `px c`'s row-receive cell is at its round. -/
def barPayX (c : Dev nD) : sProp 𝕄 := iprop((∃ f, rrPts (px c) f) ∗ reached ER (rowRecvCell (px c)) 0)
/-- What `py c`'s entry signal hands `c`: `py c`'s column landing buffer, and that `py c`'s column-receive cell is at its round. -/
def barPayY (c : Dev nD) : sProp 𝕄 := iprop((∃ f, crPts (py c) f) ∗ reached ER (colRecvCell (py c)) 0)

abbrev IsGate (g : GSem nD τ sig) : Prop := g.1.2 = .tc ∧ (g.2 = .reg barS ∨ g.2 = .reg exitS)
abbrev IsXfer (g : GSem nD τ sig) : Prop :=
  g.1.2 = .tc ∧ (g.2 = .dma rowSendS ∨ g.2 = .dma rowRecvS ∨ g.2 = .dma colSendS ∨ g.2 = .dma colRecvS)

/-- One round, round 0. A barrier cell (entry or exit): duty `false` from `px`, duty `true` from `py`, a unit each.
    A transfer cell: the duty `false`, of the transfer's credit. -/
def haloRd : Rounds.Schedule (GSem nD τ sig) Bool 𝕄 where
  duties g r := if r = 0 ∧ IsGate g then Finset.univ else if r = 0 ∧ IsXfer g then {false} else ∅
  unitless _ := False
  amount g _ _ := if g.2 = .reg barS ∨ g.2 = .reg exitS then 1 else if g.2 = .dma rowSendS ∨ g.2 = .dma rowRecvS then Nrow else Ncol
  payload g _ d :=
    if g.2 = .reg barS then (if d then barPayY g.1.1 else barPayX g.1.1)
    else if g.2 = .dma rowSendS then xLent m g.1.1
    else if g.2 = .dma rowRecvS then rrPts g.1.1 (rowLanded m g.1.1)
    else if g.2 = .dma colSendS then csPts g.1.1 (colMine m g.1.1)
    else if g.2 = .dma colRecvS then crPts g.1.1 (colLanded m g.1.1)
    else iprop(emp)
  amount_pos g _ _ _ := by
    by_cases h : g.2 = .reg barS ∨ g.2 = .reg exitS
    · rw [if_pos h]; exact Nat.one_pos
    · rw [if_neg h]
      by_cases h' : g.2 = .dma rowSendS ∨ g.2 = .dma rowRecvS
      · rw [if_pos h']; exact Nrow_pos
      · rw [if_neg h']; exact Ncol_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayY g.1.1 else barPayX g.1.1)
    else if g.2 = .dma rowSendS then xLent m g.1.1
    else if g.2 = .dma rowRecvS then rrPts g.1.1 (rowLanded m g.1.1)
    else if g.2 = .dma colSendS then csPts g.1.1 (colMine m g.1.1)
    else if g.2 = .dma colRecvS then crPts g.1.1 (colLanded m g.1.1)
    else iprop(emp))
  unfold barPayX barPayY
  (repeat' split) <;> infer_instance

end Cert.Kernel.Halo

end
-- ==== Proof.Kernel.Tables.lean ====
/-
  The schedule's tables, read off cell by cell: which duties a cell has at its one round, what each is worth, what a
  round is worth in all, what each duty hands over, and what is left of a round of which nothing has been taken.
-/
import proofs.«900187_g7700000000000188_dist_halo2d_stencil_xy_m1024_n1024_v7x_xy2x2_f32_1_alg».proof.Proof.Kernel.Sched

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The six semaphores are pairwise different -/

theorem rowSend_ne_bar : (SemLoc.dma rowSendS : SemLoc sig) ≠ .reg barS := fun h => by cases h
theorem rowRecv_ne_bar : (SemLoc.dma rowRecvS : SemLoc sig) ≠ .reg barS := fun h => by cases h
theorem colSend_ne_bar : (SemLoc.dma colSendS : SemLoc sig) ≠ .reg barS := fun h => by cases h
theorem colRecv_ne_bar : (SemLoc.dma colRecvS : SemLoc sig) ≠ .reg barS := fun h => by cases h
theorem rowSend_ne_exit : (SemLoc.dma rowSendS : SemLoc sig) ≠ .reg exitS := fun h => by cases h
theorem rowRecv_ne_exit : (SemLoc.dma rowRecvS : SemLoc sig) ≠ .reg exitS := fun h => by cases h
theorem colSend_ne_exit : (SemLoc.dma colSendS : SemLoc sig) ≠ .reg exitS := fun h => by cases h
theorem colRecv_ne_exit : (SemLoc.dma colRecvS : SemLoc sig) ≠ .reg exitS := fun h => by cases h
theorem exit_ne_bar : (SemLoc.reg exitS : SemLoc sig) ≠ .reg barS := by decide
theorem bar_ne_exit : (SemLoc.reg barS : SemLoc sig) ≠ .reg exitS := by decide
theorem rowSend_ne_rowRecv : (SemLoc.dma rowSendS : SemLoc sig) ≠ .dma rowRecvS := by decide
theorem rowSend_ne_colSend : (SemLoc.dma rowSendS : SemLoc sig) ≠ .dma colSendS := by decide
theorem rowSend_ne_colRecv : (SemLoc.dma rowSendS : SemLoc sig) ≠ .dma colRecvS := by decide
theorem rowRecv_ne_rowSend : (SemLoc.dma rowRecvS : SemLoc sig) ≠ .dma rowSendS := by decide
theorem rowRecv_ne_colSend : (SemLoc.dma rowRecvS : SemLoc sig) ≠ .dma colSendS := by decide
theorem rowRecv_ne_colRecv : (SemLoc.dma rowRecvS : SemLoc sig) ≠ .dma colRecvS := by decide
theorem colSend_ne_rowSend : (SemLoc.dma colSendS : SemLoc sig) ≠ .dma rowSendS := by decide
theorem colSend_ne_rowRecv : (SemLoc.dma colSendS : SemLoc sig) ≠ .dma rowRecvS := by decide
theorem colSend_ne_colRecv : (SemLoc.dma colSendS : SemLoc sig) ≠ .dma colRecvS := by decide
theorem colRecv_ne_rowSend : (SemLoc.dma colRecvS : SemLoc sig) ≠ .dma rowSendS := by decide
theorem colRecv_ne_rowRecv : (SemLoc.dma colRecvS : SemLoc sig) ≠ .dma rowRecvS := by decide
theorem colRecv_ne_colSend : (SemLoc.dma colRecvS : SemLoc sig) ≠ .dma colSendS := by decide

theorem csem_injective : Function.Injective csem := by
  intro a b h
  fin_cases a <;> fin_cases b <;> first
    | rfl
    | exact absurd h (fun h' => by cases h')
    | exact absurd h bar_ne_exit
    | exact absurd h exit_ne_bar
    | exact absurd h rowSend_ne_rowRecv
    | exact absurd h rowSend_ne_colSend
    | exact absurd h rowSend_ne_colRecv
    | exact absurd h rowRecv_ne_rowSend
    | exact absurd h rowRecv_ne_colSend
    | exact absurd h rowRecv_ne_colRecv
    | exact absurd h colSend_ne_rowSend
    | exact absurd h colSend_ne_rowRecv
    | exact absurd h colSend_ne_colRecv
    | exact absurd h colRecv_ne_rowSend
    | exact absurd h colRecv_ne_rowRecv
    | exact absurd h colRecv_ne_colSend

section Tables
variable (c : Dev nD)

theorem not_gate_rowSend : ¬ IsGate (rowSendCell c) := fun h => h.2.elim rowSend_ne_bar rowSend_ne_exit
theorem not_gate_rowRecv : ¬ IsGate (rowRecvCell c) := fun h => h.2.elim rowRecv_ne_bar rowRecv_ne_exit
theorem not_gate_colSend : ¬ IsGate (colSendCell c) := fun h => h.2.elim colSend_ne_bar colSend_ne_exit
theorem not_gate_colRecv : ¬ IsGate (colRecvCell c) := fun h => h.2.elim colRecv_ne_bar colRecv_ne_exit

omit [FloatOps F] in
theorem duties_bar : (haloRd (F := F) m).duties (barCell c) 0 = Finset.univ := by
  dsimp only [haloRd]; exact if_pos ⟨rfl, rfl, .inl rfl⟩
omit [FloatOps F] in
theorem duties_exit : (haloRd (F := F) m).duties (exitCell c) 0 = Finset.univ := by
  dsimp only [haloRd]; exact if_pos ⟨rfl, rfl, .inr rfl⟩
omit [FloatOps F] in
theorem duties_rowSend : (haloRd (F := F) m).duties (rowSendCell c) 0 = {false} := by
  dsimp only [haloRd]; rw [if_neg (fun h => not_gate_rowSend c h.2)]; exact if_pos ⟨rfl, rfl, .inl rfl⟩
omit [FloatOps F] in
theorem duties_rowRecv : (haloRd (F := F) m).duties (rowRecvCell c) 0 = {false} := by
  dsimp only [haloRd]; rw [if_neg (fun h => not_gate_rowRecv c h.2)]; exact if_pos ⟨rfl, rfl, .inr (.inl rfl)⟩
omit [FloatOps F] in
theorem duties_colSend : (haloRd (F := F) m).duties (colSendCell c) 0 = {false} := by
  dsimp only [haloRd]; rw [if_neg (fun h => not_gate_colSend c h.2)]; exact if_pos ⟨rfl, rfl, .inr (.inr (.inl rfl))⟩
omit [FloatOps F] in
theorem duties_colRecv : (haloRd (F := F) m).duties (colRecvCell c) 0 = {false} := by
  dsimp only [haloRd]; rw [if_neg (fun h => not_gate_colRecv c h.2)]; exact if_pos ⟨rfl, rfl, .inr (.inr (.inr rfl))⟩
omit [FloatOps F] in
theorem duties_later (g : GSem nD τ sig) : ∀ r, 1 ≤ r → (haloRd (F := F) m).duties g r = ∅ :=
  fun r hr => by dsimp only [haloRd]; rw [if_neg fun h => by omega, if_neg fun h => by omega]

omit [FloatOps F] in
theorem amount_bar (d : Bool) : (haloRd (F := F) m).amount (barCell c) 0 d = 1 := by
  dsimp only [haloRd]; exact if_pos (.inl rfl)
omit [FloatOps F] in
theorem amount_exit (d : Bool) : (haloRd (F := F) m).amount (exitCell c) 0 d = 1 := by
  dsimp only [haloRd]; exact if_pos (.inr rfl)
omit [FloatOps F] in
theorem amount_rowSend (d : Bool) : (haloRd (F := F) m).amount (rowSendCell c) 0 d = Nrow := by
  dsimp only [haloRd]; rw [if_neg (fun h => h.elim rowSend_ne_bar rowSend_ne_exit)]; exact if_pos (.inl rfl)
omit [FloatOps F] in
theorem amount_rowRecv (d : Bool) : (haloRd (F := F) m).amount (rowRecvCell c) 0 d = Nrow := by
  dsimp only [haloRd]; rw [if_neg (fun h => h.elim rowRecv_ne_bar rowRecv_ne_exit)]; exact if_pos (.inr rfl)
omit [FloatOps F] in
theorem amount_colSend (d : Bool) : (haloRd (F := F) m).amount (colSendCell c) 0 d = Ncol := by
  dsimp only [haloRd]; rw [if_neg (fun h => h.elim colSend_ne_bar colSend_ne_exit)]
  exact if_neg (fun h => h.elim colSend_ne_rowSend colSend_ne_rowRecv)
omit [FloatOps F] in
theorem amount_colRecv (d : Bool) : (haloRd (F := F) m).amount (colRecvCell c) 0 d = Ncol := by
  dsimp only [haloRd]; rw [if_neg (fun h => h.elim colRecv_ne_bar colRecv_ne_exit)]
  exact if_neg (fun h => h.elim colRecv_ne_rowSend colRecv_ne_rowRecv)

omit [FloatOps F] in
theorem expect_bar : (haloRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_exit : (haloRd (F := F) m).expect (exitCell c) 0 = 2 := by
  unfold Schedule.expect Schedule.amountOf
  rw [duties_exit, Finset.sum_congr rfl fun d _ => amount_exit m c d, Finset.sum_const, Finset.card_univ, Fintype.card_bool, smul_eq_mul]
omit [FloatOps F] in
theorem expect_rowSend : (haloRd (F := F) m).expect (rowSendCell c) 0 = Nrow := by
  unfold Schedule.expect Schedule.amountOf; rw [duties_rowSend, Finset.sum_singleton, amount_rowSend]
omit [FloatOps F] in
theorem expect_rowRecv : (haloRd (F := F) m).expect (rowRecvCell c) 0 = Nrow := by
  unfold Schedule.expect Schedule.amountOf; rw [duties_rowRecv, Finset.sum_singleton, amount_rowRecv]
omit [FloatOps F] in
theorem expect_colSend : (haloRd (F := F) m).expect (colSendCell c) 0 = Ncol := by
  unfold Schedule.expect Schedule.amountOf; rw [duties_colSend, Finset.sum_singleton, amount_colSend]
omit [FloatOps F] in
theorem expect_colRecv : (haloRd (F := F) m).expect (colRecvCell c) 0 = Ncol := by
  unfold Schedule.expect Schedule.amountOf; rw [duties_colRecv, Finset.sum_singleton, amount_colRecv]

omit [FloatOps F] in
theorem payload_bar_false : (haloRd (F := F) m).payload (barCell c) 0 false = barPayX c := by
  dsimp only [haloRd]; rw [if_pos rfl]; exact if_neg Bool.false_ne_true
omit [FloatOps F] in
theorem payload_bar_true : (haloRd (F := F) m).payload (barCell c) 0 true = barPayY c := by
  dsimp only [haloRd]; rw [if_pos rfl, if_pos rfl]
omit [FloatOps F] in
theorem payload_exit (d : Bool) : (haloRd (F := F) m).payload (exitCell c) 0 d = iprop(emp) := by
  dsimp only [haloRd]
  rw [if_neg exit_ne_bar, if_neg (fun h => rowSend_ne_exit h.symm), if_neg (fun h => rowRecv_ne_exit h.symm),
    if_neg (fun h => colSend_ne_exit h.symm), if_neg (fun h => colRecv_ne_exit h.symm)]
theorem payload_rowSend (d : Bool) : (haloRd (F := F) m).payload (rowSendCell c) 0 d = xLent m c := by
  dsimp only [haloRd]; rw [if_neg rowSend_ne_bar, if_pos rfl]
theorem payload_rowRecv (d : Bool) : (haloRd (F := F) m).payload (rowRecvCell c) 0 d = rrPts c (rowLanded m c) := by
  dsimp only [haloRd]; rw [if_neg rowRecv_ne_bar, if_neg rowRecv_ne_rowSend, if_pos rfl]
theorem payload_colSend (d : Bool) : (haloRd (F := F) m).payload (colSendCell c) 0 d = csPts c (colMine m c) := by
  dsimp only [haloRd]; rw [if_neg colSend_ne_bar, if_neg colSend_ne_rowSend, if_neg colSend_ne_rowRecv, if_pos rfl]
theorem payload_colRecv (d : Bool) : (haloRd (F := F) m).payload (colRecvCell c) 0 d = crPts c (colLanded m c) := by
  dsimp only [haloRd]
  rw [if_neg colRecv_ne_bar, if_neg colRecv_ne_rowSend, if_neg colRecv_ne_rowRecv, if_neg colRecv_ne_colSend, if_pos rfl]

/-- The rest of a round of which no duty has been taken: every duty's payload. -/
theorem rest_bar : bigSep ((haloRd (F := F) m).duties (barCell c) 0 \ ∅) (fun d => (haloRd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_exit : bigSep ((haloRd (F := F) m).duties (exitCell c) 0 \ ∅) (fun d => (haloRd (F := F) m).payload (exitCell c) 0 d) = (iprop(emp ∗ emp) : sProp 𝕄) := by
  rw [Finset.sdiff_empty, duties_exit, bigSep_univ_eq_bigSepL [false, true] (by decide) (by decide), bigSepL_cons_cons, bigSepL_singleton,
    payload_exit, payload_exit]
  rfl
theorem rest_rowSend : bigSep ((haloRd (F := F) m).duties (rowSendCell c) 0 \ ∅) (fun d => (haloRd (F := F) m).payload (rowSendCell c) 0 d) = xLent m c := by
  rw [Finset.sdiff_empty, duties_rowSend, bigSep_singleton, payload_rowSend]
theorem rest_rowRecv : bigSep ((haloRd (F := F) m).duties (rowRecvCell c) 0 \ ∅) (fun d => (haloRd (F := F) m).payload (rowRecvCell c) 0 d) = rrPts c (rowLanded m c) := by
  rw [Finset.sdiff_empty, duties_rowRecv, bigSep_singleton, payload_rowRecv]
theorem rest_colSend : bigSep ((haloRd (F := F) m).duties (colSendCell c) 0 \ ∅) (fun d => (haloRd (F := F) m).payload (colSendCell c) 0 d) = csPts c (colMine m c) := by
  rw [Finset.sdiff_empty, duties_colSend, bigSep_singleton, payload_colSend]
theorem rest_colRecv : bigSep ((haloRd (F := F) m).duties (colRecvCell c) 0 \ ∅) (fun d => (haloRd (F := F) m).payload (colRecvCell c) 0 d) = crPts c (colLanded m c) := by
  rw [Finset.sdiff_empty, duties_colRecv, bigSep_singleton, payload_colRecv]

end Tables

end Cert.Kernel.Halo

end
-- ==== Proof.Kernel.Levels.lean ====
/-
  What a device owes at launch and after each payment, and the levels that order the waits. A device pays, in program
  order: a unit to `px c`'s entry barrier, a unit to `py c`'s, the eight rows' credit to `px c`'s row-receive cell, the
  column's credit to `py c`'s column-receive cell, a unit to `px c`'s exit barrier, a unit to `py c`'s. Entry barriers
  stand at level 1, transfer cells at 2, exit barriers at 3, the pipeline's own staging cells at 0: every wait is on
  a cell strictly below everything the waiter still owes.
-/
import proofs.«900187_g7700000000000188_dist_halo2d_stencil_xy_m1024_n1024_v7x_xy2x2_f32_1_alg».proof.Proof.Kernel.Tables

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is still owed after five, four, …, none of the six payments, each the next plus the payment still to make. -/
def O₅ (c : Dev nD) : CellTallies nD τ sig Unit := tallyAt (exitCell (py c)) () 1
def O₄ (c : Dev nD) : CellTallies nD τ sig Unit := O₅ c + tallyAt (exitCell (px c)) () 1
def O₃ (c : Dev nD) : CellTallies nD τ sig Unit := O₄ c + tallyAt (colRecvCell (py c)) () Ncol
def O₂ (c : Dev nD) : CellTallies nD τ sig Unit := O₃ c + tallyAt (rowRecvCell (px c)) () Nrow
def O₁ (c : Dev nD) : CellTallies nD τ sig Unit := O₂ c + tallyAt (barCell (py c)) () 1
def O₀ (c : Dev nD) : CellTallies nD τ sig Unit := O₁ c + tallyAt (barCell (px c)) () 1

def L (g : GSem nD τ sig) : Finset Unit := if g.1.2 = .tc then {()} else ∅
def lv (g : GSem nD τ sig) (_ : Unit) : ℕ :=
  if g.2 = .reg barS then 1 else if g.2 = .reg exitS then 3
  else if g.2 = .dma rowSendS ∨ g.2 = .dma rowRecvS ∨ g.2 = .dma colSendS ∨ g.2 = .dma colRecvS then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## Where a tally is positive -/

theorem pos_tally {g' g : GSem nD τ sig} {k : ℕ} {u : Unit} (h : 0 < tallyAt g' () k g u) : g = g' := by
  rw [tallyAt_apply] at h
  by_contra hg
  rw [if_neg (fun h' => hg h'.1)] at h
  exact Nat.lt_irrefl 0 h

theorem pos_add_tally {O : CellTallies nD τ sig Unit} {g' g : GSem nD τ sig} {k : ℕ} {u : Unit}
    (h : 0 < (O + tallyAt g' () k) g u) : 0 < O g u ∨ g = g' := by
  rw [Pi.add_apply, Finsupp.add_apply, tallyAt_apply] at h
  by_cases hg : g = g'
  · exact .inr hg
  · rw [if_neg (fun h' => hg h'.1), Nat.add_zero] at h; exact .inl h

theorem O₄_pos {c : Dev nD} {g : GSem nD τ sig} {u : Unit} (h : 0 < O₄ c g u) : g = exitCell (px c) ∨ g = exitCell (py c) := by
  unfold O₄ O₅ at h
  rcases pos_add_tally h with h | rfl
  · exact .inr (pos_tally h)
  · exact .inl rfl

theorem O₂_pos {c : Dev nD} {g : GSem nD τ sig} {u : Unit} (h : 0 < O₂ c g u) :
    g = rowRecvCell (px c) ∨ g = colRecvCell (py c) ∨ g = exitCell (px c) ∨ g = exitCell (py c) := by
  unfold O₂ O₃ at h
  rcases pos_add_tally h with h | rfl
  · rcases pos_add_tally h with h | rfl
    · exact .inr (.inr (O₄_pos h))
    · exact .inr (.inl rfl)
  · exact .inl rfl

theorem O₀_pos {c : Dev nD} {g : GSem nD τ sig} {u : Unit} (h : 0 < O₀ c g u) :
    g = barCell (px c) ∨ g = barCell (py c) ∨ g = rowRecvCell (px c) ∨ g = colRecvCell (py c) ∨ g = exitCell (px c) ∨ g = exitCell (py c) := by
  unfold O₀ O₁ at h
  rcases pos_add_tally h with h | rfl
  · rcases pos_add_tally h with h | rfl
    · exact .inr (.inr (O₂_pos h))
    · exact .inr (.inl rfl)
  · exact .inl rfl

/-! ## The levels of the six cells -/

theorem lv_bar (c : Dev nD) : lv (barCell c) () = 1 := by dsimp only [lv]; rw [if_pos rfl]
theorem lv_exit (c : Dev nD) : lv (exitCell c) () = 3 := by dsimp only [lv]; rw [if_neg exit_ne_bar, if_pos rfl]
theorem lv_rowSend (c : Dev nD) : lv (rowSendCell c) () = 2 := by
  dsimp only [lv]; rw [if_neg rowSend_ne_bar, if_neg rowSend_ne_exit, if_pos (.inl rfl)]
theorem lv_rowRecv (c : Dev nD) : lv (rowRecvCell c) () = 2 := by
  dsimp only [lv]; rw [if_neg rowRecv_ne_bar, if_neg rowRecv_ne_exit, if_pos (.inr (.inl rfl))]
theorem lv_colSend (c : Dev nD) : lv (colSendCell c) () = 2 := by
  dsimp only [lv]; rw [if_neg colSend_ne_bar, if_neg colSend_ne_exit, if_pos (.inr (.inr (.inl rfl)))]
theorem lv_colRecv (c : Dev nD) : lv (colRecvCell c) () = 2 := by
  dsimp only [lv]; rw [if_neg colRecv_ne_bar, if_neg colRecv_ne_exit, if_pos (.inr (.inr (.inr rfl)))]

omit [FloatOps F] in
/-- A wait on a staging semaphore of the pipeline, before the body (owing everything) or after it (owing nothing). -/
theorem mayWait_stage (c : Dev nD) (q : DmaSem sig)
    (hq : SemLoc.dma q ≠ .dma rowSendS ∧ SemLoc.dma q ≠ .dma rowRecvS ∧ SemLoc.dma q ≠ .dma colSendS ∧ SemLoc.dma q ≠ .dma colRecvS)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by cases h),
          if_neg (fun h => h.elim hq.1 fun h => h.elim hq.2.1 fun h => h.elim hq.2.2.1 hq.2.2.2)])
      (fun g u hg => by
        rcases O₀_pos hg with rfl | rfl | rfl | rfl | rfl | rfl
        · rw [lv_bar]; decide
        · rw [lv_bar]; decide
        · rw [lv_rowRecv]; decide
        · rw [lv_colRecv]; decide
        · rw [lv_exit]; decide
        · rw [lv_exit]; decide)
  · rw [MayWait_zero]; iintro -; iempintro

omit [FloatOps F] in
/-- At its entry-barrier wait a device owes the two transfers' credits and the two exit units. -/
theorem mayWait_bar (c : Dev nD) : (levAts L lv : sProp 𝕄) ⊢ MayWait (c : Thread nD τ) (.reg barS) () (O₂ c) := by
  refine MayOwe.of_cut (L := L) (lev := lv) 1 (fun p hp => by rw [Finset.mem_singleton.mp hp, L_tc]; exact Finset.mem_singleton_self _)
    (fun g u hg => by rcases O₂_pos hg with rfl | rfl | rfl | rfl <;> exact Finset.mem_singleton_self _)
    (fun p hp => by rw [Finset.mem_singleton.mp hp]; exact le_of_eq (lv_bar c))
    (fun g u hg => by
      rcases O₂_pos hg with rfl | rfl | rfl | rfl
      · rw [lv_rowRecv]; decide
      · rw [lv_colRecv]; decide
      · rw [lv_exit]; decide
      · rw [lv_exit]; decide)

omit [FloatOps F] in
/-- At each of its four transfer waits it owes the two exit units. -/
theorem mayWait_xfer (c : Dev nD) (q : DmaSem sig)
    (hq : SemLoc.dma q = .dma rowSendS ∨ SemLoc.dma q = .dma rowRecvS ∨ SemLoc.dma q = .dma colSendS ∨ SemLoc.dma q = .dma colRecvS) :
    (levAts L lv : sProp 𝕄) ⊢ MayWait (c : Thread nD τ) (.dma q) () (O₄ c) := by
  refine MayOwe.of_cut (L := L) (lev := lv) 2 (fun p hp => by rw [Finset.mem_singleton.mp hp, L_tc]; exact Finset.mem_singleton_self _)
    (fun g u hg => by rcases O₄_pos hg with rfl | rfl <;> exact Finset.mem_singleton_self _)
    (fun p hp => by
      rw [Finset.mem_singleton.mp hp]
      rcases hq with h | h | h | h
      · exact le_of_eq ((congrArg (fun s => lv ((c : Thread nD τ), s) ()) h).trans (lv_rowSend c))
      · exact le_of_eq ((congrArg (fun s => lv ((c : Thread nD τ), s) ()) h).trans (lv_rowRecv c))
      · exact le_of_eq ((congrArg (fun s => lv ((c : Thread nD τ), s) ()) h).trans (lv_colSend c))
      · exact le_of_eq ((congrArg (fun s => lv ((c : Thread nD τ), s) ()) h).trans (lv_colRecv c)))
    (fun g u hg => by
      rcases O₄_pos hg with rfl | rfl
      · rw [lv_exit]; decide
      · rw [lv_exit]; decide)

/-! ## What the devices owe one cell, summed -/

/-- A tally at another semaphore's cell contributes nothing. -/
theorem tally_other (x c : Dev nD) {s s' : SemLoc sig} (hs : s' ≠ s) (k : ℕ) :
    tallyAt ((x : Thread nD τ), s) () k ((c : Thread nD τ), s') () = 0 := by
  rw [tallyAt_ne_cell (fun h => hs (congrArg Prod.snd h))]; rfl

/-- A tally at the cell of the peer `f d`, read at device `c`'s cell of the same semaphore: it is there exactly when
    `d` is `c`'s peer, `f` being an involution. -/
theorem tally_peer (f : Dev nD → Dev nD) (hf : ∀ x, f (f x) = x) (s : SemLoc sig) (k : ℕ) (d c : Dev nD) :
    tallyAt ((f d : Thread nD τ), s) () k ((c : Thread nD τ), s) () = if d = f c then k else 0 := by
  rw [tallyAt_apply]
  by_cases h : d = f c
  · subst h; rw [hf, if_pos ⟨rfl, rfl⟩, if_pos rfl]
  · rw [if_neg (fun h' => h ((hf d).symm.trans (congrArg f (congrArg (fun g : GSem nD τ sig => g.1.1) h'.1)).symm)), if_neg h]

theorem owed_bar (d c : Dev nD) : O₀ d (barCell c) () = (if d = py c then 1 else 0) + (if d = px c then 1 else 0) := by
  unfold O₀ O₁ O₂ O₃ O₄ O₅
  simp only [Pi.add_apply, Finsupp.add_apply]
  rw [tally_other (py d) c bar_ne_exit, tally_other (px d) c bar_ne_exit, tally_other (py d) c colRecv_ne_bar.symm,
    tally_other (px d) c rowRecv_ne_bar.symm, tally_peer py py_py (.reg barS) 1 d c, tally_peer px px_px (.reg barS) 1 d c] <;>
    simp only [Nat.zero_add, Nat.add_zero]

theorem owed_exit (d c : Dev nD) : O₀ d (exitCell c) () = (if d = py c then 1 else 0) + (if d = px c then 1 else 0) := by
  unfold O₀ O₁ O₂ O₃ O₄ O₅
  simp only [Pi.add_apply, Finsupp.add_apply]
  rw [tally_peer py py_py (.reg exitS) 1 d c, tally_peer px px_px (.reg exitS) 1 d c, tally_other (py d) c colRecv_ne_exit.symm,
    tally_other (px d) c rowRecv_ne_exit.symm, tally_other (py d) c exit_ne_bar, tally_other (px d) c exit_ne_bar] <;>
    simp only [Nat.zero_add, Nat.add_zero]

theorem owed_rowRecv (d c : Dev nD) : O₀ d (rowRecvCell c) () = if d = px c then Nrow else 0 := by
  unfold O₀ O₁ O₂ O₃ O₄ O₅
  simp only [Pi.add_apply, Finsupp.add_apply]
  rw [tally_other (py d) c rowRecv_ne_exit, tally_other (px d) c rowRecv_ne_exit, tally_other (py d) c rowRecv_ne_colRecv,
    tally_peer px px_px (.dma rowRecvS) Nrow d c, tally_other (py d) c rowRecv_ne_bar, tally_other (px d) c rowRecv_ne_bar] <;>
    simp only [Nat.zero_add, Nat.add_zero]

theorem owed_colRecv (d c : Dev nD) : O₀ d (colRecvCell c) () = if d = py c then Ncol else 0 := by
  unfold O₀ O₁ O₂ O₃ O₄ O₅
  simp only [Pi.add_apply, Finsupp.add_apply]
  rw [tally_other (py d) c colRecv_ne_exit, tally_other (px d) c colRecv_ne_exit, tally_peer py py_py (.dma colRecvS) Ncol d c,
    tally_other (px d) c colRecv_ne_rowRecv, tally_other (py d) c colRecv_ne_bar, tally_other (px d) c colRecv_ne_bar] <;>
    simp only [Nat.zero_add, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]

theorem launch_exit (c : Dev nD) :
    tallyOn (exitCell c) (launchCredit (Pipeline.owing O₀) 0 (exitCell c)) = (tallyAt (exitCell c) () 2 : CellTallies nD τ sig Unit) := by
  unfold tallyAt; refine congrArg _ (Finsupp.ext fun u => ?_); cases u
  rw [Pipeline.launchCredit_owing, Finsupp.single_eq_same, Finset.sum_congr rfl fun d _ => owed_exit d c, Finset.sum_add_distrib,
    Finset.sum_ite_eq' Finset.univ (py c) fun _ => 1, Finset.sum_ite_eq' Finset.univ (px c) fun _ => 1, if_pos (Finset.mem_univ _), if_pos (Finset.mem_univ _)]

theorem launch_rowRecv (c : Dev nD) :
    tallyOn (rowRecvCell c) (launchCredit (Pipeline.owing O₀) 0 (rowRecvCell c)) = (tallyAt (rowRecvCell c) () Nrow : CellTallies nD τ sig Unit) := by
  unfold tallyAt; refine congrArg _ (Finsupp.ext fun u => ?_); cases u
  rw [Pipeline.launchCredit_owing, Finsupp.single_eq_same, Finset.sum_congr rfl fun d _ => owed_rowRecv d c,
    Finset.sum_ite_eq' Finset.univ (px c) fun _ => Nrow, if_pos (Finset.mem_univ _)]

theorem launch_colRecv (c : Dev nD) :
    tallyOn (colRecvCell c) (launchCredit (Pipeline.owing O₀) 0 (colRecvCell c)) = (tallyAt (colRecvCell c) () Ncol : CellTallies nD τ sig Unit) := by
  unfold tallyAt; refine congrArg _ (Finsupp.ext fun u => ?_); cases u
  rw [Pipeline.launchCredit_owing, Finsupp.single_eq_same, Finset.sum_congr rfl fun d _ => owed_colRecv d c,
    Finset.sum_ite_eq' Finset.univ (py c) fun _ => Ncol, if_pos (Finset.mem_univ _)]

omit [FloatOps F] in
/-- The credit the launch deals a device: what its peers owe its entry barrier, its two receive cells and its exit barrier. -/
theorem creds (c : Dev nD) :
    (Pipeline.launchCred O₀ c : sProp 𝕄) ⊢ iprop(cred (tallyAt (barCell c) () 2) ∗ cred (tallyAt (rowRecvCell c) () Nrow)
      ∗ cred (tallyAt (colRecvCell c) () Ncol) ∗ cred (tallyAt (exitCell c) () 2)) := by
  unfold Pipeline.launchCred
  rw [bigSep_univ_at _ (SemLoc.reg barS), launch_bar]
  refine sep_mono_right ?_
  rw [bigSep_erase (i := SemLoc.dma rowRecvS) (Finset.mem_erase.mpr ⟨rowRecv_ne_bar, Finset.mem_univ _⟩), launch_rowRecv]
  refine sep_mono_right ?_
  rw [bigSep_erase (i := SemLoc.dma colRecvS)
    (Finset.mem_erase.mpr ⟨colRecv_ne_rowRecv, Finset.mem_erase.mpr ⟨colRecv_ne_bar, Finset.mem_univ _⟩⟩), launch_colRecv]
  refine sep_mono_right ?_
  rw [← launch_exit]
  exact bigSep_elim (Finset.mem_erase.mpr ⟨colRecv_ne_exit.symm,
    Finset.mem_erase.mpr ⟨rowRecv_ne_exit.symm, Finset.mem_erase.mpr ⟨exit_ne_bar, Finset.mem_univ _⟩⟩⟩)

end Cert.Kernel.Halo

end
-- ==== Proof.Kernel.Data.lean ====
/-
  What a device's body starts from and what it ends with. It starts from the twelve cell invariants it opens (its own
  six cells, both peers' entry and exit barriers, `px c`'s row-receive cell and `py c`'s column-receive cell), its
  position at round 0 of its own cells, the rounds it knows reached, the eight tokens of the duties it pays, the
  credit for its four waits on cells its peers pay, the level facts, and its three scratch buffers at any contents.
  It ends with the eight received rows and the received column in place, its sent column back, and its five own cells
  closed at zero. The staged input block is unchanged and the staged result block is the device's block of the result.
-/
import proofs.«900187_g7700000000000188_dist_halo2d_stencil_xy_m1024_n1024_v7x_xy2x2_f32_1_alg».proof.Proof.Kernel.Levels

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cell invariants device `c`'s body opens, under the names `K` the launch allocated them at. -/
def invs (K : Dev nD × Fin 6 → ℕ) (c : Dev nD) : sProp 𝕄 :=
  iprop(cellInv ER (haloRd m) (K (c, 0)) (barCell c) ∗ cellInv ER (haloRd m) (K (c, 1)) (rowSendCell c) ∗ cellInv ER (haloRd m) (K (c, 2)) (rowRecvCell c)
    ∗ cellInv ER (haloRd m) (K (c, 3)) (colSendCell c) ∗ cellInv ER (haloRd m) (K (c, 4)) (colRecvCell c) ∗ cellInv ER (haloRd m) (K (c, 5)) (exitCell c)
    ∗ cellInv ER (haloRd m) (K (px c, 0)) (barCell (px c)) ∗ cellInv ER (haloRd m) (K (py c, 0)) (barCell (py c))
    ∗ cellInv ER (haloRd m) (K (px c, 2)) (rowRecvCell (px c)) ∗ cellInv ER (haloRd m) (K (py c, 4)) (colRecvCell (py c))
    ∗ cellInv ER (haloRd m) (K (px c, 5)) (exitCell (px c)) ∗ cellInv ER (haloRd m) (K (py c, 5)) (exitCell (py c)))

instance invs_persistent (K : Dev nD × Fin 6 → ℕ) (c : Dev nD) : BI.Persistent (invs m K c) := by unfold invs; infer_instance

/-- Its positions at round 0 of its own six cells. -/
def positions (c : Dev nD) : sProp 𝕄 :=
  iprop(atPos ER (barCell c) 0 ∅ 0 ∗ atPos ER (rowSendCell c) 0 ∅ 0 ∗ atPos ER (rowRecvCell c) 0 ∅ 0
    ∗ atPos ER (colSendCell c) 0 ∅ 0 ∗ atPos ER (colRecvCell c) 0 ∅ 0 ∗ atPos ER (exitCell c) 0 ∅ 0)

/-- The rounds it knows reached: of the six cells of its peers it pays, and of its own four transfer cells. -/
def marks (c : Dev nD) : sProp 𝕄 :=
  iprop(reached ER (barCell (px c)) 0 ∗ reached ER (barCell (py c)) 0 ∗ reached ER (rowRecvCell (px c)) 0 ∗ reached ER (colRecvCell (py c)) 0
    ∗ reached ER (exitCell (px c)) 0 ∗ reached ER (exitCell (py c)) 0
    ∗ reached ER (rowSendCell c) 0 ∗ reached ER (rowRecvCell c) 0 ∗ reached ER (colSendCell c) 0 ∗ reached ER (colRecvCell c) 0)

instance marks_persistent (c : Dev nD) : BI.Persistent (marks (F := F) c) := by unfold marks; infer_instance

/-- The tokens of the eight duties it pays: towards `px c` it is the payer named `false`, towards `py c` the payer named
    `true`; a transfer cell's one duty is named `false`. -/
def payToks (c : Dev nD) : sProp 𝕄 :=
  iprop(dutyTok ER (barCell (px c)) 0 false ∗ dutyTok ER (barCell (py c)) 0 true
    ∗ dutyTok ER (rowSendCell c) 0 false ∗ dutyTok ER (rowRecvCell (px c)) 0 false
    ∗ dutyTok ER (colSendCell c) 0 false ∗ dutyTok ER (colRecvCell (py c)) 0 false
    ∗ dutyTok ER (exitCell (px c)) 0 false ∗ dutyTok ER (exitCell (py c)) 0 true)

def ghost (K : Dev nD × Fin 6 → ℕ) (c : Dev nD) : sProp 𝕄 :=
  iprop(invs m K c ∗ positions c ∗ marks c ∗ payToks c)

/-- The credit for its four waits on cells its peers pay. -/
def credits (c : Dev nD) : sProp 𝕄 :=
  iprop(cred (tallyAt (barCell c) () 2) ∗ cred (tallyAt (rowRecvCell c) () Nrow)
    ∗ cred (tallyAt (colRecvCell c) () Ncol) ∗ cred (tallyAt (exitCell c) () 2))

def start (c : Dev nD) : sProp 𝕄 := iprop((∃ K, ghost m K c) ∗ credits c ∗ levAts L lv)

/-- Its three scratch buffers at any contents. -/
def scratch (c : Dev nD) : sProp 𝕄 := iprop((∃ f, rrPts c f) ∗ (∃ f, crPts c f) ∗ (∃ f, csPts c f))

def Φ₀ (c : Dev nD) : sProp 𝕄 := iprop(start m c ∗ scratch c)

/-- After the body: what landed, what was sent, and the five own cells closed. -/
def Φ₁ (c : Dev nD) : sProp 𝕄 :=
  iprop(rrPts c (rowLanded m c) ∗ crPts c (colLanded m c) ∗ csPts c (colMine m c)
    ∗ semVal (rowSendCell c) 0 ∗ semVal (rowRecvCell c) 0 ∗ semVal (colSendCell c) 0 ∗ semVal (colRecvCell c) 0 ∗ semVal (exitCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem share_eq (c : Dev nD) (w : Fin cfg0.W) : (dats m 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body at the one grid point, and what it wants back. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

end Cert.Kernel.Halo

end
-- ==== Proof.Kernel.Body.lean ====
/-
  One device's body, from the state the launch hands it to the state it hands back. In program order the device
  gives each peer a unit on that peer's entry barrier — handing `px c` its own eight-row landing buffer and `py c` its
  own column landing buffer —, waits for its own two units and so receives its peers' landing buffers, lends half of
  the eight-row band of its block to the transfer into `px c`'s buffer and goes on reading the block with the other
  half, stores its edge column into the send buffer and transfers it into `py c`'s buffer, stores the five-point sum,
  waits for the band to have left and for `px c`'s rows to have landed, adds their share, waits for the column to have
  left and for `py c`'s to have landed, adds its share, restores the whole array's outermost row and column, gives
  each peer a unit on that peer's exit barrier and waits for its own two. Every wait is on a cell below everything the
  device still owes. At the end the band's lent half is joined to the kept half again, the five own cells are closed
  at zero, and the result buffer holds the five stores over whatever it held, which is the block `outAt`.
-/
import proofs.«900187_g7700000000000188_dist_halo2d_stencil_xy_m1024_n1024_v7x_xy2x2_f32_1_alg».proof.Proof.Kernel.Data
import proofs.«900187_g7700000000000188_dist_halo2d_stencil_xy_m1024_n1024_v7x_xy2x2_f32_1_alg».proof.Proof.Kernel.Tables
import proofs.«900187_g7700000000000188_dist_halo2d_stencil_xy_m1024_n1024_v7x_xy2x2_f32_1_alg».proof.Proof.Gen.Kernel.Skeleton
import proofs.«900187_g7700000000000188_dist_halo2d_stencil_xy_m1024_n1024_v7x_xy2x2_f32_1_alg».proof.Proof.Gen.Kernel.Points
import Idealize.ShloMosaic.Lib.Pipeline.FrameBody
import Idealize.ShloMosaic.Lib.Pipeline.Value

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

local notation "A0" => (Memref.whole cc0_stg0_0 : Memref sig Kind.tc Space.vmem S1024x1024 EltTy.f32)
local notation "A1" => (Memref.whole cc0_stg1_0 : Memref sig Kind.tc Space.vmem S1024x1024 EltTy.f32)
local notation "A2" => (Memref.whole cc0_scratch0 : Memref sig Kind.tc Space.vmem S8x1024 EltTy.f32)
local notation "A3" => (Memref.whole cc0_scratch1 : Memref sig Kind.tc Space.vmem S1x1024 EltTy.f32)
local notation "A4" => (Memref.whole cc0_scratch2 : Memref sig Kind.tc Space.vmem S1x1024 EltTy.f32)

/-- The eight rows of a block memref that go to `px c`. -/
abbrev bandOf (a0 : Memref sig .tc .vmem S1024x1024 .f32) (c : Dev nD) : Memref sig .tc .vmem S8x1024 .f32 :=
  a0.slice (Rect.unit (s := S1024x1024) (k0_off1 c) S8x1024.size (k0_off1_inb c)) (fun _ => rfl)

/-! ## A buffer held through a memref that is the whole buffer -/

omit [FloatOps F] in
/-- Holding the eight-row buffer whole is owning it at its contents, through any memref that is the whole buffer. -/
theorem own2_of (a2 : Memref sig .tc .vmem S8x1024 .f32) (h2 : a2 = (A2)) (c' : Dev nD) (X : RC F) :
    ((A2).view.loc (c' : Thread nD τ) ↦[(A2).view.set]{fullShare} X : sProp 𝕄)
      ⊢ owns (Ix := Unit) (Name := ℕ) (U := UU) (Lvl := ℕ) (c' : Thread nD τ) a2 fullShare X := by
  subst h2; unfold owns; iintro H; iexists X; isplitr; · (ipureintro; exact View.read_whole _ _)
  iexact H
omit [FloatOps F] in
theorem pts2_of (a2 : Memref sig .tc .vmem S8x1024 .f32) (h2 : a2 = (A2)) (c' : Dev nD) (X : RC F) :
    (owns (Ix := Unit) (Name := ℕ) (U := UU) (Lvl := ℕ) (c' : Thread nD τ) a2 fullShare X : sProp 𝕄)
      ⊢ ((A2).view.loc (c' : Thread nD τ) ↦[(A2).view.set]{fullShare} X) := by
  subst h2; unfold owns; iintro ⟨%f, %hf, H⟩
  have hf' : f = X := ((View.read_whole _ _).symm.trans hf)
  subst hf'; iexact H
omit [FloatOps F] in
theorem own3_of (a3 : Memref sig .tc .vmem S1x1024 .f32) (h3 : a3 = (A3)) (c' : Dev nD) (X : CC F) :
    ((A3).view.loc (c' : Thread nD τ) ↦[(A3).view.set]{fullShare} X : sProp 𝕄)
      ⊢ owns (Ix := Unit) (Name := ℕ) (U := UU) (Lvl := ℕ) (c' : Thread nD τ) a3 fullShare X := by
  subst h3; unfold owns; iintro H; iexists X; isplitr; · (ipureintro; exact View.read_whole _ _)
  iexact H
omit [FloatOps F] in
theorem pts3_of (a3 : Memref sig .tc .vmem S1x1024 .f32) (h3 : a3 = (A3)) (c' : Dev nD) (X : CC F) :
    (owns (Ix := Unit) (Name := ℕ) (U := UU) (Lvl := ℕ) (c' : Thread nD τ) a3 fullShare X : sProp 𝕄)
      ⊢ ((A3).view.loc (c' : Thread nD τ) ↦[(A3).view.set]{fullShare} X) := by
  subst h3; unfold owns; iintro ⟨%f, %hf, H⟩
  have hf' : f = X := ((View.read_whole _ _).symm.trans hf)
  subst hf'; iexact H
omit [FloatOps F] in
theorem own4_of (a4 : Memref sig .tc .vmem S1x1024 .f32) (h4 : a4 = (A4)) (c' : Dev nD) (X : CC F) :
    ((A4).view.loc (c' : Thread nD τ) ↦[(A4).view.set]{fullShare} X : sProp 𝕄)
      ⊢ owns (Ix := Unit) (Name := ℕ) (U := UU) (Lvl := ℕ) (c' : Thread nD τ) a4 fullShare X := by
  subst h4; unfold owns; iintro H; iexists X; isplitr; · (ipureintro; exact View.read_whole _ _)
  iexact H
omit [FloatOps F] in
theorem pts4_of (a4 : Memref sig .tc .vmem S1x1024 .f32) (h4 : a4 = (A4)) (c' : Dev nD) (X : CC F) :
    (owns (Ix := Unit) (Name := ℕ) (U := UU) (Lvl := ℕ) (c' : Thread nD τ) a4 fullShare X : sProp 𝕄)
      ⊢ ((A4).view.loc (c' : Thread nD τ) ↦[(A4).view.set]{fullShare} X) := by
  subst h4; unfold owns; iintro ⟨%f, %hf, H⟩
  have hf' : f = X := ((View.read_whole _ _).symm.trans hf)
  subst hf'; iexact H

/-! ## The staged block, cut for the row transfer and put together again -/

omit [FloatOps F] in
theorem band_sub (a0 : Memref sig .tc .vmem S1024x1024 .f32) (h0 : a0 = (A0)) (c : Dev nD) : (bandOf a0 c).view.set ⊆ a0.view.set := by
  subst h0
  rw [show (A0).view.set = Finset.univ from View.set_whole _]; exact Finset.subset_univ _

omit [FloatOps F] in
/-- A half of the whole block is kept for reading; the other half is cut into the eight-row band that is lent to the
    transfer and the rest. -/
theorem xv_split (a0 : Memref sig .tc .vmem S1024x1024 .f32) (h0 : a0 = (A0)) (c : Dev nD) (f0 : Buf (Elt F) (a0.view.loc (c : Thread nD τ))) :
    (a0.view.loc (c : Thread nD τ) ↦[a0.view.set]{fullShare} f0 : sProp 𝕄)
      ⊢ iprop((a0.view.loc (c : Thread nD τ) ↦[a0.view.set]{fullShare.left} f0)
          ∗ ((bandOf a0 c).view.loc (c : Thread nD τ) ↦[(bandOf a0 c).view.set]{fullShare.right} f0)
          ∗ (a0.view.loc (c : Thread nD τ) ↦[a0.view.set \ (bandOf a0 c).view.set]{fullShare.right} f0)) := by
  iintro H
  ihave H' := (pointsTo_share (PosShare.mem_left_op_right fullShare)).1 $$ H
  icases H' with ⟨Hl, Hr⟩
  ihave Hr' := (pointsTo_split_subset (ℓ := a0.view.loc (c : Thread nD τ)) (q := fullShare.right) (f := f0) (band_sub a0 h0 c)).1 $$ Hr
  icases Hr' with ⟨Hlent, Hrest⟩
  isplitl [Hl]; · iexact Hl
  isplitl [Hlent]; · iexact Hlent
  iexact Hrest

omit [FloatOps F] in
theorem xv_join (a0 : Memref sig .tc .vmem S1024x1024 .f32) (h0 : a0 = (A0)) (c : Dev nD) (f0 : Buf (Elt F) (a0.view.loc (c : Thread nD τ))) :
    iprop((a0.view.loc (c : Thread nD τ) ↦[a0.view.set]{fullShare.left} f0)
          ∗ ((bandOf a0 c).view.loc (c : Thread nD τ) ↦[(bandOf a0 c).view.set]{fullShare.right} f0)
          ∗ (a0.view.loc (c : Thread nD τ) ↦[a0.view.set \ (bandOf a0 c).view.set]{fullShare.right} f0))
      ⊢ (a0.view.loc (c : Thread nD τ) ↦[a0.view.set]{fullShare} f0 : sProp 𝕄) := by
  iintro ⟨Hl, Hlent, Hrest⟩
  ihave Hr := (pointsTo_split_subset (ℓ := a0.view.loc (c : Thread nD τ)) (q := fullShare.right) (f := f0) (band_sub a0 h0 c)).2 $$ [Hlent Hrest]
  · isplitl [Hlent] <;> iassumption
  iapply (pointsTo_share (PosShare.mem_left_op_right fullShare)).2
  isplitl [Hl] <;> iassumption

/-! ## The schedule's payloads at the cells a device touches, spelt as the buffers themselves -/

theorem pay_barX_peer (c : Dev nD) : (haloRd (F := F) m).payload (barCell (px c)) 0 false
    = iprop((∃ f, ((A2).view.loc (c : Thread nD τ) ↦[(A2).view.set]{fullShare} f)) ∗ reached ER (rowRecvCell c) 0) := by
  rw [payload_bar_false]; unfold barPayX; rw [px_px]; rfl
theorem pay_barY_peer (c : Dev nD) : (haloRd (F := F) m).payload (barCell (py c)) 0 true
    = iprop((∃ f, ((A3).view.loc (c : Thread nD τ) ↦[(A3).view.set]{fullShare} f)) ∗ reached ER (colRecvCell c) 0) := by
  rw [payload_bar_true]; unfold barPayY; rw [py_py]; rfl
theorem pay_rowSend_own (c : Dev nD) (d : Bool) : (haloRd (F := F) m).payload (rowSendCell c) 0 d
    = ((rowSrc c).view.loc (c : Thread nD τ) ↦[(rowSrc c).view.set]{fullShare.right} xstg m c : sProp 𝕄) := by
  rw [payload_rowSend]; rfl
theorem pay_rowRecv_own (c : Dev nD) (d : Bool) : (haloRd (F := F) m).payload (rowRecvCell c) 0 d
    = ((A2).view.loc (c : Thread nD τ) ↦[(A2).view.set]{fullShare} rowLanded m c : sProp 𝕄) := by
  rw [payload_rowRecv]; rfl
theorem pay_colSend_own (c : Dev nD) (d : Bool) : (haloRd (F := F) m).payload (colSendCell c) 0 d
    = ((A4).view.loc (c : Thread nD τ) ↦[(A4).view.set]{fullShare} colMine m c : sProp 𝕄) := by
  rw [payload_colSend]; rfl
theorem pay_colRecv_own (c : Dev nD) (d : Bool) : (haloRd (F := F) m).payload (colRecvCell c) 0 d
    = ((A3).view.loc (c : Thread nD τ) ↦[(A3).view.set]{fullShare} colLanded m c : sProp 𝕄) := by
  rw [payload_colRecv]; rfl

/-- What the entry barrier's two duties hand over together: the peers' landing buffers. -/
theorem bar_pays (c : Dev nD) : bigSep Finset.univ (fun d : Bool => (haloRd (F := F) m).payload (barCell c) 0 d)
    = iprop(((∃ f, ((A2).view.loc (px c : Thread nD τ) ↦[(A2).view.set]{fullShare} f)) ∗ reached ER (rowRecvCell (px c)) 0)
        ∗ ((∃ f, ((A3).view.loc (py c : Thread nD τ) ↦[(A3).view.set]{fullShare} f)) ∗ reached ER (colRecvCell (py c)) 0)) := by
  rw [bigSep_univ_eq_bigSepL [false, true] (by decide) (by decide), bigSepL_cons_cons, bigSepL_singleton, payload_bar_false, payload_bar_true]
  rfl

attribute [local sl_rounds] duties_bar duties_exit duties_rowSend duties_rowRecv duties_colSend duties_colRecv
  amount_bar amount_exit amount_rowSend amount_rowRecv amount_colSend amount_colRecv
  expect_bar expect_exit expect_rowSend expect_rowRecv expect_colSend expect_colRecv
  payload_exit pay_rowSend_own pay_rowRecv_own pay_colSend_own pay_colRecv_own
attribute [local sl_rounds high] pay_barX_peer pay_barY_peer
attribute [local sl_canon] dev1_eq dev2_eq dev3_eq dev4_eq dev5_eq dev6_eq

/-! ## The two addressed transfers at the exchange's cells -/

set_option maxHeartbeats 1600000 in
/-- The row transfer: the lent band of the block departs, `px c`'s landing buffer arrives holding it. -/
theorem wp_send_row (K : Dev nD × Fin 6 → ℕ) (c n : Dev nD) (hn : n = px c)
    {hsc : ((A2) : Memref sig (Dev.tc n : Thread nD τ).2.kind .vmem S8x1024 .f32).view.ref.isScScratch = false}
    {hsrc : (rowSrc c).view.WordExact} {hdst : (A2).view.WordExact}
    {hsem : DmaTarget.Typed .vmem (.dma rowRecvS) (.remote (Dev.tc n : Thread nD τ) (A2) (.dma rowSendS) hsc)}
    {α : Type} {Q : α → sProp 𝕄} {k : PUnit → Prog (TpuEff nD τ sig (Elt F) Λ₀ .tc) α}
    (fn : Buf (Elt F) ((A2).view.loc (px c : Thread nD τ))) (O : CellTallies nD τ sig Unit) (W : Waits sig Unit) :
    iprop(cellInv ER (haloRd m) (K (c, 1)) (rowSendCell c) ∗ cellInv ER (haloRd m) (K (px c, 2)) (rowRecvCell (px c))
        ∗ ((rowSrc c).view.loc (c : Thread nD τ) ↦[(rowSrc c).view.set]{fullShare.right} xstg m c)
        ∗ ((A2).view.loc (px c : Thread nD τ) ↦[(A2).view.set]{fullShare} fn)
        ∗ owes (c : Thread nD τ) (O + tallyAt (rowRecvCell (px c)) () Nrow) W
        ∗ dutyTok ER (rowSendCell c) 0 false ∗ reached ER (rowSendCell c) 0
        ∗ dutyTok ER (rowRecvCell (px c)) 0 false ∗ reached ER (rowRecvCell (px c)) 0)
      ⊢ iprop(((cred (tallyAt (rowSendCell c) () Nrow) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowSrc c) (.remote (Dev.tc n : Thread nD τ) (A2) (.dma rowSendS) hsc) (.dma rowRecvS) hsrc hdst hsem) k) Q) := by
  subst hn
  exact Rounds.wp_send_pointsTo 𝒱₀ ER (haloRd m) (c : Thread nD τ) none (κ₁ := K (c, 1)) (κ₂ := K (px c, 2))
    (c' := (px c : Thread nD τ)) (src := rowSrc c) (dst := (A2)) (sS := .dma rowSendS) (sem := .dma rowRecvS)
    (r₁ := 0) (r₂ := 0) (d₁ := false) (d₂ := false) (fd := fn) (q := fullShare.right) (fs := xstg m c)
    (by rw [duties_rowSend]; exact Finset.mem_singleton_self _) (by rw [duties_rowRecv]; exact Finset.mem_singleton_self _)
    () () Nrow rfl (amount_rowSend m c false) (amount_rowRecv m (px c) false) O rfl (W := W)
    (by rw [payload_rowSend]; unfold xLent; exact BI.Entails.refl _)
    (by rw [payload_rowRecv]; unfold rrPts; rw [← rowLanded_eq m (px c) fn, px_px])

set_option maxHeartbeats 1600000 in
/-- The same through memrefs that are the whole buffers. -/
theorem wp_send_row' (K : Dev nD × Fin 6 → ℕ) (a0 : Memref sig .tc .vmem S1024x1024 .f32) (a2 : Memref sig .tc .vmem S8x1024 .f32)
    (h0 : a0 = (A0)) (h2 : a2 = (A2)) (c n : Dev nD) (hn : n = px c)
    {hsc : (a2 : Memref sig (Dev.tc n : Thread nD τ).2.kind .vmem S8x1024 .f32).view.ref.isScScratch = false}
    {hsrc : (bandOf a0 c).view.WordExact} {hdst : a2.view.WordExact}
    {hsem : DmaTarget.Typed .vmem (.dma rowRecvS) (.remote (Dev.tc n : Thread nD τ) a2 (.dma rowSendS) hsc)}
    {α : Type} {Q : α → sProp 𝕄} {k : PUnit → Prog (TpuEff nD τ sig (Elt F) Λ₀ .tc) α}
    (f0 : Buf (Elt F) (a0.view.loc (c : Thread nD τ))) (hf0 : a0.view.read (Elt F) f0 = xstg m c)
    (fn : Buf (Elt F) ((A2).view.loc (px c : Thread nD τ))) (O : CellTallies nD τ sig Unit) (W : Waits sig Unit) :
    iprop(cellInv ER (haloRd m) (K (c, 1)) (rowSendCell c) ∗ cellInv ER (haloRd m) (K (px c, 2)) (rowRecvCell (px c))
        ∗ ((bandOf a0 c).view.loc (c : Thread nD τ) ↦[(bandOf a0 c).view.set]{fullShare.right} f0)
        ∗ ((A2).view.loc (px c : Thread nD τ) ↦[(A2).view.set]{fullShare} fn)
        ∗ owes (c : Thread nD τ) (O + tallyAt (rowRecvCell (px c)) () Nrow) W
        ∗ dutyTok ER (rowSendCell c) 0 false ∗ reached ER (rowSendCell c) 0
        ∗ dutyTok ER (rowRecvCell (px c)) 0 false ∗ reached ER (rowRecvCell (px c)) 0)
      ⊢ iprop(((cred (tallyAt (rowSendCell c) () Nrow) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bandOf a0 c) (.remote (Dev.tc n : Thread nD τ) a2 (.dma rowSendS) hsc) (.dma rowRecvS) hsrc hdst hsem) k) Q) := by
  subst h0 h2
  have hf : f0 = xstg m c := ((View.read_whole _ _).symm.trans hf0)
  subst hf
  exact wp_send_row m K c n hn fn O W

set_option maxHeartbeats 1600000 in
/-- The column transfer: the send buffer departs whole, `py c`'s landing buffer arrives holding it. -/
theorem wp_send_col (K : Dev nD × Fin 6 → ℕ) (c n : Dev nD) (hn : n = py c)
    {hsc : ((A3) : Memref sig (Dev.tc n : Thread nD τ).2.kind .vmem S1x1024 .f32).view.ref.isScScratch = false}
    {hsrc : (A4).view.WordExact} {hdst : (A3).view.WordExact}
    {hsem : DmaTarget.Typed .vmem (.dma colRecvS) (.remote (Dev.tc n : Thread nD τ) (A3) (.dma colSendS) hsc)}
    {α : Type} {Q : α → sProp 𝕄} {k : PUnit → Prog (TpuEff nD τ sig (Elt F) Λ₀ .tc) α}
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ ((A4).view.loc (c : Thread nD τ) ↦[(A4).view.set]{fullShare} colMine m c)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (A4) (.remote (Dev.tc n : Thread nD τ) (A3) (.dma colSendS) hsc) (.dma colRecvS) hsrc hdst hsem) k) Q) := by
  subst hn
  exact Rounds.wp_send_pointsTo 𝒱₀ ER (haloRd m) (c : Thread nD τ) none (κ₁ := K (c, 3)) (κ₂ := K (py c, 4))
    (c' := (py c : Thread nD τ)) (src := (A4)) (dst := (A3)) (sS := .dma colSendS) (sem := .dma colRecvS)
    (r₁ := 0) (r₂ := 0) (d₁ := false) (d₂ := false) (fd := fn) (q := fullShare) (fs := colMine m c)
    (by rw [duties_colSend]; exact Finset.mem_singleton_self _) (by rw [duties_colRecv]; exact Finset.mem_singleton_self _)
    () () Ncol rfl (amount_colSend m c false) (amount_colRecv m (py c) false) O rfl (W := W)
    (by rw [payload_colSend]; unfold csPts; exact BI.Entails.refl _)
    (by rw [payload_colRecv]; unfold crPts; rw [← colLanded_eq m (py c) fn, py_py])

set_option maxHeartbeats 1600000 in
theorem wp_send_col' (K : Dev nD × Fin 6 → ℕ) (a4 a3 : Memref sig .tc .vmem S1x1024 .f32)
    (h4 : a4 = (A4)) (h3 : a3 = (A3)) (c n : Dev nD) (hn : n = py c)
    {hsc : (a3 : Memref sig (Dev.tc n : Thread nD τ).2.kind .vmem S1x1024 .f32).view.ref.isScScratch = false}
    {hsrc : a4.view.WordExact} {hdst : a3.view.WordExact}
    {hsem : DmaTarget.Typed .vmem (.dma colRecvS) (.remote (Dev.tc n : Thread nD τ) a3 (.dma colSendS) hsc)}
    {α : Type} {Q : α → sProp 𝕄} {k : PUnit → Prog (TpuEff nD τ sig (Elt F) Λ₀ .tc) α}
    (f4 : Buf (Elt F) (a4.view.loc (c : Thread nD τ))) (hf4 : a4.view.read (Elt F) f4 = colMine m c)
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ (a4.view.loc (c : Thread nD τ) ↦[a4.view.set]{fullShare} f4)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma a4 (.remote (Dev.tc n : Thread nD τ) a3 (.dma colSendS) hsc) (.dma colRecvS) hsrc hdst hsem) k) Q) := by
  subst h4 h3
  have hf : f4 = colMine m c := ((View.read_whole _ _).symm.trans hf4)
  subst hf
  exact wp_send_col m K c n hn fn O W

omit [FloatOps F] in
theorem hz2 : (![0, 0] : Fin 2 → Nat) = fun _ => 0 := funext fun a => by fin_cases a <;> rfl

/-- A whole-buffer store into the column buffer reads back as what was stored. -/
theorem col_written (a4 : Memref sig .tc .vmem S1x1024 .f32) (c : Dev nD) (fs : Buf (Elt F) (a4.view.loc (c : Thread nD τ))) (P : S1x1024.Idx → Elt F .f32) :
    a4.view.read (Elt F) (a4.view.writes (Elt F) fs [⟨Rect.unit (s := S1x1024) ![0, 0] S1x1024.size inb_S1x1024_S1x1024_0_0, P⟩]) = P := by
  rw [View.read_writes_eq_canon _ _ _ (fun y => View.cover_of_tiled [(⟨Rect.unit (s := S1x1024) ![0, 0] S1x1024.size inb_S1x1024_S1x1024_0_0, P⟩ : View.Piece (Elt F) S1x1024 .f32)] S1x1024.size (by rfl) y), View.canon_unit_zero hz2]

set_option maxHeartbeats 1600000 in
/-- The column transfer, the send buffer owned at the column it holds. -/
theorem wp_send_col'' (K : Dev nD × Fin 6 → ℕ) (a4 a3 : Memref sig .tc .vmem S1x1024 .f32)
    (h4 : a4 = (A4)) (h3 : a3 = (A3)) (c n : Dev nD) (hn : n = py c)
    {hsc : (a3 : Memref sig (Dev.tc n : Thread nD τ).2.kind .vmem S1x1024 .f32).view.ref.isScScratch = false}
    {hsrc : a4.view.WordExact} {hdst : a3.view.WordExact}
    {hsem : DmaTarget.Typed .vmem (.dma colRecvS) (.remote (Dev.tc n : Thread nD τ) a3 (.dma colSendS) hsc)}
    {α : Type} {Q : α → sProp 𝕄} {k : PUnit → Prog (TpuEff nD τ sig (Elt F) Λ₀ .tc) α}
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ owns (Ix := Unit) (Name := ℕ) (U := UU) (Lvl := ℕ) (c : Thread nD τ) a4 fullShare (colMine m c)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma a4 (.remote (Dev.tc n : Thread nD τ) a3 (.dma colSendS) hsc) (.dma colRecvS) hsrc hdst hsem) k) Q) := by
  unfold owns
  iintro ⟨#H1, #H2, ⟨%f4, %hf4, Hs⟩, Hd, HO, Ht1, #Hr1, Ht2, #Hr2⟩
  iapply (wp_send_col' m K a4 a3 h4 h3 c n hn f4 hf4 fn O W) $$ [Hs Hd HO Ht1 Ht2]
  isplitr; · iexact H1
  isplitr; · iexact H2
  isplitl [Hs]; · iexact Hs
  isplitl [Hd]; · iexact Hd
  isplitl [HO]; · iexact HO
  isplitl [Ht1]; · iexact Ht1
  isplitr; · iexact Hr1
  isplitl [Ht2]; · iexact Ht2
  iexact Hr2

omit [FloatOps F] in
/-- What landed in the eight-row buffer, held through a memref that is the whole buffer. -/
theorem open2_of (a2 : Memref sig .tc .vmem S8x1024 .f32) (h2 : a2 = (A2)) (c' : Dev nD) (X : RC F) :
    ((A2).view.loc (c' : Thread nD τ) ↦[(A2).view.set]{fullShare} X : sProp 𝕄)
      ⊢ iprop(∃ f, ⌜a2.view.read (Elt F) f = X⌝ ∗ (a2.view.loc (c' : Thread nD τ) ↦[a2.view.set]{fullShare} f)) := by
  subst h2; iintro H; iexists X; isplitr; · (ipureintro; exact View.read_whole _ _)
  iexact H
omit [FloatOps F] in
theorem open3_of (a3 : Memref sig .tc .vmem S1x1024 .f32) (h3 : a3 = (A3)) (c' : Dev nD) (X : CC F) :
    ((A3).view.loc (c' : Thread nD τ) ↦[(A3).view.set]{fullShare} X : sProp 𝕄)
      ⊢ iprop(∃ f, ⌜a3.view.read (Elt F) f = X⌝ ∗ (a3.view.loc (c' : Thread nD τ) ↦[a3.view.set]{fullShare} f)) := by
  subst h3; iintro H; iexists X; isplitr; · (ipureintro; exact View.read_whole _ _)
  iexact H

/-- The lent band, as it comes back from the send cell, in the body's own spelling. -/
theorem lent_back (a0 : Memref sig .tc .vmem S1024x1024 .f32) (h0 : a0 = (A0)) (c : Dev nD)
    (f0 : Buf (Elt F) (a0.view.loc (c : Thread nD τ))) (hf0 : a0.view.read (Elt F) f0 = xstg m c) :
    ((rowSrc c).view.loc (c : Thread nD τ) ↦[(rowSrc c).view.set]{fullShare.right} xstg m c : sProp 𝕄)
      ⊢ ((bandOf a0 c).view.loc (c : Thread nD τ) ↦[(bandOf a0 c).view.set]{fullShare.right} f0) := by
  subst h0
  have hf : f0 = xstg m c := ((View.read_whole _ _).symm.trans hf0)
  subst hf
  exact .rfl

/-! ## The result block as the five stores leave it over whatever the buffer held

The run leaves the result buffer as five writes over earlier contents `jk`, the first through the whole block, with the
whole-block and whole-line loads still spelt as reads. Reading a whole buffer whole is the buffer and writing it whole
forgets what it held, so this is the block of `out5`. -/

omit [FloatOps F] in
theorem read_xAll (f : XC F) : (xM : Memref sig .tc .vmem S1024x1024 .f32).view.readAt (Elt F) rAll.toLoadRect f = f :=
  Memref.readAt_unit_zero (Elt F) cc0_stg0_0 hz2 _ f
omit [FloatOps F] in
theorem read_crAll (f : CC F) : (crM : Memref sig .tc .vmem S1x1024 .f32).view.readAt (Elt F) rLine.toLoadRect f = f :=
  Memref.readAt_unit_zero (Elt F) cc0_scratch1 hz2 _ f
omit [FloatOps F] in
theorem write_oAll (f w : OC F) : ((oM : Memref sig .tc .vmem S1024x1024 .f32).access rAll : View sig .tc _ _ _).write (Elt F) f w Finset.univ = w :=
  Memref.write_access_unit_zero_univ (Elt F) cc0_stg1_0 hz2 _ f w

def raw1 (jk : OC F) (xs : XC F) : OC F :=
  ((oM.access rAll : View sig .tc _ _ _)).write (Elt F) jk (k0_pay2 (xM.view.readAt (Elt F) rAll.toLoadRect xs)) Finset.univ
def raw2 (c : Dev nD) (jk : OC F) (xs : XC F) (rr : RC F) : OC F :=
  ((oM.access (rBand c 1) : View sig .tc _ _ _)).write (Elt F) (raw1 jk xs)
    (k0_pay3 (wx c) (rrM.view.readAt (Elt F) rRecv7.toLoadRect rr) (rrM.view.readAt (Elt F) rRecv0.toLoadRect rr)
      (oM.view.readAt (Elt F) (rBand c 1).toLoadRect (raw1 jk xs))) Finset.univ
def raw3 (c : Dev nD) (jk : OC F) (xs : XC F) (rr : RC F) (cr : CC F) : OC F :=
  ((oM.access (rStrip c 1) : View sig .tc _ _ _)).write (Elt F) (raw2 c jk xs rr)
    (k0_pay4 (wy c) (crM.view.readAt (Elt F) rLine.toLoadRect cr) (oM.view.readAt (Elt F) (rStrip c 1).toLoadRect (raw2 c jk xs rr))) Finset.univ
def raw4 (c : Dev nD) (jk : OC F) (xs : XC F) (rr : RC F) (cr : CC F) : OC F :=
  ((oM.access (rBand c 0) : View sig .tc _ _ _)).write (Elt F) (raw3 c jk xs rr cr)
    (k0_pay5 (wx c) (iota .tc S8x1024 32 [0] iota_S8x1024_d0_w32) (xM.view.readAt (Elt F) (rBand c 0).toLoadRect xs)
      (oM.view.readAt (Elt F) (rBand c 0).toLoadRect (raw3 c jk xs rr cr))) Finset.univ
def raw5 (c : Dev nD) (jk : OC F) (xs : XC F) (rr : RC F) (cr : CC F) : OC F :=
  ((oM.access (rStrip c 0) : View sig .tc _ _ _)).write (Elt F) (raw4 c jk xs rr cr)
    (k0_pay6 (wy c) (iota .tc S1024x128 32 [1] iota_S1024x128_d1_w32) (xM.view.readAt (Elt F) (rStrip c 0).toLoadRect xs)
      (oM.view.readAt (Elt F) (rStrip c 0).toLoadRect (raw4 c jk xs rr cr))) Finset.univ

theorem raw1_eq (jk : OC F) (xs : XC F) : raw1 jk xs = out1 xs := by
  unfold raw1 out1; rw [read_xAll, write_oAll]
theorem raw2_eq (c : Dev nD) (jk : OC F) (xs : XC F) (rr : RC F) : raw2 c jk xs rr = out2 c xs rr := by
  unfold raw2 out2; rw [raw1_eq]
theorem raw3_eq (c : Dev nD) (jk : OC F) (xs : XC F) (rr : RC F) (cr : CC F) : raw3 c jk xs rr cr = out3 c xs rr cr := by
  unfold raw3 out3; rw [raw2_eq, read_crAll]
theorem raw4_eq (c : Dev nD) (jk : OC F) (xs : XC F) (rr : RC F) (cr : CC F) : raw4 c jk xs rr cr = out4 c xs rr cr := by
  unfold raw4 out4; rw [raw3_eq]
theorem raw5_eq (c : Dev nD) (jk : OC F) (xs : XC F) (rr : RC F) (cr : CC F) : raw5 c jk xs rr cr = out5 c xs rr cr := by
  unfold raw5 out5; rw [raw4_eq]

section Body
variable (K : Dev nD × Fin 6 → ℕ)
variable (a0 a1 : Memref sig .tc .vmem S1024x1024 .f32) (a2 : Memref sig .tc .vmem S8x1024 .f32) (a3 a4 : Memref sig .tc .vmem S1x1024 .f32)

/-- What the body starts from; the buffers it loads and stores are held through its memref arguments. -/
def bodyPre (c : Dev nD) : sProp 𝕄 :=
  iprop((invs m K c ∗ positions c ∗ marks c ∗ payToks c) ∗ credits c ∗ levAts L lv
    ∗ (∃ f, ((A2).view.loc (c : Thread nD τ) ↦[(A2).view.set]{fullShare} f))
    ∗ (∃ f, ((A3).view.loc (c : Thread nD τ) ↦[(A3).view.set]{fullShare} f))
    ∗ (∃ X, owns (Ix := Unit) (Name := ℕ) (U := UU) (Lvl := ℕ) (c : Thread nD τ) a4 fullShare X)
    ∗ (dats m 0 c).owesAt () t₀.castSucc
    ∗ owns (Ix := Unit) (Name := ℕ) (U := UU) (Lvl := ℕ) (c : Thread nD τ) a0 fullShare (xstg m c)
    ∗ (∃ d, owns (Ix := Unit) (Name := ℕ) (U := UU) (Lvl := ℕ) (c : Thread nD τ) a1 fullShare d))

/-- What it ends with. -/
def bodyPostV (c : Dev nD) : sProp 𝕄 :=
  iprop(owns (Ix := Unit) (Name := ℕ) (U := UU) (Lvl := ℕ) (c : Thread nD τ) a2 fullShare (rowLanded m c)
    ∗ owns (Ix := Unit) (Name := ℕ) (U := UU) (Lvl := ℕ) (c : Thread nD τ) a3 fullShare (colLanded m c)
    ∗ owns (Ix := Unit) (Name := ℕ) (U := UU) (Lvl := ℕ) (c : Thread nD τ) a4 fullShare (colMine m c)
    ∗ semVal (rowSendCell c) 0 ∗ semVal (rowRecvCell c) 0 ∗ semVal (colSendCell c) 0 ∗ semVal (colRecvCell c) 0 ∗ semVal (exitCell c) 0
    ∗ (dats m 0 c).owesAt () t₀.succ
    ∗ owns (Ix := Unit) (Name := ℕ) (U := UU) (Lvl := ℕ) (c : Thread nD τ) a0 fullShare (xstg m c)
    ∗ owns (Ix := Unit) (Name := ℕ) (U := UU) (Lvl := ℕ) (c : Thread nD τ) a1 fullShare (outAt m c))

set_option maxHeartbeats 3200000 in
/-- The body, stepped in program order from `bodyPre` to `bodyPostV`, over memrefs that are the whole buffers. -/
theorem sound_body (ha0 : a0.IsWhole) (ha1 : a1.IsWhole) (ha2 : a2.IsWhole) (ha3 : a3.IsWhole) (ha4 : a4.IsWhole)
    (h0 : a0 = (A0)) (h1 : a1 = (A1)) (h2 : a2 = (A2)) (h3 : a3 = (A3)) (h4 : a4 = (A4))
    (c : Dev nD) (Kt : PUnit → sProp 𝕄) :
    iprop(bodyPre m K a0 a1 a4 c ∗ (bodyPostV m a0 a1 a2 a3 a4 c -∗ Kt ⟨⟩))
      ⊢ wp frame (wpE (defs₀ (F := F)) 𝒱₀ c none) Set.univ
          (cc0_body a0 ha0 a1 ha1 a2 ha2 a3 ha3 a4 ha4 cc0_scratch3 cc0_scratch4 cc0_scoped0) Kt := by
  unfold bodyPre invs positions marks payToks credits Dat.owesAt Pipeline.owesWithin owns
  rw [show (dats m 0 c).owed t₀.castSucc = O₀ c from rfl]
  unfold O₀ O₁ O₂ O₃ O₄ O₅
  iintro ⟨⟨⟨⟨#HIbar, #HIrs, #HIrr, #HIcs, #HIcr, #HIex, #HIbarX, #HIbarY, #HIrrX, #HIcrY, #HIexX, #HIexY⟩,
      ⟨HatB, HatRS, HatRR, HatCS, HatCR, HatE⟩,
      ⟨#HrBX, #HrBY, #HrRRX, #HrCRY, #HrEX, #HrEY, #HrRS, #HrRR, #HrCS, #HrCR⟩,
      ⟨HtBX, HtBY, HtRS, HtRRX, HtCS, HtCRY, HtEX, HtEY⟩⟩,
      ⟨HcB, HcRR, HcCR, HcE⟩, #Hlev, ⟨%fr, Hrr⟩, ⟨%fc, Hcr⟩, ⟨%Xs, %fs, %hfs, Hcs⟩,
    ⟨%W, %hW, HO⟩, ⟨%f0, %hf0, Hx⟩, ⟨%d1, %g1, %hg1, Hout⟩⟩, Hk⟩
  -- the staged block cut for the row transfer
  ihave Hx3 := (xv_split a0 h0 c f0) $$ Hx
  icases Hx3 with ⟨Hx, Hlent, Hxrest⟩
  have hmwB := mayWait_bar (F := F) c
  have hmwRS := mayWait_xfer (F := F) c rowSendS (.inl rfl)
  have hmwRR := mayWait_xfer (F := F) c rowRecvS (.inr (.inl rfl))
  have hmwCS := mayWait_xfer (F := F) c colSendS (.inr (.inr (.inl rfl)))
  have hmwCR := mayWait_xfer (F := F) c colRecvS (.inr (.inr (.inr rfl)))
  unfold O₂ O₃ O₄ O₅ at hmwB
  unfold O₄ O₅ at hmwRS hmwRR hmwCS hmwCR
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  -- the entry barrier's two payloads: the peers' landing buffers
  ihave Hp := (Entails.of_eq (bar_pays m c)) $$ HatB_pay1
  icases Hp with ⟨⟨⟨%fX, HrrX⟩, #HrRRX'⟩, ⟨⟨%fY, HcrY⟩, #HrCRY'⟩⟩
  -- the row transfer to `px c`
  iapply (wp_send_row' m K a0 a2 h0 h2 c _ (dev3_eq c) f0 hf0 fX
    (tallyAt (exitCell (py c)) () 1 + tallyAt (exitCell (px c)) () 1 + tallyAt (colRecvCell (py c)) () Ncol)
    (insert (SemLoc.reg barS, ()) W)) $$ [Hlent HrrX HO HtRS HtRRX]
  · isplitr; · iexact HIrs
    isplitr; · iexact HIrrX
    isplitl [Hlent]; · iexact Hlent
    isplitl [HrrX]; · iexact HrrX
    isplitl [HO]; · iexact HO
    isplitl [HtRS]; · iexact HtRS
    isplitr; · iexact HrRS
    isplitl [HtRRX]; · iexact HtRRX
    iexact HrRRX
  iintro ⟨HcRS, HO⟩
  sl_exec
  -- the column transfer to `py c`: the send buffer now holds the column
  iapply (wp_send_col'' m K a4 a3 h4 h3 c _ (dev4_eq c) fY
    (tallyAt (exitCell (py c)) () 1 + tallyAt (exitCell (px c)) () 1)
    (insert (SemLoc.reg barS, ()) W)) $$ [Hcs HcrY HO HtCS HtCRY]
  · isplitr; · iexact HIcs
    isplitr; · iexact HIcrY
    isplitl [Hcs]
    · unfold owns
      iexists _
      isplitr
      rotate_left
      · iexact Hcs
      · ipureintro
        rw [col_written]
        subst h0
        have hf : f0 = xstg m c := ((View.read_whole _ _).symm.trans hf0)
        subst hf
        rfl
    isplitl [HcrY]; · iexact HcrY
    isplitl [HO]; · iexact HO
    isplitl [HtCS]; · iexact HtCS
    isplitr; · iexact HrCS
    isplitl [HtCRY]; · iexact HtCRY
    iexact HrCRY
  iintro ⟨HcCS, HO⟩
  sl_exec
  -- the eight rows have landed: held through the body's memref from here on
  ihave Hrr2 := (open2_of a2 h2 c (rowLanded m c)) $$ HatRR_pay1
  icases Hrr2 with ⟨%frr, %hfrr, Hrr2⟩
  sl_exec
  -- the column has landed
  ihave Hcr2 := (open3_of a3 h3 c (colLanded m c)) $$ HatCR_pay1
  icases Hcr2 with ⟨%fcr, %hfcr, Hcr2⟩
  sl_exec
  -- the five own cells close: their counters at zero are the device's again
  imod (Rounds.cell_close ER (haloRd m) (Set.mem_univ (K (c, 1))) (fun h => h) (R := 1) (duties_later m (rowSendCell c))) $$ [HatRS] with HzRS
  · isplitr; · iexact HIrs
    iexact HatRS
  imod (Rounds.cell_close ER (haloRd m) (Set.mem_univ (K (c, 2))) (fun h => h) (R := 1) (duties_later m (rowRecvCell c))) $$ [HatRR] with HzRR
  · isplitr; · iexact HIrr
    iexact HatRR
  imod (Rounds.cell_close ER (haloRd m) (Set.mem_univ (K (c, 3))) (fun h => h) (R := 1) (duties_later m (colSendCell c))) $$ [HatCS] with HzCS
  · isplitr; · iexact HIcs
    iexact HatCS
  imod (Rounds.cell_close ER (haloRd m) (Set.mem_univ (K (c, 4))) (fun h => h) (R := 1) (duties_later m (colRecvCell c))) $$ [HatCR] with HzCR
  · isplitr; · iexact HIcr
    iexact HatCR
  imod (Rounds.cell_close ER (haloRd m) (Set.mem_univ (K (c, 5))) (fun h => h) (R := 1) (duties_later m (exitCell c))) $$ [HatE] with HzE
  · isplitr; · iexact HIex
    iexact HatE
  rw [wp_ret]; imodintro
  iapply Hk
  unfold bodyPostV Dat.owesAt Pipeline.owesWithin
  rw [show (dats m 0 c).owed t₀.succ = 0 from rfl]
  isplitl [Hrr2]
  · unfold owns; iexists frr; isplitr; · (ipureintro; exact hfrr)
    iexact Hrr2
  isplitl [Hcr2]
  · unfold owns; iexists fcr; isplitr; · (ipureintro; exact hfcr)
    iexact Hcr2
  isplitl [HatCS_pay1]
  · iapply (own4_of a4 h4 c (colMine m c)); iexact HatCS_pay1
  isplitl [HzRS]; · iexact HzRS
  isplitl [HzRR]; · iexact HzRR
  isplitl [HzCS]; · iexact HzCS
  isplitl [HzCR]; · iexact HzCR
  isplitl [HzE]; · iexact HzE
  isplitl [HO]
  · iexists _
    isplitr
    rotate_left
    · iexact HO
    · ipureintro; exact fun _ _ => Or.inl trivial
  isplitl [Hx HatRS_pay1 Hxrest]
  · ihave Hl := (lent_back m a0 h0 c f0 hf0) $$ HatRS_pay1
    ihave Hx := (xv_join a0 h0 c f0) $$ [Hx Hl Hxrest]
    · isplitl [Hx]; · iexact Hx
      isplitl [Hl]; · iexact Hl
      iexact Hxrest
    unfold owns; iexists f0; isplitr; · (ipureintro; exact hf0)
    iexact Hx
  · unfold owns
    iexists _
    isplitr
    rotate_left
    · iexact Hout
    · ipureintro
      subst h0 h1 h2 h3
      have e0 : f0 = xstg m c := ((View.read_whole _ _).symm.trans hf0)
      have e2 : frr = rowLanded m c := ((View.read_whole _ _).symm.trans hfrr)
      have e3 : fcr = colLanded m c := ((View.read_whole _ _).symm.trans hfcr)
      subst e0 e2 e3
      refine Eq.trans ?_ (raw5_eq c ((A1).view.junk) (xstg m c) (rowLanded m c) (colLanded m c))
      rfl

end Body

/-! ## The body obligation -/

/-- What the launch hands the body at the one grid point, -/
def bodyPre0 (c : Dev nD) : sProp 𝕄 :=
  iprop(Φ₀ m c ∗ (dats m 0 c).owesAt () t₀.castSucc
    ∗ (∃ d, owns (Ix := Unit) (Name := ℕ) (U := UU) (Lvl := ℕ) (c : Thread nD τ) (A0) fullShare ((dats m 0 c).before (0 : Fin 2) t₀ d))
    ∗ (∃ d, owns (Ix := Unit) (Name := ℕ) (U := UU) (Lvl := ℕ) (c : Thread nD τ) (A1) fullShare ((dats m 0 c).before (1 : Fin 2) t₀ d)))

/-- and what it wants back. -/
def bodyPost0 (c : Dev nD) : sProp 𝕄 :=
  iprop(Φ₁ m c ∗ (dats m 0 c).owesAt () t₀.succ
    ∗ owns (Ix := Unit) (Name := ℕ) (U := UU) (Lvl := ℕ) (c : Thread nD τ) (A0) fullShare (xstg m c)
    ∗ owns (Ix := Unit) (Name := ℕ) (U := UU) (Lvl := ℕ) (c : Thread nD τ) (A1) fullShare (outAt m c))

set_option maxHeartbeats 1600000 in
set_option maxRecDepth 8000 in
/-- The body obligation on device `c`: the body lemma at the program's own memrefs, the launch's assertions restated
    as the lemma states them and back. -/
theorem body_obligation (c : Dev nD) : BodyObligation (dats (F := F) m 0 c) (defs₀ (F := F)) 𝒱₀ () Set.univ := fun t => by
  rw [fin_N t]
  rw [bigSep_W, bigSep_W]
  show bodyPre0 m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scoped0) (fun _ => bodyPost0 m c)
  have hx : ∀ d, (dats m 0 c).before (0 : Fin 2) t₀ d = xstg m c := fun d => by unfold Dat.before; rw [if_pos (fetch_0 t₀)]; rfl
  unfold bodyPre0 Φ₀ start scratch
  simp only [hx]
  iintro ⟨⟨⟨⟨%K, Hg⟩, Hcred, Hlev⟩, ⟨%fr, Hrr⟩, ⟨%fc, Hcr⟩, ⟨%fs, Hcs⟩⟩, Ho, ⟨%d0, Hx⟩, Hout⟩
  iapply (sound_body m K (A0) (A1) (A2) (A3) (A4) (Memref.isWhole_whole _) (Memref.isWhole_whole _) (Memref.isWhole_whole _)
    (Memref.isWhole_whole _) (Memref.isWhole_whole _) rfl rfl rfl rfl rfl c (fun _ => bodyPost0 m c))
  isplitr []
  · unfold bodyPre ghost
    isplitl [Hg]; · iexact Hg
    isplitl [Hcred]; · iexact Hcred
    isplitl [Hlev]; · iexact Hlev
    isplitl [Hrr]; · unfold rrPts; iexists fr; iexact Hrr
    isplitl [Hcr]; · unfold crPts; iexists fc; iexact Hcr
    isplitl [Hcs]
    · iexists fs; iapply (own4_of (A4) rfl c fs); unfold csPts; iexact Hcs
    isplitl [Ho]; · iexact Ho
    isplitl [Hx]; · iexact Hx
    iexact Hout
  · iintro H
    unfold bodyPostV bodyPost0 Φ₁
    icases H with ⟨H2, H3, H4, Hz1, Hz2, Hz3, Hz4, Hz5, Ho, Hx, Hout⟩
    isplitl [H2 H3 H4 Hz1 Hz2 Hz3 Hz4 Hz5]
    · isplitl [H2]; · unfold rrPts; iapply (pts2_of (A2) rfl c (rowLanded m c)); iexact H2
      isplitl [H3]; · unfold crPts; iapply (pts3_of (A3) rfl c (colLanded m c)); iexact H3
      isplitl [H4]; · unfold csPts; iapply (pts4_of (A4) rfl c (colMine m c)); iexact H4
      isplitl [Hz1]; · iexact Hz1
      isplitl [Hz2]; · iexact Hz2
      isplitl [Hz3]; · iexact Hz3
      isplitl [Hz4]; · iexact Hz4
      iexact Hz5
    isplitl [Ho]; · iexact Ho
    isplitl [Hx]; · iexact Hx
    iexact Hout

end Cert.Kernel.Halo

end
-- ==== Proof.Kernel.Launch.lean ====
/-
  The launch: from every device's body to the run of the whole mesh.
-/
import proofs.«900187_g7700000000000188_dist_halo2d_stencil_xy_m1024_n1024_v7x_xy2x2_f32_1_alg».proof.Proof.Kernel.Body
import proofs.«900187_g7700000000000188_dist_halo2d_stencil_xy_m1024_n1024_v7x_xy2x2_f32_1_alg».proof.Proof.Kernel.Levels

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch mints -/

theorem ownSemFacts : Pipeline.OwnSemFacts cfg0.spec osem := by decide

/-- Two (device, cell-number) pairs that name one cell are one pair: the device is read off the cell's thread, the
    number off its semaphore, and the six semaphores are pairwise different. -/
theorem kcell_injective : Function.Injective (kcell : Dev nD × Fin 6 → GSem nD τ sig) := by
  rintro ⟨c, k⟩ ⟨c', k'⟩ h
  have hc : c = c' := congrArg (fun g : GSem nD τ sig => g.1.1) h
  subst hc
  have hk : k = k' := csem_injective (congrArg Prod.snd h)
  subst hk; rfl
def haloCells : Finset (GSem nD τ sig) := Finset.univ.map ⟨kcell, kcell_injective⟩

/-- The eight duties of a device's own six cells, numbered: which cell each sits on, and under which name. The two
    barriers carry both names, a transfer cell the name `false` only. -/
abbrev tokCell : Fin 8 → Fin 6 := fun | 0 => 0 | 1 => 0 | 2 => 1 | 3 => 2 | 4 => 3 | 5 => 4 | 6 => 5 | 7 => 5
abbrev tokName : Fin 8 → Bool := fun | 0 => false | 1 => true | 2 => false | 3 => false | 4 => false | 5 => false | 6 => false | 7 => true
theorem tok_pair_injective : ∀ j j' : Fin 8, tokCell j = tokCell j' → tokName j = tokName j' → j = j' := by decide

abbrev tokOf (cj : Dev nD × Fin 8) : GSem nD τ sig × ℕ × Bool := (kcell (cj.1, tokCell cj.2), 0, tokName cj.2)
theorem tokOf_injective : Function.Injective (tokOf : Dev nD × Fin 8 → GSem nD τ sig × ℕ × Bool) := by
  rintro ⟨c, j⟩ ⟨c', j'⟩ h
  have hcell : ((c, tokCell j) : Dev nD × Fin 6) = (c', tokCell j') := kcell_injective (congrArg (fun x : GSem nD τ sig × ℕ × Bool => x.1) h)
  have hname : tokName j = tokName j' := congrArg (fun x : GSem nD τ sig × ℕ × Bool => x.2.2) h
  have hc : c = c' := congrArg Prod.fst hcell
  subst hc
  have hj : j = j' := tok_pair_injective j j' (congrArg Prod.snd hcell) hname
  subst hj; rfl
def haloToks : Finset (GSem nD τ sig × ℕ × Bool) := Finset.univ.map ⟨tokOf, tokOf_injective⟩

/-- The launch element: the pipeline's cells beside the exchange's. -/
def u₀ : UU :=
  (initOf (Pipeline.cells cfgs cellOf_inj) (Pipeline.launchToks cfgs cellOf_inj), initOf haloCells haloToks)

/-- The duty tokens of device `c`'s own cells, as minted. -/
def toks (c : Dev nD) : sProp 𝕄 :=
  iprop(dutyTok ER (barCell c) 0 false ∗ dutyTok ER (barCell c) 0 true ∗ dutyTok ER (rowSendCell c) 0 false ∗ dutyTok ER (rowRecvCell c) 0 false
    ∗ dutyTok ER (colSendCell c) 0 false ∗ dutyTok ER (colRecvCell c) 0 false ∗ dutyTok ER (exitCell c) 0 false ∗ dutyTok ER (exitCell c) 0 true)

/-- What the launch element deals device `c`: the round states of its six cells, its position on each with the fact that
    round 0 of each is reached, and its own cells' tokens. -/
def G (c : Dev nD) : sProp 𝕄 :=
  iprop((bigSep Finset.univ fun k : Fin 6 => roundState ER (haloRd m) (kcell (c, k)) 0)
    ∗ (bigSep Finset.univ fun k : Fin 6 => iprop(atPos ER (kcell (c, k)) 0 ∅ 0 ∗ reached ER (kcell (c, k)) 0)) ∗ toks c)

/-- What the step over all devices makes of it: the ghost state a body starts from, at some allocation of names. -/
def G' (c : Dev nD) : sProp 𝕄 := iprop(∃ K, ghost m K c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The exchange's half of the launch element pays out every device's share. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 6 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin8]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, allocated from its counter at zero -/

omit [FloatOps F] in
/-- The kernel's own five semaphores are the four transfer cells and the exit barrier; -/
theorem ownSems0_eq (c : Dev nD) : (Pipeline.ownSems0 (Ix := Unit) (Name := ℕ) (U := UU) (Lvl := ℕ) (Val := Elt F) (τ := τ) osem c : sProp 𝕄)
    = iprop(semVal (rowSendCell c) 0 ∗ semVal (rowRecvCell c) 0 ∗ semVal (colSendCell c) 0 ∗ semVal (colRecvCell c) 0 ∗ semVal (exitCell c) 0) := by
  rw [Pipeline.ownSems0_eq_of_list c osem [0, 1, 2, 3, 4] (by decide) (by decide)]; rfl
omit [FloatOps F] in
/-- the entry barrier's semaphore is the one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨⟨H1, H2, H3, H4, H5⟩, HB⟩
  isplitl [HB]; · iexact HB
  isplitl [H1]; · iexact H1
  isplitl [H2]; · iexact H2
  isplitl [H3]; · iexact H3
  isplitl [H4] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may know once all is allocated: the twenty-four invariants under their names, and that round 0
    of each of the twenty-four cells is reached. -/
def records (K : Dev nD × Fin 6 → ℕ) : sProp 𝕄 :=
  iprop((bigSep Finset.univ fun ck : Dev nD × Fin 6 => cellInv ER (haloRd m) (K ck) (kcell ck))
    ∗ bigSep Finset.univ fun ck : Dev nD × Fin 6 => reached ER (kcell ck) 0)

instance records_persistent (K : Dev nD × Fin 6 → ℕ) : BI.Persistent (records m K) := by unfold records; infer_instance

theorem inv_at (K : Dev nD × Fin 6 → ℕ) (ck : Dev nD × Fin 6) :
    (bigSep Finset.univ fun ck : Dev nD × Fin 6 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 6) :
    (bigSep Finset.univ fun ck : Dev nD × Fin 6 => (reached ER (kcell ck) 0 : sProp 𝕄)) ⊢ reached ER (kcell ck) 0 :=
  bigSep_elim (Finset.mem_univ ck)

/-- What stays with device `c`: its six positions, and the tokens of the eight duties it pays. -/
def linear (c : Dev nD) : sProp 𝕄 := iprop(positions c ∗ payToks c)

theorem ghost_intro (K : Dev nD × Fin 6 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (px c, 0)); iexact HI
    isplitr; · iapply (inv_at m K (py c, 0)); iexact HI
    isplitr; · iapply (inv_at m K (px c, 2)); iexact HI
    isplitr; · iapply (inv_at m K (py c, 4)); iexact HI
    isplitr; · iapply (inv_at m K (px c, 5)); iexact HI
    iapply (inv_at m K (py c, 5)); iexact HI
  isplitl [Hpos]; · iexact Hpos
  isplitr
  · isplitr; · iapply (reached_at (F := F) (px c, 0)); iexact HR
    isplitr; · iapply (reached_at (F := F) (py c, 0)); iexact HR
    isplitr; · iapply (reached_at (F := F) (px c, 2)); iexact HR
    isplitr; · iapply (reached_at (F := F) (py c, 4)); iexact HR
    isplitr; · iapply (reached_at (F := F) (px c, 5)); iexact HR
    isplitr; · iapply (reached_at (F := F) (py c, 5)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  iexact Htok

omit [FloatOps F] in
/-- The tokens go to their payers. A cell of `c` that `px c` pays (the `false` duty of either barrier, the
    row-receive cell's duty) hands its token across the row cut, one that `py c` pays (the `true` duty of either
    barrier, the column-receive cell's duty) across the column cut; both flips are permutations of the mesh, so summed
    over all devices nothing is lost. The two send cells' tokens stay where they are. -/
theorem toks_around : (bigSep Finset.univ fun c : Dev nD => (toks c : sProp 𝕄)) ⊢ bigSep Finset.univ fun c : Dev nD => payToks c := by
  unfold toks payToks
  simp only [bigSep_sep']
  rw [bigSep_univ_equiv flipX (fun c : Dev nD => (dutyTok ER (barCell c) 0 false : sProp 𝕄)),
    bigSep_univ_equiv flipY (fun c : Dev nD => (dutyTok ER (barCell c) 0 true : sProp 𝕄)),
    bigSep_univ_equiv flipX (fun c : Dev nD => (dutyTok ER (rowRecvCell c) 0 false : sProp 𝕄)),
    bigSep_univ_equiv flipY (fun c : Dev nD => (dutyTok ER (colRecvCell c) 0 false : sProp 𝕄)),
    bigSep_univ_equiv flipX (fun c : Dev nD => (dutyTok ER (exitCell c) 0 false : sProp 𝕄)),
    bigSep_univ_equiv flipY (fun c : Dev nD => (dutyTok ER (exitCell c) 0 true : sProp 𝕄))]
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 6 => iprop(∃ κ : ℕ, cellInv ER (haloRd m) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 6 => (atPos ER (kcell (c, k)) 0 ∅ 0 : sProp 𝕄)) payToks).symm).trans
      (bigSep_mono fun c _ => show _ ⊢ linear c from Entails.of_eq (by unfold linear positions; rw [bigSep_fin6])))
    isplitl [Hat]; · iexact Hat
    iexact Htk

/-- The step over all devices at once: every device's own semaphores and its entry barrier's, all at zero, become the
    invariants of its six cells, and the names and tokens are dealt out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' credits
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩⟩
  isplitl [Hs]; · iexact Hs
  isplitl [H0]; · iexists f0; rw [rrPts_eq]; iexact H0
  isplitl [H1]; · iexists f1; rw [crPts_eq]; iexact H1
  iexists f2; rw [csPts_eq]; iexact H2

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hc, Hs, Hz1, Hz2, Hz3, Hz4, Hz5⟩
  isplitr; · iempintro
  isplitl [Hz1 Hz2 Hz3 Hz4 Hz5]
  · isplitl [Hz1]; · iexact Hz1
    isplitl [Hz2]; · iexact Hz2
    isplitl [Hz3]; · iexact Hz3
    isplitl [Hz4] <;> iassumption
  isplitl [Hr]; · iexists (rowLanded m c); rw [← rrPts_eq]; iexact Hr
  isplitl [Hc]; · iexists (colLanded m c); rw [← crPts_eq]; iexact Hc
  iexists (colMine m c); rw [← csPts_eq]; iexact Hs

/-- Every wait of the staging pipeline is allowed: before the body the device owes its six payments, after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What each window's array holds when the program ends. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every semaphore at zero, every weakly fair execution of the four devices ends, nothing faults,
    and each window's array on each device ends at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Halo.run_main' depends on axioms: [propext, Classical.choice, Quot.sound] -/
#guard_msgs in #print axioms run_main

end Cert.Kernel.Halo

end
-- ==== Proof.Kernel.Final.lean ====
/-
  What the arrays hold when the program ends: a device's input block as it was, its result block the block the body
  leaves; and the run restated with those contents named.
-/
import proofs.«900187_g7700000000000188_dist_halo2d_stencil_xy_m1024_n1024_v7x_xy2x2_f32_1_alg».proof.Proof.Kernel.Launch

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The staged input block is the device's input array, read whole. -/
theorem xstg_eq (c : Dev nD) : xstg m c = m ((c : Thread nD τ).loc main_arg0) := by
  unfold xstg
  have hz : (fun a => win0_0.index (0 : Fin 1) a * main_arg0.ty.shape.size a) = fun _ => 0 := funext fun a => Nat.zero_mul _
  exact Memref.read_access_unit_zero (Elt F) main_arg0 hz (fun a => by rw [congrFun hz a]; simp) _

set_option maxHeartbeats 1600000 in
/-- The input array ends as it began. -/
theorem finalA_x (c : Dev nD) : finalA m c (0 : Fin 2) = m (win0_0.arr.view.loc (c : Thread nD τ)) :=
  (dats (F := F) m 0 c).arrAt_in (0 : Fin 2) rfl _

omit [FloatOps F] in
set_option maxHeartbeats 1600000 in
/-- The result window is the whole result array and is written back at the one grid point; so whatever proof data one
    takes, the array ends holding what the data say the body leaves in the staging buffer at that point. -/
theorem arrAt_out (c : Dev nD) (d : Dat τ (Elt F) Unit ℕ UU ℕ cfg0 c) :
    d.arrAt (1 : Fin 2) cfg0.N = d.after (1 : Fin 2) t₀ := by
  have hz : (fun a => win0_1.index t₀ a * main_v1.ty.shape.size a) = fun _ => 0 := funext fun a => Nat.zero_mul _
  refine (congrArg (d.arrAt (1 : Fin 2)) cfg0_N).trans ?_
  refine (d.arrAt_succ (1 : Fin 2) t₀).trans ?_
  rw [if_pos (flush0_1 t₀)]
  exact Memref.write_access_unit_zero_univ (Elt F) main_v1 hz (fun a => by rw [congrFun hz a]; simp) _ _

set_option maxHeartbeats 1600000 in
/-- The result array ends holding the block the body leaves in its staging buffer. -/
theorem finalA_out (c : Dev nD) : finalA m c (1 : Fin 2) = outAt m c := by
  refine (arrAt_out c (dats m 0 c)).trans ?_
  unfold dats
  rfl

set_option maxHeartbeats 1600000 in
/-- The run, with each device's result named and its input unchanged. -/
theorem run_value : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun _ h c => ⟨(h c 1).trans (finalA_out m c), (h c 0).trans (finalA_x m c)⟩) (run_main m ρ)

end Cert.Kernel.Halo

end
-- ==== Proof.KernelIdeal.Mesh.lean ====
/-
  The 2 × 2 mesh of the halo exchange. Device `c` sits at row `c / 2`, column `c % 2` of the mesh; its block of
  the 2048 × 2048 array is rows `1024 (c / 2) …`, columns `1024 (c % 2) …`. The kernel talks to two peers only:
  `px c`, the device in the other mesh row and the same mesh column (it holds the block above or below), and
  `py c`, the device in the same mesh row and the other mesh column (the block to the left or right). Both maps are
  involutions without fixed points, and they differ everywhere. Every `device_id` the kernel computes is one of them.
-/
import proofs.«900187_g7700000000000188_dist_halo2d_stencil_xy_m1024_n1024_v7x_xy2x2_f32_1_alg».proof.Proof.Gen.KernelIdeal

noncomputable section

namespace Cert.KernelIdeal.Halo

open Cert.KernelIdeal Cert.KernelIdeal.Gen
open Idealize.ShloMosaic Idealize.SL.Sem

/-- The peer across the row cut: same mesh column, other mesh row. -/
def px (c : Dev nD) : Dev nD := ⟨(c.val % 2 + 2) - 2 * (c.val / 2), by revert c; decide⟩
/-- The peer across the column cut: same mesh row, other mesh column. -/
def py (c : Dev nD) : Dev nD := ⟨(2 * (c.val / 2) + 1) - c.val % 2, by revert c; decide⟩

theorem px_px (c : Dev nD) : px (px c) = c := by revert c; decide
theorem py_py (c : Dev nD) : py (py c) = c := by revert c; decide
theorem px_ne_py (c : Dev nD) : px c ≠ py c := by revert c; decide
theorem px_ne (c : Dev nD) : px c ≠ c := by revert c; decide
theorem py_ne (c : Dev nD) : py c ≠ c := by revert c; decide
theorem px_py (c : Dev nD) : px (py c) = py (px c) := by revert c; decide

/-- The two flips as permutations of the mesh. -/
def flipX : Dev nD ≃ Dev nD := ⟨px, px, px_px, px_px⟩
def flipY : Dev nD ≃ Dev nD := ⟨py, py, py_py, py_py⟩

/-- The kernel's `device_id` chains: the entry signals, the two copies and the exit signals each name `px c` first
    and `py c` second. -/
theorem dev1_eq (c : Dev nD) : (⟨k0_dev1 c, k0_dev1_lt c⟩ : Dev nD) = px c := Fin.ext (k0_dev1_eq c)
theorem dev2_eq (c : Dev nD) : (⟨k0_dev2 c, k0_dev2_lt c⟩ : Dev nD) = py c := Fin.ext (k0_dev2_eq c)
theorem dev3_eq (c : Dev nD) : (⟨k0_dev3 c, k0_dev3_lt c⟩ : Dev nD) = px c := Fin.ext (k0_dev3_eq c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = px c := Fin.ext (k0_dev5_eq c)
theorem dev6_eq (c : Dev nD) : (⟨k0_dev6 c, k0_dev6_lt c⟩ : Dev nD) = py c := Fin.ext (k0_dev6_eq c)

end Cert.KernelIdeal.Halo

end
-- ==== Proof.KernelIdeal.Contents.lean ====
/-
  What each buffer of a device holds at each stage of the kernel, as pure terms of what was loaded: the column the
  device sends, the eight rows and the column it receives, and its result block after each of the five stores — the
  local five-point sum with zeros outside the block, the halo row added, the halo column added, and the two
  rewrites that restore the whole array's outermost row and column to the input. Every term is written through the
  kernel body's named values (the skeleton's payloads), a load as the view's read and a store as the view's write.
-/
import proofs.«900187_g7700000000000188_dist_halo2d_stencil_xy_m1024_n1024_v7x_xy2x2_f32_1_alg».proof.Proof.Gen.KernelIdeal.Skeleton
import proofs.«900187_g7700000000000188_dist_halo2d_stencil_xy_m1024_n1024_v7x_xy2x2_f32_1_alg».proof.Proof.KernelIdeal.Mesh

noncomputable section

namespace Cert.KernelIdeal.Halo

open Cert.KernelIdeal Cert.KernelIdeal.Gen
open Idealize.ShloMosaic Idealize.ShloMosaic.TcCoe Idealize.SL.Sem

variable {F : FTy → Type} [FloatOps F]

/-! ## The memrefs -/

/-- The staged input block, the staged result block, the eight received rows, the received column, the sent column. -/
abbrev xM : Memref sig .tc .vmem S1024x1024 .f32 := Memref.whole cc0_stg0_0
abbrev oM : Memref sig .tc .vmem S1024x1024 .f32 := Memref.whole cc0_stg1_0
abbrev rrM : Memref sig .tc .vmem S8x1024 .f32 := Memref.whole cc0_scratch0
abbrev crM : Memref sig .tc .vmem S1x1024 .f32 := Memref.whole cc0_scratch1
abbrev csM : Memref sig .tc .vmem S1x1024 .f32 := Memref.whole cc0_scratch2

abbrev XC (F : FTy → Type) : Type := (cc0_stg0_0 : Ref sig .tc).ty.Contents (Elt F)
abbrev OC (F : FTy → Type) : Type := (cc0_stg1_0 : Ref sig .tc).ty.Contents (Elt F)
abbrev RC (F : FTy → Type) : Type := (cc0_scratch0 : Ref sig .tc).ty.Contents (Elt F)
abbrev CC (F : FTy → Type) : Type := (cc0_scratch1 : Ref sig .tc).ty.Contents (Elt F)

/-! ## The device's mesh coordinates as the kernel computes them -/

/-- The mesh row of a device, as a word. -/
def wx (c : Dev nD) : BitVec 32 := Scalar.remsi (Scalar.divsi (Dev.word c) 2#32) 2#32
/-- The mesh column of a device, as a word. -/
def wy (c : Dev nD) : BitVec 32 := Scalar.remsi (Scalar.divsi (Dev.word c) 1#32) 2#32

/-! ## The rectangles the body reads and writes -/

abbrev rCol1023 : Rect S1024x1024 := Rect.unit (s := S1024x1024) ![0, 1023] S1024x1.size inb_S1024x1024_S1024x1_0_1023
abbrev rCol0 : Rect S1024x1024 := Rect.unit (s := S1024x1024) ![0, 0] S1024x1.size inb_S1024x1024_S1024x1_0_0
abbrev rAll : Rect S1024x1024 := Rect.unit (s := S1024x1024) ![0, 0] S1024x1024.size inb_S1024x1024_S1024x1024_0_0
abbrev rRecv7 : Rect S8x1024 := Rect.unit (s := S8x1024) ![7, 0] S1x1024.size inb_S8x1024_S1x1024_7_0
abbrev rRecv0 : Rect S8x1024 := Rect.unit (s := S8x1024) ![0, 0] S1x1024.size inb_S8x1024_S1x1024_0_0
abbrev rLine : Rect S1x1024 := Rect.unit (s := S1x1024) ![0, 0] S1x1024.size inb_S1x1024_S1x1024_0_0
/-- The eight-row band at the block's edge towards (`r = 1`) or away from (`r = 0`) the peer `px c`. -/
abbrev rBand (c : Dev nD) (r : Fin 2) : Rect S1024x1024 :=
  Rect.unit (s := S1024x1024) (k0_off2 c (BitVec.ofNat 32 r.val)) S8x1024.size (k0_off2_inb c r)
/-- The 128-column band at the block's edge towards (`r = 1`) or away from (`r = 0`) the peer `py c`. -/
abbrev rStrip (c : Dev nD) (r : Fin 2) : Rect S1024x1024 :=
  Rect.unit (s := S1024x1024) (k0_off3 c (BitVec.ofNat 32 r.val)) S1024x128.size (k0_off3_inb c r)
/-- The eight rows of its block a device sends to `px c`: the band next to that peer. -/
abbrev rowSrc (c : Dev nD) : Memref sig .tc .vmem S8x1024 .f32 :=
  xM.slice (Rect.unit (s := S1024x1024) (k0_off1 c) S8x1024.size (k0_off1_inb c)) (fun _ => rfl)

/-! ## Contents -/

/-- The column a device sends to `py c`, laid as a row: its block's last column in mesh column 0, its first in mesh column 1. -/
def colSent (c : Dev nD) (xs : XC F) : CC F :=
  k0_pay1 (wy c) 0#32 (xM.view.readAt (Elt F) rCol1023.toLoadRect xs) (xM.view.readAt (Elt F) rCol0.toLoadRect xs)

/-- The eight rows device `c` sends, read out of its block. -/
def rowSent (c : Dev nD) (xs : XC F) : RC F := (rowSrc c).view.read (Elt F) xs

/-- The result block after the first store: the five-point sum inside the block, zeros for neighbours outside it. -/
def out1 (xs : XC F) : OC F := k0_pay2 xs

/-- After the second store: the received row's share added on the edge row next to `px c`. -/
def out2 (c : Dev nD) (xs : XC F) (rr : RC F) : OC F :=
  ((oM.access (rBand c 1) : View sig .tc _ _ _)).write (Elt F) (out1 xs)
    (k0_pay3 (wx c) (rrM.view.readAt (Elt F) rRecv7.toLoadRect rr) (rrM.view.readAt (Elt F) rRecv0.toLoadRect rr)
      (oM.view.readAt (Elt F) (rBand c 1).toLoadRect (out1 xs))) Finset.univ

/-- After the third: the received column's share added on the edge column next to `py c`. -/
def out3 (c : Dev nD) (xs : XC F) (rr : RC F) (cr : CC F) : OC F :=
  ((oM.access (rStrip c 1) : View sig .tc _ _ _)).write (Elt F) (out2 c xs rr)
    (k0_pay4 (wy c) cr (oM.view.readAt (Elt F) (rStrip c 1).toLoadRect (out2 c xs rr))) Finset.univ

/-- After the fourth: the whole array's outermost row, where this block has it, restored to the input. -/
def out4 (c : Dev nD) (xs : XC F) (rr : RC F) (cr : CC F) : OC F :=
  ((oM.access (rBand c 0) : View sig .tc _ _ _)).write (Elt F) (out3 c xs rr cr)
    (k0_pay5 (wx c) (iota .tc S8x1024 32 [0] iota_S8x1024_d0_w32) (xM.view.readAt (Elt F) (rBand c 0).toLoadRect xs)
      (oM.view.readAt (Elt F) (rBand c 0).toLoadRect (out3 c xs rr cr))) Finset.univ

/-- After the fifth, the block the kernel returns: the outermost column restored as well. -/
def out5 (c : Dev nD) (xs : XC F) (rr : RC F) (cr : CC F) : OC F :=
  ((oM.access (rStrip c 0) : View sig .tc _ _ _)).write (Elt F) (out4 c xs rr cr)
    (k0_pay6 (wy c) (iota .tc S1024x128 32 [1] iota_S1024x128_d1_w32) (xM.view.readAt (Elt F) (rStrip c 0).toLoadRect xs)
      (oM.view.readAt (Elt F) (rStrip c 0).toLoadRect (out4 c xs rr cr))) Finset.univ

end Cert.KernelIdeal.Halo

end
-- ==== Proof.KernelIdeal.Cells.lean ====
/-
  The halo exchange's semaphores as cells, and what the buffers hold. A device has six cells: the entry barrier (the
  runtime's semaphore, one unit from each of its two peers), a send and a receive cell for the eight rows it exchanges
  with `px c`, a send and a receive cell for the column it exchanges with `py c`, and the exit barrier (one unit from
  each peer again). The contents are named from the launch memory: a device's staged block, the eight rows and the
  column that land on it, and the block it returns.
-/
import proofs.«900187_g7700000000000188_dist_halo2d_stencil_xy_m1024_n1024_v7x_xy2x2_f32_1_alg».proof.Proof.KernelIdeal.Contents
import proofs.«900187_g7700000000000188_dist_halo2d_stencil_xy_m1024_n1024_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores and the cells -/

/-- The runtime's barrier semaphore (unscoped); the kernel's exit semaphore; the two pairs of transfer semaphores. -/
abbrev barS : Sem sig := (SemArray.scalar (sig.barrier 0 rfl) : Sems sig S_).sem
abbrev exitS : Sem sig := (cc0_scoped0 : Sems sig S_).sem
abbrev rowSendS : DmaSem sig := ((cc0_scratch3.slice (Rect.unit (s := S2) ![0] S1.size inb_S2_S1_0)).squeeze S_ squeezes_S1_S_ : DmaSems sig S_).sem
abbrev rowRecvS : DmaSem sig := ((cc0_scratch3.slice (Rect.unit (s := S2) ![1] S1.size inb_S2_S1_1)).squeeze S_ squeezes_S1_S_ : DmaSems sig S_).sem
abbrev colSendS : DmaSem sig := ((cc0_scratch4.slice (Rect.unit (s := S2) ![0] S1.size inb_S2_S1_0)).squeeze S_ squeezes_S1_S_ : DmaSems sig S_).sem
abbrev colRecvS : DmaSem sig := ((cc0_scratch4.slice (Rect.unit (s := S2) ![1] S1.size inb_S2_S1_1)).squeeze S_ squeezes_S1_S_ : DmaSems sig S_).sem

abbrev barCell (c : Dev nD) : GSem nD τ sig := ((c : Thread nD τ), .reg barS)
abbrev rowSendCell (c : Dev nD) : GSem nD τ sig := ((c : Thread nD τ), .dma rowSendS)
abbrev rowRecvCell (c : Dev nD) : GSem nD τ sig := ((c : Thread nD τ), .dma rowRecvS)
abbrev colSendCell (c : Dev nD) : GSem nD τ sig := ((c : Thread nD τ), .dma colSendS)
abbrev colRecvCell (c : Dev nD) : GSem nD τ sig := ((c : Thread nD τ), .dma colRecvS)
abbrev exitCell (c : Dev nD) : GSem nD τ sig := ((c : Thread nD τ), .reg exitS)

/-- The kernel's OWN (scoped) semaphores, as the launch indexes them: the four transfer semaphores and the exit one; -/
abbrev osem : Fin 5 → SemLoc sig := fun | 0 => .dma rowSendS | 1 => .dma rowRecvS | 2 => .dma colSendS | 3 => .dma colRecvS | 4 => .reg exitS
/-- all six of the exchange's, the barrier first. -/
abbrev csem : Fin 6 → SemLoc sig := fun | 0 => .reg barS | 1 => .dma rowSendS | 2 => .dma rowRecvS | 3 => .dma colSendS | 4 => .dma colRecvS | 5 => .reg exitS
abbrev kcell (ck : Dev nD × Fin 6) : GSem nD τ sig := ((ck.1 : Thread nD τ), csem ck.2)

/-- The credit of the eight rows and of the column. -/
abbrev Nrow : ℕ := (rrM : Memref sig .tc .vmem S8x1024 .f32).view.dmaCredit
abbrev Ncol : ℕ := (crM : Memref sig .tc .vmem S1x1024 .f32).view.dmaCredit
theorem Nrow_pos : 0 < Nrow := View.dmaCredit_pos _ (by decide)
theorem Ncol_pos : 0 < Ncol := View.dmaCredit_pos _ (by decide)

/-! ## Contents, from the launch memory -/

/-- Device `c`'s block as the pipeline stages it. -/
def xstg (c : Dev nD) : XC F := (win0_0.blk (0 : Fin 1)).view.read (Elt F) (m ((c : Thread nD τ).loc main_arg0))
/-- The eight rows that land on device `c`: `px c`'s edge band. -/
def rowLanded (c : Dev nD) : RC F := rowSent (px c) (xstg m (px c))
/-- The column device `c` sends, and the one that lands on it: `py c`'s edge column. -/
def colMine (c : Dev nD) : CC F := colSent c (xstg m c)
def colLanded (c : Dev nD) : CC F := colSent (py c) (xstg m (py c))
/-- The block device `c` returns. -/
def outAt (c : Dev nD) : OC F := out5 c (xstg m c) (rowLanded m c) (colLanded m c)

/-! ## The buffers as assertions -/

def rrPts (c : Dev nD) (f : Buf (Elt F) ((rrM : Memref sig .tc .vmem S8x1024 .f32).view.loc (c : Thread nD τ))) : sProp 𝕄 :=
  (rrM : Memref sig .tc .vmem S8x1024 .f32).view.loc (c : Thread nD τ) ↦[(rrM : Memref sig .tc .vmem S8x1024 .f32).view.set]{fullShare} f
def crPts (c : Dev nD) (f : Buf (Elt F) ((crM : Memref sig .tc .vmem S1x1024 .f32).view.loc (c : Thread nD τ))) : sProp 𝕄 :=
  (crM : Memref sig .tc .vmem S1x1024 .f32).view.loc (c : Thread nD τ) ↦[(crM : Memref sig .tc .vmem S1x1024 .f32).view.set]{fullShare} f
def csPts (c : Dev nD) (f : Buf (Elt F) ((csM : Memref sig .tc .vmem S1x1024 .f32).view.loc (c : Thread nD τ))) : sProp 𝕄 :=
  (csM : Memref sig .tc .vmem S1x1024 .f32).view.loc (c : Thread nD τ) ↦[(csM : Memref sig .tc .vmem S1x1024 .f32).view.set]{fullShare} f
/-- The half of the eight-row band that is lent to the row transfer while the body goes on reading the block. -/
def xLent (c : Dev nD) : sProp 𝕄 :=
  (rowSrc c).view.loc (c : Thread nD τ) ↦[(rowSrc c).view.set]{fullShare.right} xstg m c

omit [FloatOps F] in
instance rrPts_storable (c : Dev nD) (f) : BI.Storable (upEmb : UEmb _ 𝕄) (rrPts (F := F) c f) := by unfold rrPts; infer_instance
omit [FloatOps F] in
instance crPts_storable (c : Dev nD) (f) : BI.Storable (upEmb : UEmb _ 𝕄) (crPts (F := F) c f) := by unfold crPts; infer_instance
omit [FloatOps F] in
instance csPts_storable (c : Dev nD) (f) : BI.Storable (upEmb : UEmb _ 𝕄) (csPts (F := F) c f) := by unfold csPts; infer_instance
instance xLent_storable (c : Dev nD) : BI.Storable (upEmb : UEmb _ 𝕄) (xLent (F := F) m c) := by unfold xLent; infer_instance

omit [FloatOps F] in
theorem rrPts_eq (c : Dev nD) (f : Buf (Elt F) ((c : Thread nD τ).loc cc0_scratch0)) :
    rrPts c f = (((c : Thread nD τ).loc cc0_scratch0) ↦{fullShare} f : sProp 𝕄) := by unfold rrPts; rw [View.set_whole]
omit [FloatOps F] in
theorem crPts_eq (c : Dev nD) (f : Buf (Elt F) ((c : Thread nD τ).loc cc0_scratch1)) :
    crPts c f = (((c : Thread nD τ).loc cc0_scratch1) ↦{fullShare} f : sProp 𝕄) := by unfold crPts; rw [View.set_whole]
omit [FloatOps F] in
theorem csPts_eq (c : Dev nD) (f : Buf (Elt F) ((c : Thread nD τ).loc cc0_scratch2)) :
    csPts c f = (((c : Thread nD τ).loc cc0_scratch2) ↦{fullShare} f : sProp 𝕄) := by unfold csPts; rw [View.set_whole]

/-- What lands in a whole buffer copied whole from a source view is what the source view read. -/
theorem rowLanded_eq (c : Dev nD) (fd : Buf (Elt F) ((rrM : Memref sig .tc .vmem S8x1024 .f32).view.loc (c : Thread nD τ))) :
    (rrM : Memref sig .tc .vmem S8x1024 .f32).view.write (Elt F) fd ((rowSrc (px c)).view.read (Elt F) (xstg m (px c))) Finset.univ = rowLanded m c := by
  show (View.whole cc0_scratch0).write (Elt F) fd _ Finset.univ = _
  exact View.write_whole_univ _ _ _
theorem colLanded_eq (c : Dev nD) (fd : Buf (Elt F) ((crM : Memref sig .tc .vmem S1x1024 .f32).view.loc (c : Thread nD τ))) :
    (crM : Memref sig .tc .vmem S1x1024 .f32).view.write (Elt F) fd ((csM : Memref sig .tc .vmem S1x1024 .f32).view.read (Elt F) (colMine m (py c))) Finset.univ = colLanded m c := by
  show (View.whole cc0_scratch1).write (Elt F) fd ((View.whole cc0_scratch2).read (Elt F) _) Finset.univ = _
  rw [View.read_whole]
  exact View.write_whole_univ _ _ _

end Cert.KernelIdeal.Halo

end
-- ==== Proof.KernelIdeal.Sched.lean ====
/-
  The exchange's schedule: every cell has one round. An entry-barrier cell has two duties of one unit, one from each
  peer, and each hands the owner that peer's landing buffer — the eight-row buffer from `px c`, the column buffer from
  `py c` — together with the fact that the peer's receive cell stands at its round; a send cell's one duty returns what
  was lent to the transfer; a receive cell's one duty hands over the landing buffer holding what the peer sent; an
  exit-barrier cell has two duties of one unit that hand over nothing.
-/
import proofs.«900187_g7700000000000188_dist_halo2d_stencil_xy_m1024_n1024_v7x_xy2x2_f32_1_alg».proof.Proof.KernelIdeal.Cells

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What `px c`'s entry signal hands `c`: `px c`'s eight-row landing buffer, and that `px c`'s row-receive cell is at its round. -/
def barPayX (c : Dev nD) : sProp 𝕄 := iprop((∃ f, rrPts (px c) f) ∗ reached ER (rowRecvCell (px c)) 0)
/-- What `py c`'s entry signal hands `c`: `py c`'s column landing buffer, and that `py c`'s column-receive cell is at its round. -/
def barPayY (c : Dev nD) : sProp 𝕄 := iprop((∃ f, crPts (py c) f) ∗ reached ER (colRecvCell (py c)) 0)

abbrev IsGate (g : GSem nD τ sig) : Prop := g.1.2 = .tc ∧ (g.2 = .reg barS ∨ g.2 = .reg exitS)
abbrev IsXfer (g : GSem nD τ sig) : Prop :=
  g.1.2 = .tc ∧ (g.2 = .dma rowSendS ∨ g.2 = .dma rowRecvS ∨ g.2 = .dma colSendS ∨ g.2 = .dma colRecvS)

/-- One round, round 0. A barrier cell (entry or exit): duty `false` from `px`, duty `true` from `py`, a unit each.
    A transfer cell: the duty `false`, of the transfer's credit. -/
def haloRd : Rounds.Schedule (GSem nD τ sig) Bool 𝕄 where
  duties g r := if r = 0 ∧ IsGate g then Finset.univ else if r = 0 ∧ IsXfer g then {false} else ∅
  unitless _ := False
  amount g _ _ := if g.2 = .reg barS ∨ g.2 = .reg exitS then 1 else if g.2 = .dma rowSendS ∨ g.2 = .dma rowRecvS then Nrow else Ncol
  payload g _ d :=
    if g.2 = .reg barS then (if d then barPayY g.1.1 else barPayX g.1.1)
    else if g.2 = .dma rowSendS then xLent m g.1.1
    else if g.2 = .dma rowRecvS then rrPts g.1.1 (rowLanded m g.1.1)
    else if g.2 = .dma colSendS then csPts g.1.1 (colMine m g.1.1)
    else if g.2 = .dma colRecvS then crPts g.1.1 (colLanded m g.1.1)
    else iprop(emp)
  amount_pos g _ _ _ := by
    by_cases h : g.2 = .reg barS ∨ g.2 = .reg exitS
    · rw [if_pos h]; exact Nat.one_pos
    · rw [if_neg h]
      by_cases h' : g.2 = .dma rowSendS ∨ g.2 = .dma rowRecvS
      · rw [if_pos h']; exact Nrow_pos
      · rw [if_neg h']; exact Ncol_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayY g.1.1 else barPayX g.1.1)
    else if g.2 = .dma rowSendS then xLent m g.1.1
    else if g.2 = .dma rowRecvS then rrPts g.1.1 (rowLanded m g.1.1)
    else if g.2 = .dma colSendS then csPts g.1.1 (colMine m g.1.1)
    else if g.2 = .dma colRecvS then crPts g.1.1 (colLanded m g.1.1)
    else iprop(emp))
  unfold barPayX barPayY
  (repeat' split) <;> infer_instance

end Cert.KernelIdeal.Halo

end
-- ==== Proof.KernelIdeal.Tables.lean ====
/-
  The schedule's tables, read off cell by cell: which duties a cell has at its one round, what each is worth, what a
  round is worth in all, what each duty hands over, and what is left of a round of which nothing has been taken.
-/
import proofs.«900187_g7700000000000188_dist_halo2d_stencil_xy_m1024_n1024_v7x_xy2x2_f32_1_alg».proof.Proof.KernelIdeal.Sched

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The six semaphores are pairwise different -/

theorem rowSend_ne_bar : (SemLoc.dma rowSendS : SemLoc sig) ≠ .reg barS := fun h => by cases h
theorem rowRecv_ne_bar : (SemLoc.dma rowRecvS : SemLoc sig) ≠ .reg barS := fun h => by cases h
theorem colSend_ne_bar : (SemLoc.dma colSendS : SemLoc sig) ≠ .reg barS := fun h => by cases h
theorem colRecv_ne_bar : (SemLoc.dma colRecvS : SemLoc sig) ≠ .reg barS := fun h => by cases h
theorem rowSend_ne_exit : (SemLoc.dma rowSendS : SemLoc sig) ≠ .reg exitS := fun h => by cases h
theorem rowRecv_ne_exit : (SemLoc.dma rowRecvS : SemLoc sig) ≠ .reg exitS := fun h => by cases h
theorem colSend_ne_exit : (SemLoc.dma colSendS : SemLoc sig) ≠ .reg exitS := fun h => by cases h
theorem colRecv_ne_exit : (SemLoc.dma colRecvS : SemLoc sig) ≠ .reg exitS := fun h => by cases h
theorem exit_ne_bar : (SemLoc.reg exitS : SemLoc sig) ≠ .reg barS := by decide
theorem bar_ne_exit : (SemLoc.reg barS : SemLoc sig) ≠ .reg exitS := by decide
theorem rowSend_ne_rowRecv : (SemLoc.dma rowSendS : SemLoc sig) ≠ .dma rowRecvS := by decide
theorem rowSend_ne_colSend : (SemLoc.dma rowSendS : SemLoc sig) ≠ .dma colSendS := by decide
theorem rowSend_ne_colRecv : (SemLoc.dma rowSendS : SemLoc sig) ≠ .dma colRecvS := by decide
theorem rowRecv_ne_rowSend : (SemLoc.dma rowRecvS : SemLoc sig) ≠ .dma rowSendS := by decide
theorem rowRecv_ne_colSend : (SemLoc.dma rowRecvS : SemLoc sig) ≠ .dma colSendS := by decide
theorem rowRecv_ne_colRecv : (SemLoc.dma rowRecvS : SemLoc sig) ≠ .dma colRecvS := by decide
theorem colSend_ne_rowSend : (SemLoc.dma colSendS : SemLoc sig) ≠ .dma rowSendS := by decide
theorem colSend_ne_rowRecv : (SemLoc.dma colSendS : SemLoc sig) ≠ .dma rowRecvS := by decide
theorem colSend_ne_colRecv : (SemLoc.dma colSendS : SemLoc sig) ≠ .dma colRecvS := by decide
theorem colRecv_ne_rowSend : (SemLoc.dma colRecvS : SemLoc sig) ≠ .dma rowSendS := by decide
theorem colRecv_ne_rowRecv : (SemLoc.dma colRecvS : SemLoc sig) ≠ .dma rowRecvS := by decide
theorem colRecv_ne_colSend : (SemLoc.dma colRecvS : SemLoc sig) ≠ .dma colSendS := by decide

theorem csem_injective : Function.Injective csem := by
  intro a b h
  fin_cases a <;> fin_cases b <;> first
    | rfl
    | exact absurd h (fun h' => by cases h')
    | exact absurd h bar_ne_exit
    | exact absurd h exit_ne_bar
    | exact absurd h rowSend_ne_rowRecv
    | exact absurd h rowSend_ne_colSend
    | exact absurd h rowSend_ne_colRecv
    | exact absurd h rowRecv_ne_rowSend
    | exact absurd h rowRecv_ne_colSend
    | exact absurd h rowRecv_ne_colRecv
    | exact absurd h colSend_ne_rowSend
    | exact absurd h colSend_ne_rowRecv
    | exact absurd h colSend_ne_colRecv
    | exact absurd h colRecv_ne_rowSend
    | exact absurd h colRecv_ne_rowRecv
    | exact absurd h colRecv_ne_colSend

section Tables
variable (c : Dev nD)

theorem not_gate_rowSend : ¬ IsGate (rowSendCell c) := fun h => h.2.elim rowSend_ne_bar rowSend_ne_exit
theorem not_gate_rowRecv : ¬ IsGate (rowRecvCell c) := fun h => h.2.elim rowRecv_ne_bar rowRecv_ne_exit
theorem not_gate_colSend : ¬ IsGate (colSendCell c) := fun h => h.2.elim colSend_ne_bar colSend_ne_exit
theorem not_gate_colRecv : ¬ IsGate (colRecvCell c) := fun h => h.2.elim colRecv_ne_bar colRecv_ne_exit

omit [FloatOps F] in
theorem duties_bar : (haloRd (F := F) m).duties (barCell c) 0 = Finset.univ := by
  dsimp only [haloRd]; exact if_pos ⟨rfl, rfl, .inl rfl⟩
omit [FloatOps F] in
theorem duties_exit : (haloRd (F := F) m).duties (exitCell c) 0 = Finset.univ := by
  dsimp only [haloRd]; exact if_pos ⟨rfl, rfl, .inr rfl⟩
omit [FloatOps F] in
theorem duties_rowSend : (haloRd (F := F) m).duties (rowSendCell c) 0 = {false} := by
  dsimp only [haloRd]; rw [if_neg (fun h => not_gate_rowSend c h.2)]; exact if_pos ⟨rfl, rfl, .inl rfl⟩
omit [FloatOps F] in
theorem duties_rowRecv : (haloRd (F := F) m).duties (rowRecvCell c) 0 = {false} := by
  dsimp only [haloRd]; rw [if_neg (fun h => not_gate_rowRecv c h.2)]; exact if_pos ⟨rfl, rfl, .inr (.inl rfl)⟩
omit [FloatOps F] in
theorem duties_colSend : (haloRd (F := F) m).duties (colSendCell c) 0 = {false} := by
  dsimp only [haloRd]; rw [if_neg (fun h => not_gate_colSend c h.2)]; exact if_pos ⟨rfl, rfl, .inr (.inr (.inl rfl))⟩
omit [FloatOps F] in
theorem duties_colRecv : (haloRd (F := F) m).duties (colRecvCell c) 0 = {false} := by
  dsimp only [haloRd]; rw [if_neg (fun h => not_gate_colRecv c h.2)]; exact if_pos ⟨rfl, rfl, .inr (.inr (.inr rfl))⟩
omit [FloatOps F] in
theorem duties_later (g : GSem nD τ sig) : ∀ r, 1 ≤ r → (haloRd (F := F) m).duties g r = ∅ :=
  fun r hr => by dsimp only [haloRd]; rw [if_neg fun h => by omega, if_neg fun h => by omega]

omit [FloatOps F] in
theorem amount_bar (d : Bool) : (haloRd (F := F) m).amount (barCell c) 0 d = 1 := by
  dsimp only [haloRd]; exact if_pos (.inl rfl)
omit [FloatOps F] in
theorem amount_exit (d : Bool) : (haloRd (F := F) m).amount (exitCell c) 0 d = 1 := by
  dsimp only [haloRd]; exact if_pos (.inr rfl)
omit [FloatOps F] in
theorem amount_rowSend (d : Bool) : (haloRd (F := F) m).amount (rowSendCell c) 0 d = Nrow := by
  dsimp only [haloRd]; rw [if_neg (fun h => h.elim rowSend_ne_bar rowSend_ne_exit)]; exact if_pos (.inl rfl)
omit [FloatOps F] in
theorem amount_rowRecv (d : Bool) : (haloRd (F := F) m).amount (rowRecvCell c) 0 d = Nrow := by
  dsimp only [haloRd]; rw [if_neg (fun h => h.elim rowRecv_ne_bar rowRecv_ne_exit)]; exact if_pos (.inr rfl)
omit [FloatOps F] in
theorem amount_colSend (d : Bool) : (haloRd (F := F) m).amount (colSendCell c) 0 d = Ncol := by
  dsimp only [haloRd]; rw [if_neg (fun h => h.elim colSend_ne_bar colSend_ne_exit)]
  exact if_neg (fun h => h.elim colSend_ne_rowSend colSend_ne_rowRecv)
omit [FloatOps F] in
theorem amount_colRecv (d : Bool) : (haloRd (F := F) m).amount (colRecvCell c) 0 d = Ncol := by
  dsimp only [haloRd]; rw [if_neg (fun h => h.elim colRecv_ne_bar colRecv_ne_exit)]
  exact if_neg (fun h => h.elim colRecv_ne_rowSend colRecv_ne_rowRecv)

omit [FloatOps F] in
theorem expect_bar : (haloRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_exit : (haloRd (F := F) m).expect (exitCell c) 0 = 2 := by
  unfold Schedule.expect Schedule.amountOf
  rw [duties_exit, Finset.sum_congr rfl fun d _ => amount_exit m c d, Finset.sum_const, Finset.card_univ, Fintype.card_bool, smul_eq_mul]
omit [FloatOps F] in
theorem expect_rowSend : (haloRd (F := F) m).expect (rowSendCell c) 0 = Nrow := by
  unfold Schedule.expect Schedule.amountOf; rw [duties_rowSend, Finset.sum_singleton, amount_rowSend]
omit [FloatOps F] in
theorem expect_rowRecv : (haloRd (F := F) m).expect (rowRecvCell c) 0 = Nrow := by
  unfold Schedule.expect Schedule.amountOf; rw [duties_rowRecv, Finset.sum_singleton, amount_rowRecv]
omit [FloatOps F] in
theorem expect_colSend : (haloRd (F := F) m).expect (colSendCell c) 0 = Ncol := by
  unfold Schedule.expect Schedule.amountOf; rw [duties_colSend, Finset.sum_singleton, amount_colSend]
omit [FloatOps F] in
theorem expect_colRecv : (haloRd (F := F) m).expect (colRecvCell c) 0 = Ncol := by
  unfold Schedule.expect Schedule.amountOf; rw [duties_colRecv, Finset.sum_singleton, amount_colRecv]

omit [FloatOps F] in
theorem payload_bar_false : (haloRd (F := F) m).payload (barCell c) 0 false = barPayX c := by
  dsimp only [haloRd]; rw [if_pos rfl]; exact if_neg Bool.false_ne_true
omit [FloatOps F] in
theorem payload_bar_true : (haloRd (F := F) m).payload (barCell c) 0 true = barPayY c := by
  dsimp only [haloRd]; rw [if_pos rfl, if_pos rfl]
omit [FloatOps F] in
theorem payload_exit (d : Bool) : (haloRd (F := F) m).payload (exitCell c) 0 d = iprop(emp) := by
  dsimp only [haloRd]
  rw [if_neg exit_ne_bar, if_neg (fun h => rowSend_ne_exit h.symm), if_neg (fun h => rowRecv_ne_exit h.symm),
    if_neg (fun h => colSend_ne_exit h.symm), if_neg (fun h => colRecv_ne_exit h.symm)]
theorem payload_rowSend (d : Bool) : (haloRd (F := F) m).payload (rowSendCell c) 0 d = xLent m c := by
  dsimp only [haloRd]; rw [if_neg rowSend_ne_bar, if_pos rfl]
theorem payload_rowRecv (d : Bool) : (haloRd (F := F) m).payload (rowRecvCell c) 0 d = rrPts c (rowLanded m c) := by
  dsimp only [haloRd]; rw [if_neg rowRecv_ne_bar, if_neg rowRecv_ne_rowSend, if_pos rfl]
theorem payload_colSend (d : Bool) : (haloRd (F := F) m).payload (colSendCell c) 0 d = csPts c (colMine m c) := by
  dsimp only [haloRd]; rw [if_neg colSend_ne_bar, if_neg colSend_ne_rowSend, if_neg colSend_ne_rowRecv, if_pos rfl]
theorem payload_colRecv (d : Bool) : (haloRd (F := F) m).payload (colRecvCell c) 0 d = crPts c (colLanded m c) := by
  dsimp only [haloRd]
  rw [if_neg colRecv_ne_bar, if_neg colRecv_ne_rowSend, if_neg colRecv_ne_rowRecv, if_neg colRecv_ne_colSend, if_pos rfl]

/-- The rest of a round of which no duty has been taken: every duty's payload. -/
theorem rest_bar : bigSep ((haloRd (F := F) m).duties (barCell c) 0 \ ∅) (fun d => (haloRd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_exit : bigSep ((haloRd (F := F) m).duties (exitCell c) 0 \ ∅) (fun d => (haloRd (F := F) m).payload (exitCell c) 0 d) = (iprop(emp ∗ emp) : sProp 𝕄) := by
  rw [Finset.sdiff_empty, duties_exit, bigSep_univ_eq_bigSepL [false, true] (by decide) (by decide), bigSepL_cons_cons, bigSepL_singleton,
    payload_exit, payload_exit]
  rfl
theorem rest_rowSend : bigSep ((haloRd (F := F) m).duties (rowSendCell c) 0 \ ∅) (fun d => (haloRd (F := F) m).payload (rowSendCell c) 0 d) = xLent m c := by
  rw [Finset.sdiff_empty, duties_rowSend, bigSep_singleton, payload_rowSend]
theorem rest_rowRecv : bigSep ((haloRd (F := F) m).duties (rowRecvCell c) 0 \ ∅) (fun d => (haloRd (F := F) m).payload (rowRecvCell c) 0 d) = rrPts c (rowLanded m c) := by
  rw [Finset.sdiff_empty, duties_rowRecv, bigSep_singleton, payload_rowRecv]
theorem rest_colSend : bigSep ((haloRd (F := F) m).duties (colSendCell c) 0 \ ∅) (fun d => (haloRd (F := F) m).payload (colSendCell c) 0 d) = csPts c (colMine m c) := by
  rw [Finset.sdiff_empty, duties_colSend, bigSep_singleton, payload_colSend]
theorem rest_colRecv : bigSep ((haloRd (F := F) m).duties (colRecvCell c) 0 \ ∅) (fun d => (haloRd (F := F) m).payload (colRecvCell c) 0 d) = crPts c (colLanded m c) := by
  rw [Finset.sdiff_empty, duties_colRecv, bigSep_singleton, payload_colRecv]

end Tables

end Cert.KernelIdeal.Halo

end
-- ==== Proof.KernelIdeal.Levels.lean ====
/-
  What a device owes at launch and after each payment, and the levels that order the waits. A device pays, in program
  order: a unit to `px c`'s entry barrier, a unit to `py c`'s, the eight rows' credit to `px c`'s row-receive cell, the
  column's credit to `py c`'s column-receive cell, a unit to `px c`'s exit barrier, a unit to `py c`'s. Entry barriers
  stand at level 1, transfer cells at 2, exit barriers at 3, the pipeline's own staging cells at 0: every wait is on
  a cell strictly below everything the waiter still owes.
-/
import proofs.«900187_g7700000000000188_dist_halo2d_stencil_xy_m1024_n1024_v7x_xy2x2_f32_1_alg».proof.Proof.KernelIdeal.Tables

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is still owed after five, four, …, none of the six payments, each the next plus the payment still to make. -/
def O₅ (c : Dev nD) : CellTallies nD τ sig Unit := tallyAt (exitCell (py c)) () 1
def O₄ (c : Dev nD) : CellTallies nD τ sig Unit := O₅ c + tallyAt (exitCell (px c)) () 1
def O₃ (c : Dev nD) : CellTallies nD τ sig Unit := O₄ c + tallyAt (colRecvCell (py c)) () Ncol
def O₂ (c : Dev nD) : CellTallies nD τ sig Unit := O₃ c + tallyAt (rowRecvCell (px c)) () Nrow
def O₁ (c : Dev nD) : CellTallies nD τ sig Unit := O₂ c + tallyAt (barCell (py c)) () 1
def O₀ (c : Dev nD) : CellTallies nD τ sig Unit := O₁ c + tallyAt (barCell (px c)) () 1

def L (g : GSem nD τ sig) : Finset Unit := if g.1.2 = .tc then {()} else ∅
def lv (g : GSem nD τ sig) (_ : Unit) : ℕ :=
  if g.2 = .reg barS then 1 else if g.2 = .reg exitS then 3
  else if g.2 = .dma rowSendS ∨ g.2 = .dma rowRecvS ∨ g.2 = .dma colSendS ∨ g.2 = .dma colRecvS then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## Where a tally is positive -/

theorem pos_tally {g' g : GSem nD τ sig} {k : ℕ} {u : Unit} (h : 0 < tallyAt g' () k g u) : g = g' := by
  rw [tallyAt_apply] at h
  by_contra hg
  rw [if_neg (fun h' => hg h'.1)] at h
  exact Nat.lt_irrefl 0 h

theorem pos_add_tally {O : CellTallies nD τ sig Unit} {g' g : GSem nD τ sig} {k : ℕ} {u : Unit}
    (h : 0 < (O + tallyAt g' () k) g u) : 0 < O g u ∨ g = g' := by
  rw [Pi.add_apply, Finsupp.add_apply, tallyAt_apply] at h
  by_cases hg : g = g'
  · exact .inr hg
  · rw [if_neg (fun h' => hg h'.1), Nat.add_zero] at h; exact .inl h

theorem O₄_pos {c : Dev nD} {g : GSem nD τ sig} {u : Unit} (h : 0 < O₄ c g u) : g = exitCell (px c) ∨ g = exitCell (py c) := by
  unfold O₄ O₅ at h
  rcases pos_add_tally h with h | rfl
  · exact .inr (pos_tally h)
  · exact .inl rfl

theorem O₂_pos {c : Dev nD} {g : GSem nD τ sig} {u : Unit} (h : 0 < O₂ c g u) :
    g = rowRecvCell (px c) ∨ g = colRecvCell (py c) ∨ g = exitCell (px c) ∨ g = exitCell (py c) := by
  unfold O₂ O₃ at h
  rcases pos_add_tally h with h | rfl
  · rcases pos_add_tally h with h | rfl
    · exact .inr (.inr (O₄_pos h))
    · exact .inr (.inl rfl)
  · exact .inl rfl

theorem O₀_pos {c : Dev nD} {g : GSem nD τ sig} {u : Unit} (h : 0 < O₀ c g u) :
    g = barCell (px c) ∨ g = barCell (py c) ∨ g = rowRecvCell (px c) ∨ g = colRecvCell (py c) ∨ g = exitCell (px c) ∨ g = exitCell (py c) := by
  unfold O₀ O₁ at h
  rcases pos_add_tally h with h | rfl
  · rcases pos_add_tally h with h | rfl
    · exact .inr (.inr (O₂_pos h))
    · exact .inr (.inl rfl)
  · exact .inl rfl

/-! ## The levels of the six cells -/

theorem lv_bar (c : Dev nD) : lv (barCell c) () = 1 := by dsimp only [lv]; rw [if_pos rfl]
theorem lv_exit (c : Dev nD) : lv (exitCell c) () = 3 := by dsimp only [lv]; rw [if_neg exit_ne_bar, if_pos rfl]
theorem lv_rowSend (c : Dev nD) : lv (rowSendCell c) () = 2 := by
  dsimp only [lv]; rw [if_neg rowSend_ne_bar, if_neg rowSend_ne_exit, if_pos (.inl rfl)]
theorem lv_rowRecv (c : Dev nD) : lv (rowRecvCell c) () = 2 := by
  dsimp only [lv]; rw [if_neg rowRecv_ne_bar, if_neg rowRecv_ne_exit, if_pos (.inr (.inl rfl))]
theorem lv_colSend (c : Dev nD) : lv (colSendCell c) () = 2 := by
  dsimp only [lv]; rw [if_neg colSend_ne_bar, if_neg colSend_ne_exit, if_pos (.inr (.inr (.inl rfl)))]
theorem lv_colRecv (c : Dev nD) : lv (colRecvCell c) () = 2 := by
  dsimp only [lv]; rw [if_neg colRecv_ne_bar, if_neg colRecv_ne_exit, if_pos (.inr (.inr (.inr rfl)))]

omit [FloatOps F] in
/-- A wait on a staging semaphore of the pipeline, before the body (owing everything) or after it (owing nothing). -/
theorem mayWait_stage (c : Dev nD) (q : DmaSem sig)
    (hq : SemLoc.dma q ≠ .dma rowSendS ∧ SemLoc.dma q ≠ .dma rowRecvS ∧ SemLoc.dma q ≠ .dma colSendS ∧ SemLoc.dma q ≠ .dma colRecvS)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by cases h),
          if_neg (fun h => h.elim hq.1 fun h => h.elim hq.2.1 fun h => h.elim hq.2.2.1 hq.2.2.2)])
      (fun g u hg => by
        rcases O₀_pos hg with rfl | rfl | rfl | rfl | rfl | rfl
        · rw [lv_bar]; decide
        · rw [lv_bar]; decide
        · rw [lv_rowRecv]; decide
        · rw [lv_colRecv]; decide
        · rw [lv_exit]; decide
        · rw [lv_exit]; decide)
  · rw [MayWait_zero]; iintro -; iempintro

omit [FloatOps F] in
/-- At its entry-barrier wait a device owes the two transfers' credits and the two exit units. -/
theorem mayWait_bar (c : Dev nD) : (levAts L lv : sProp 𝕄) ⊢ MayWait (c : Thread nD τ) (.reg barS) () (O₂ c) := by
  refine MayOwe.of_cut (L := L) (lev := lv) 1 (fun p hp => by rw [Finset.mem_singleton.mp hp, L_tc]; exact Finset.mem_singleton_self _)
    (fun g u hg => by rcases O₂_pos hg with rfl | rfl | rfl | rfl <;> exact Finset.mem_singleton_self _)
    (fun p hp => by rw [Finset.mem_singleton.mp hp]; exact le_of_eq (lv_bar c))
    (fun g u hg => by
      rcases O₂_pos hg with rfl | rfl | rfl | rfl
      · rw [lv_rowRecv]; decide
      · rw [lv_colRecv]; decide
      · rw [lv_exit]; decide
      · rw [lv_exit]; decide)

omit [FloatOps F] in
/-- At each of its four transfer waits it owes the two exit units. -/
theorem mayWait_xfer (c : Dev nD) (q : DmaSem sig)
    (hq : SemLoc.dma q = .dma rowSendS ∨ SemLoc.dma q = .dma rowRecvS ∨ SemLoc.dma q = .dma colSendS ∨ SemLoc.dma q = .dma colRecvS) :
    (levAts L lv : sProp 𝕄) ⊢ MayWait (c : Thread nD τ) (.dma q) () (O₄ c) := by
  refine MayOwe.of_cut (L := L) (lev := lv) 2 (fun p hp => by rw [Finset.mem_singleton.mp hp, L_tc]; exact Finset.mem_singleton_self _)
    (fun g u hg => by rcases O₄_pos hg with rfl | rfl <;> exact Finset.mem_singleton_self _)
    (fun p hp => by
      rw [Finset.mem_singleton.mp hp]
      rcases hq with h | h | h | h
      · exact le_of_eq ((congrArg (fun s => lv ((c : Thread nD τ), s) ()) h).trans (lv_rowSend c))
      · exact le_of_eq ((congrArg (fun s => lv ((c : Thread nD τ), s) ()) h).trans (lv_rowRecv c))
      · exact le_of_eq ((congrArg (fun s => lv ((c : Thread nD τ), s) ()) h).trans (lv_colSend c))
      · exact le_of_eq ((congrArg (fun s => lv ((c : Thread nD τ), s) ()) h).trans (lv_colRecv c)))
    (fun g u hg => by
      rcases O₄_pos hg with rfl | rfl
      · rw [lv_exit]; decide
      · rw [lv_exit]; decide)

/-! ## What the devices owe one cell, summed -/

/-- A tally at another semaphore's cell contributes nothing. -/
theorem tally_other (x c : Dev nD) {s s' : SemLoc sig} (hs : s' ≠ s) (k : ℕ) :
    tallyAt ((x : Thread nD τ), s) () k ((c : Thread nD τ), s') () = 0 := by
  rw [tallyAt_ne_cell (fun h => hs (congrArg Prod.snd h))]; rfl

/-- A tally at the cell of the peer `f d`, read at device `c`'s cell of the same semaphore: it is there exactly when
    `d` is `c`'s peer, `f` being an involution. -/
theorem tally_peer (f : Dev nD → Dev nD) (hf : ∀ x, f (f x) = x) (s : SemLoc sig) (k : ℕ) (d c : Dev nD) :
    tallyAt ((f d : Thread nD τ), s) () k ((c : Thread nD τ), s) () = if d = f c then k else 0 := by
  rw [tallyAt_apply]
  by_cases h : d = f c
  · subst h; rw [hf, if_pos ⟨rfl, rfl⟩, if_pos rfl]
  · rw [if_neg (fun h' => h ((hf d).symm.trans (congrArg f (congrArg (fun g : GSem nD τ sig => g.1.1) h'.1)).symm)), if_neg h]

theorem owed_bar (d c : Dev nD) : O₀ d (barCell c) () = (if d = py c then 1 else 0) + (if d = px c then 1 else 0) := by
  unfold O₀ O₁ O₂ O₃ O₄ O₅
  simp only [Pi.add_apply, Finsupp.add_apply]
  rw [tally_other (py d) c bar_ne_exit, tally_other (px d) c bar_ne_exit, tally_other (py d) c colRecv_ne_bar.symm,
    tally_other (px d) c rowRecv_ne_bar.symm, tally_peer py py_py (.reg barS) 1 d c, tally_peer px px_px (.reg barS) 1 d c] <;>
    simp only [Nat.zero_add, Nat.add_zero]

theorem owed_exit (d c : Dev nD) : O₀ d (exitCell c) () = (if d = py c then 1 else 0) + (if d = px c then 1 else 0) := by
  unfold O₀ O₁ O₂ O₃ O₄ O₅
  simp only [Pi.add_apply, Finsupp.add_apply]
  rw [tally_peer py py_py (.reg exitS) 1 d c, tally_peer px px_px (.reg exitS) 1 d c, tally_other (py d) c colRecv_ne_exit.symm,
    tally_other (px d) c rowRecv_ne_exit.symm, tally_other (py d) c exit_ne_bar, tally_other (px d) c exit_ne_bar] <;>
    simp only [Nat.zero_add, Nat.add_zero]

theorem owed_rowRecv (d c : Dev nD) : O₀ d (rowRecvCell c) () = if d = px c then Nrow else 0 := by
  unfold O₀ O₁ O₂ O₃ O₄ O₅
  simp only [Pi.add_apply, Finsupp.add_apply]
  rw [tally_other (py d) c rowRecv_ne_exit, tally_other (px d) c rowRecv_ne_exit, tally_other (py d) c rowRecv_ne_colRecv,
    tally_peer px px_px (.dma rowRecvS) Nrow d c, tally_other (py d) c rowRecv_ne_bar, tally_other (px d) c rowRecv_ne_bar] <;>
    simp only [Nat.zero_add, Nat.add_zero]

theorem owed_colRecv (d c : Dev nD) : O₀ d (colRecvCell c) () = if d = py c then Ncol else 0 := by
  unfold O₀ O₁ O₂ O₃ O₄ O₅
  simp only [Pi.add_apply, Finsupp.add_apply]
  rw [tally_other (py d) c colRecv_ne_exit, tally_other (px d) c colRecv_ne_exit, tally_peer py py_py (.dma colRecvS) Ncol d c,
    tally_other (px d) c colRecv_ne_rowRecv, tally_other (py d) c colRecv_ne_bar, tally_other (px d) c colRecv_ne_bar] <;>
    simp only [Nat.zero_add, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]

theorem launch_exit (c : Dev nD) :
    tallyOn (exitCell c) (launchCredit (Pipeline.owing O₀) 0 (exitCell c)) = (tallyAt (exitCell c) () 2 : CellTallies nD τ sig Unit) := by
  unfold tallyAt; refine congrArg _ (Finsupp.ext fun u => ?_); cases u
  rw [Pipeline.launchCredit_owing, Finsupp.single_eq_same, Finset.sum_congr rfl fun d _ => owed_exit d c, Finset.sum_add_distrib,
    Finset.sum_ite_eq' Finset.univ (py c) fun _ => 1, Finset.sum_ite_eq' Finset.univ (px c) fun _ => 1, if_pos (Finset.mem_univ _), if_pos (Finset.mem_univ _)]

theorem launch_rowRecv (c : Dev nD) :
    tallyOn (rowRecvCell c) (launchCredit (Pipeline.owing O₀) 0 (rowRecvCell c)) = (tallyAt (rowRecvCell c) () Nrow : CellTallies nD τ sig Unit) := by
  unfold tallyAt; refine congrArg _ (Finsupp.ext fun u => ?_); cases u
  rw [Pipeline.launchCredit_owing, Finsupp.single_eq_same, Finset.sum_congr rfl fun d _ => owed_rowRecv d c,
    Finset.sum_ite_eq' Finset.univ (px c) fun _ => Nrow, if_pos (Finset.mem_univ _)]

theorem launch_colRecv (c : Dev nD) :
    tallyOn (colRecvCell c) (launchCredit (Pipeline.owing O₀) 0 (colRecvCell c)) = (tallyAt (colRecvCell c) () Ncol : CellTallies nD τ sig Unit) := by
  unfold tallyAt; refine congrArg _ (Finsupp.ext fun u => ?_); cases u
  rw [Pipeline.launchCredit_owing, Finsupp.single_eq_same, Finset.sum_congr rfl fun d _ => owed_colRecv d c,
    Finset.sum_ite_eq' Finset.univ (py c) fun _ => Ncol, if_pos (Finset.mem_univ _)]

omit [FloatOps F] in
/-- The credit the launch deals a device: what its peers owe its entry barrier, its two receive cells and its exit barrier. -/
theorem creds (c : Dev nD) :
    (Pipeline.launchCred O₀ c : sProp 𝕄) ⊢ iprop(cred (tallyAt (barCell c) () 2) ∗ cred (tallyAt (rowRecvCell c) () Nrow)
      ∗ cred (tallyAt (colRecvCell c) () Ncol) ∗ cred (tallyAt (exitCell c) () 2)) := by
  unfold Pipeline.launchCred
  rw [bigSep_univ_at _ (SemLoc.reg barS), launch_bar]
  refine sep_mono_right ?_
  rw [bigSep_erase (i := SemLoc.dma rowRecvS) (Finset.mem_erase.mpr ⟨rowRecv_ne_bar, Finset.mem_univ _⟩), launch_rowRecv]
  refine sep_mono_right ?_
  rw [bigSep_erase (i := SemLoc.dma colRecvS)
    (Finset.mem_erase.mpr ⟨colRecv_ne_rowRecv, Finset.mem_erase.mpr ⟨colRecv_ne_bar, Finset.mem_univ _⟩⟩), launch_colRecv]
  refine sep_mono_right ?_
  rw [← launch_exit]
  exact bigSep_elim (Finset.mem_erase.mpr ⟨colRecv_ne_exit.symm,
    Finset.mem_erase.mpr ⟨rowRecv_ne_exit.symm, Finset.mem_erase.mpr ⟨exit_ne_bar, Finset.mem_univ _⟩⟩⟩)

end Cert.KernelIdeal.Halo

end
-- ==== Proof.KernelIdeal.Data.lean ====
/-
  What a device's body starts from and what it ends with. It starts from the twelve cell invariants it opens (its own
  six cells, both peers' entry and exit barriers, `px c`'s row-receive cell and `py c`'s column-receive cell), its
  position at round 0 of its own cells, the rounds it knows reached, the eight tokens of the duties it pays, the
  credit for its four waits on cells its peers pay, the level facts, and its three scratch buffers at any contents.
  It ends with the eight received rows and the received column in place, its sent column back, and its five own cells
  closed at zero. The staged input block is unchanged and the staged result block is the device's block of the result.
-/
import proofs.«900187_g7700000000000188_dist_halo2d_stencil_xy_m1024_n1024_v7x_xy2x2_f32_1_alg».proof.Proof.KernelIdeal.Levels

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cell invariants device `c`'s body opens, under the names `K` the launch allocated them at. -/
def invs (K : Dev nD × Fin 6 → ℕ) (c : Dev nD) : sProp 𝕄 :=
  iprop(cellInv ER (haloRd m) (K (c, 0)) (barCell c) ∗ cellInv ER (haloRd m) (K (c, 1)) (rowSendCell c) ∗ cellInv ER (haloRd m) (K (c, 2)) (rowRecvCell c)
    ∗ cellInv ER (haloRd m) (K (c, 3)) (colSendCell c) ∗ cellInv ER (haloRd m) (K (c, 4)) (colRecvCell c) ∗ cellInv ER (haloRd m) (K (c, 5)) (exitCell c)
    ∗ cellInv ER (haloRd m) (K (px c, 0)) (barCell (px c)) ∗ cellInv ER (haloRd m) (K (py c, 0)) (barCell (py c))
    ∗ cellInv ER (haloRd m) (K (px c, 2)) (rowRecvCell (px c)) ∗ cellInv ER (haloRd m) (K (py c, 4)) (colRecvCell (py c))
    ∗ cellInv ER (haloRd m) (K (px c, 5)) (exitCell (px c)) ∗ cellInv ER (haloRd m) (K (py c, 5)) (exitCell (py c)))

instance invs_persistent (K : Dev nD × Fin 6 → ℕ) (c : Dev nD) : BI.Persistent (invs m K c) := by unfold invs; infer_instance

/-- Its positions at round 0 of its own six cells. -/
def positions (c : Dev nD) : sProp 𝕄 :=
  iprop(atPos ER (barCell c) 0 ∅ 0 ∗ atPos ER (rowSendCell c) 0 ∅ 0 ∗ atPos ER (rowRecvCell c) 0 ∅ 0
    ∗ atPos ER (colSendCell c) 0 ∅ 0 ∗ atPos ER (colRecvCell c) 0 ∅ 0 ∗ atPos ER (exitCell c) 0 ∅ 0)

/-- The rounds it knows reached: of the six cells of its peers it pays, and of its own four transfer cells. -/
def marks (c : Dev nD) : sProp 𝕄 :=
  iprop(reached ER (barCell (px c)) 0 ∗ reached ER (barCell (py c)) 0 ∗ reached ER (rowRecvCell (px c)) 0 ∗ reached ER (colRecvCell (py c)) 0
    ∗ reached ER (exitCell (px c)) 0 ∗ reached ER (exitCell (py c)) 0
    ∗ reached ER (rowSendCell c) 0 ∗ reached ER (rowRecvCell c) 0 ∗ reached ER (colSendCell c) 0 ∗ reached ER (colRecvCell c) 0)

instance marks_persistent (c : Dev nD) : BI.Persistent (marks (F := F) c) := by unfold marks; infer_instance

/-- The tokens of the eight duties it pays: towards `px c` it is the payer named `false`, towards `py c` the payer named
    `true`; a transfer cell's one duty is named `false`. -/
def payToks (c : Dev nD) : sProp 𝕄 :=
  iprop(dutyTok ER (barCell (px c)) 0 false ∗ dutyTok ER (barCell (py c)) 0 true
    ∗ dutyTok ER (rowSendCell c) 0 false ∗ dutyTok ER (rowRecvCell (px c)) 0 false
    ∗ dutyTok ER (colSendCell c) 0 false ∗ dutyTok ER (colRecvCell (py c)) 0 false
    ∗ dutyTok ER (exitCell (px c)) 0 false ∗ dutyTok ER (exitCell (py c)) 0 true)

def ghost (K : Dev nD × Fin 6 → ℕ) (c : Dev nD) : sProp 𝕄 :=
  iprop(invs m K c ∗ positions c ∗ marks c ∗ payToks c)

/-- The credit for its four waits on cells its peers pay. -/
def credits (c : Dev nD) : sProp 𝕄 :=
  iprop(cred (tallyAt (barCell c) () 2) ∗ cred (tallyAt (rowRecvCell c) () Nrow)
    ∗ cred (tallyAt (colRecvCell c) () Ncol) ∗ cred (tallyAt (exitCell c) () 2))

def start (c : Dev nD) : sProp 𝕄 := iprop((∃ K, ghost m K c) ∗ credits c ∗ levAts L lv)

/-- Its three scratch buffers at any contents. -/
def scratch (c : Dev nD) : sProp 𝕄 := iprop((∃ f, rrPts c f) ∗ (∃ f, crPts c f) ∗ (∃ f, csPts c f))

def Φ₀ (c : Dev nD) : sProp 𝕄 := iprop(start m c ∗ scratch c)

/-- After the body: what landed, what was sent, and the five own cells closed. -/
def Φ₁ (c : Dev nD) : sProp 𝕄 :=
  iprop(rrPts c (rowLanded m c) ∗ crPts c (colLanded m c) ∗ csPts c (colMine m c)
    ∗ semVal (rowSendCell c) 0 ∗ semVal (rowRecvCell c) 0 ∗ semVal (colSendCell c) 0 ∗ semVal (colRecvCell c) 0 ∗ semVal (exitCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem share_eq (c : Dev nD) (w : Fin cfg0.W) : (dats m 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body obligation hands the body at the one grid point, and what it wants back. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

end Cert.KernelIdeal.Halo

end
-- ==== Proof.KernelIdeal.Body.lean ====
/-
  One device's body, from the state the launch hands it to the state it hands back. In program order the device
  gives each peer a unit on that peer's entry barrier — handing `px c` its own eight-row landing buffer and `py c` its
  own column landing buffer —, waits for its own two units and so receives its peers' landing buffers, lends half of
  the eight-row band of its block to the transfer into `px c`'s buffer and goes on reading the block with the other
  half, stores its edge column into the send buffer and transfers it into `py c`'s buffer, stores the five-point sum,
  waits for the band to have left and for `px c`'s rows to have landed, adds their share, waits for the column to have
  left and for `py c`'s to have landed, adds its share, restores the whole array's outermost row and column, gives
  each peer a unit on that peer's exit barrier and waits for its own two. Every wait is on a cell below everything the
  device still owes. At the end the band's lent half is joined to the kept half again, the five own cells are closed
  at zero, and the result buffer holds the five stores over whatever it held, which is the block `outAt`.
-/
import proofs.«900187_g7700000000000188_dist_halo2d_stencil_xy_m1024_n1024_v7x_xy2x2_f32_1_alg».proof.Proof.KernelIdeal.Data
import proofs.«900187_g7700000000000188_dist_halo2d_stencil_xy_m1024_n1024_v7x_xy2x2_f32_1_alg».proof.Proof.KernelIdeal.Tables
import proofs.«900187_g7700000000000188_dist_halo2d_stencil_xy_m1024_n1024_v7x_xy2x2_f32_1_alg».proof.Proof.Gen.KernelIdeal.Skeleton
import proofs.«900187_g7700000000000188_dist_halo2d_stencil_xy_m1024_n1024_v7x_xy2x2_f32_1_alg».proof.Proof.Gen.KernelIdeal.Points
import Idealize.ShloMosaic.Lib.Pipeline.FrameBody
import Idealize.ShloMosaic.Lib.Pipeline.Value

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

local notation "A0" => (Memref.whole cc0_stg0_0 : Memref sig Kind.tc Space.vmem S1024x1024 EltTy.f32)
local notation "A1" => (Memref.whole cc0_stg1_0 : Memref sig Kind.tc Space.vmem S1024x1024 EltTy.f32)
local notation "A2" => (Memref.whole cc0_scratch0 : Memref sig Kind.tc Space.vmem S8x1024 EltTy.f32)
local notation "A3" => (Memref.whole cc0_scratch1 : Memref sig Kind.tc Space.vmem S1x1024 EltTy.f32)
local notation "A4" => (Memref.whole cc0_scratch2 : Memref sig Kind.tc Space.vmem S1x1024 EltTy.f32)

/-- The eight rows of a block memref that go to `px c`. -/
abbrev bandOf (a0 : Memref sig .tc .vmem S1024x1024 .f32) (c : Dev nD) : Memref sig .tc .vmem S8x1024 .f32 :=
  a0.slice (Rect.unit (s := S1024x1024) (k0_off1 c) S8x1024.size (k0_off1_inb c)) (fun _ => rfl)

/-! ## A buffer held through a memref that is the whole buffer -/

omit [FloatOps F] in
/-- Holding the eight-row buffer whole is owning it at its contents, through any memref that is the whole buffer. -/
theorem own2_of (a2 : Memref sig .tc .vmem S8x1024 .f32) (h2 : a2 = (A2)) (c' : Dev nD) (X : RC F) :
    ((A2).view.loc (c' : Thread nD τ) ↦[(A2).view.set]{fullShare} X : sProp 𝕄)
      ⊢ owns (Ix := Unit) (Name := ℕ) (U := UU) (Lvl := ℕ) (c' : Thread nD τ) a2 fullShare X := by
  subst h2; unfold owns; iintro H; iexists X; isplitr; · (ipureintro; exact View.read_whole _ _)
  iexact H
omit [FloatOps F] in
theorem pts2_of (a2 : Memref sig .tc .vmem S8x1024 .f32) (h2 : a2 = (A2)) (c' : Dev nD) (X : RC F) :
    (owns (Ix := Unit) (Name := ℕ) (U := UU) (Lvl := ℕ) (c' : Thread nD τ) a2 fullShare X : sProp 𝕄)
      ⊢ ((A2).view.loc (c' : Thread nD τ) ↦[(A2).view.set]{fullShare} X) := by
  subst h2; unfold owns; iintro ⟨%f, %hf, H⟩
  have hf' : f = X := ((View.read_whole _ _).symm.trans hf)
  subst hf'; iexact H
omit [FloatOps F] in
theorem own3_of (a3 : Memref sig .tc .vmem S1x1024 .f32) (h3 : a3 = (A3)) (c' : Dev nD) (X : CC F) :
    ((A3).view.loc (c' : Thread nD τ) ↦[(A3).view.set]{fullShare} X : sProp 𝕄)
      ⊢ owns (Ix := Unit) (Name := ℕ) (U := UU) (Lvl := ℕ) (c' : Thread nD τ) a3 fullShare X := by
  subst h3; unfold owns; iintro H; iexists X; isplitr; · (ipureintro; exact View.read_whole _ _)
  iexact H
omit [FloatOps F] in
theorem pts3_of (a3 : Memref sig .tc .vmem S1x1024 .f32) (h3 : a3 = (A3)) (c' : Dev nD) (X : CC F) :
    (owns (Ix := Unit) (Name := ℕ) (U := UU) (Lvl := ℕ) (c' : Thread nD τ) a3 fullShare X : sProp 𝕄)
      ⊢ ((A3).view.loc (c' : Thread nD τ) ↦[(A3).view.set]{fullShare} X) := by
  subst h3; unfold owns; iintro ⟨%f, %hf, H⟩
  have hf' : f = X := ((View.read_whole _ _).symm.trans hf)
  subst hf'; iexact H
omit [FloatOps F] in
theorem own4_of (a4 : Memref sig .tc .vmem S1x1024 .f32) (h4 : a4 = (A4)) (c' : Dev nD) (X : CC F) :
    ((A4).view.loc (c' : Thread nD τ) ↦[(A4).view.set]{fullShare} X : sProp 𝕄)
      ⊢ owns (Ix := Unit) (Name := ℕ) (U := UU) (Lvl := ℕ) (c' : Thread nD τ) a4 fullShare X := by
  subst h4; unfold owns; iintro H; iexists X; isplitr; · (ipureintro; exact View.read_whole _ _)
  iexact H
omit [FloatOps F] in
theorem pts4_of (a4 : Memref sig .tc .vmem S1x1024 .f32) (h4 : a4 = (A4)) (c' : Dev nD) (X : CC F) :
    (owns (Ix := Unit) (Name := ℕ) (U := UU) (Lvl := ℕ) (c' : Thread nD τ) a4 fullShare X : sProp 𝕄)
      ⊢ ((A4).view.loc (c' : Thread nD τ) ↦[(A4).view.set]{fullShare} X) := by
  subst h4; unfold owns; iintro ⟨%f, %hf, H⟩
  have hf' : f = X := ((View.read_whole _ _).symm.trans hf)
  subst hf'; iexact H

/-! ## The staged block, cut for the row transfer and put together again -/

omit [FloatOps F] in
theorem band_sub (a0 : Memref sig .tc .vmem S1024x1024 .f32) (h0 : a0 = (A0)) (c : Dev nD) : (bandOf a0 c).view.set ⊆ a0.view.set := by
  subst h0
  rw [show (A0).view.set = Finset.univ from View.set_whole _]; exact Finset.subset_univ _

omit [FloatOps F] in
/-- A half of the whole block is kept for reading; the other half is cut into the eight-row band that is lent to the
    transfer and the rest. -/
theorem xv_split (a0 : Memref sig .tc .vmem S1024x1024 .f32) (h0 : a0 = (A0)) (c : Dev nD) (f0 : Buf (Elt F) (a0.view.loc (c : Thread nD τ))) :
    (a0.view.loc (c : Thread nD τ) ↦[a0.view.set]{fullShare} f0 : sProp 𝕄)
      ⊢ iprop((a0.view.loc (c : Thread nD τ) ↦[a0.view.set]{fullShare.left} f0)
          ∗ ((bandOf a0 c).view.loc (c : Thread nD τ) ↦[(bandOf a0 c).view.set]{fullShare.right} f0)
          ∗ (a0.view.loc (c : Thread nD τ) ↦[a0.view.set \ (bandOf a0 c).view.set]{fullShare.right} f0)) := by
  iintro H
  ihave H' := (pointsTo_share (PosShare.mem_left_op_right fullShare)).1 $$ H
  icases H' with ⟨Hl, Hr⟩
  ihave Hr' := (pointsTo_split_subset (ℓ := a0.view.loc (c : Thread nD τ)) (q := fullShare.right) (f := f0) (band_sub a0 h0 c)).1 $$ Hr
  icases Hr' with ⟨Hlent, Hrest⟩
  isplitl [Hl]; · iexact Hl
  isplitl [Hlent]; · iexact Hlent
  iexact Hrest

omit [FloatOps F] in
theorem xv_join (a0 : Memref sig .tc .vmem S1024x1024 .f32) (h0 : a0 = (A0)) (c : Dev nD) (f0 : Buf (Elt F) (a0.view.loc (c : Thread nD τ))) :
    iprop((a0.view.loc (c : Thread nD τ) ↦[a0.view.set]{fullShare.left} f0)
          ∗ ((bandOf a0 c).view.loc (c : Thread nD τ) ↦[(bandOf a0 c).view.set]{fullShare.right} f0)
          ∗ (a0.view.loc (c : Thread nD τ) ↦[a0.view.set \ (bandOf a0 c).view.set]{fullShare.right} f0))
      ⊢ (a0.view.loc (c : Thread nD τ) ↦[a0.view.set]{fullShare} f0 : sProp 𝕄) := by
  iintro ⟨Hl, Hlent, Hrest⟩
  ihave Hr := (pointsTo_split_subset (ℓ := a0.view.loc (c : Thread nD τ)) (q := fullShare.right) (f := f0) (band_sub a0 h0 c)).2 $$ [Hlent Hrest]
  · isplitl [Hlent] <;> iassumption
  iapply (pointsTo_share (PosShare.mem_left_op_right fullShare)).2
  isplitl [Hl] <;> iassumption

/-! ## The schedule's payloads at the cells a device touches, spelt as the buffers themselves -/

theorem pay_barX_peer (c : Dev nD) : (haloRd (F := F) m).payload (barCell (px c)) 0 false
    = iprop((∃ f, ((A2).view.loc (c : Thread nD τ) ↦[(A2).view.set]{fullShare} f)) ∗ reached ER (rowRecvCell c) 0) := by
  rw [payload_bar_false]; unfold barPayX; rw [px_px]; rfl
theorem pay_barY_peer (c : Dev nD) : (haloRd (F := F) m).payload (barCell (py c)) 0 true
    = iprop((∃ f, ((A3).view.loc (c : Thread nD τ) ↦[(A3).view.set]{fullShare} f)) ∗ reached ER (colRecvCell c) 0) := by
  rw [payload_bar_true]; unfold barPayY; rw [py_py]; rfl
theorem pay_rowSend_own (c : Dev nD) (d : Bool) : (haloRd (F := F) m).payload (rowSendCell c) 0 d
    = ((rowSrc c).view.loc (c : Thread nD τ) ↦[(rowSrc c).view.set]{fullShare.right} xstg m c : sProp 𝕄) := by
  rw [payload_rowSend]; rfl
theorem pay_rowRecv_own (c : Dev nD) (d : Bool) : (haloRd (F := F) m).payload (rowRecvCell c) 0 d
    = ((A2).view.loc (c : Thread nD τ) ↦[(A2).view.set]{fullShare} rowLanded m c : sProp 𝕄) := by
  rw [payload_rowRecv]; rfl
theorem pay_colSend_own (c : Dev nD) (d : Bool) : (haloRd (F := F) m).payload (colSendCell c) 0 d
    = ((A4).view.loc (c : Thread nD τ) ↦[(A4).view.set]{fullShare} colMine m c : sProp 𝕄) := by
  rw [payload_colSend]; rfl
theorem pay_colRecv_own (c : Dev nD) (d : Bool) : (haloRd (F := F) m).payload (colRecvCell c) 0 d
    = ((A3).view.loc (c : Thread nD τ) ↦[(A3).view.set]{fullShare} colLanded m c : sProp 𝕄) := by
  rw [payload_colRecv]; rfl

/-- What the entry barrier's two duties hand over together: the peers' landing buffers. -/
theorem bar_pays (c : Dev nD) : bigSep Finset.univ (fun d : Bool => (haloRd (F := F) m).payload (barCell c) 0 d)
    = iprop(((∃ f, ((A2).view.loc (px c : Thread nD τ) ↦[(A2).view.set]{fullShare} f)) ∗ reached ER (rowRecvCell (px c)) 0)
        ∗ ((∃ f, ((A3).view.loc (py c : Thread nD τ) ↦[(A3).view.set]{fullShare} f)) ∗ reached ER (colRecvCell (py c)) 0)) := by
  rw [bigSep_univ_eq_bigSepL [false, true] (by decide) (by decide), bigSepL_cons_cons, bigSepL_singleton, payload_bar_false, payload_bar_true]
  rfl

attribute [local sl_rounds] duties_bar duties_exit duties_rowSend duties_rowRecv duties_colSend duties_colRecv
  amount_bar amount_exit amount_rowSend amount_rowRecv amount_colSend amount_colRecv
  expect_bar expect_exit expect_rowSend expect_rowRecv expect_colSend expect_colRecv
  payload_exit pay_rowSend_own pay_rowRecv_own pay_colSend_own pay_colRecv_own
attribute [local sl_rounds high] pay_barX_peer pay_barY_peer
attribute [local sl_canon] dev1_eq dev2_eq dev3_eq dev4_eq dev5_eq dev6_eq

/-! ## The two addressed transfers at the exchange's cells -/

set_option maxHeartbeats 1600000 in
/-- The row transfer: the lent band of the block departs, `px c`'s landing buffer arrives holding it. -/
theorem wp_send_row (K : Dev nD × Fin 6 → ℕ) (c n : Dev nD) (hn : n = px c)
    {hsc : ((A2) : Memref sig (Dev.tc n : Thread nD τ).2.kind .vmem S8x1024 .f32).view.ref.isScScratch = false}
    {hsrc : (rowSrc c).view.WordExact} {hdst : (A2).view.WordExact}
    {hsem : DmaTarget.Typed .vmem (.dma rowRecvS) (.remote (Dev.tc n : Thread nD τ) (A2) (.dma rowSendS) hsc)}
    {α : Type} {Q : α → sProp 𝕄} {k : PUnit → Prog (TpuEff nD τ sig (Elt F) Λ₀ .tc) α}
    (fn : Buf (Elt F) ((A2).view.loc (px c : Thread nD τ))) (O : CellTallies nD τ sig Unit) (W : Waits sig Unit) :
    iprop(cellInv ER (haloRd m) (K (c, 1)) (rowSendCell c) ∗ cellInv ER (haloRd m) (K (px c, 2)) (rowRecvCell (px c))
        ∗ ((rowSrc c).view.loc (c : Thread nD τ) ↦[(rowSrc c).view.set]{fullShare.right} xstg m c)
        ∗ ((A2).view.loc (px c : Thread nD τ) ↦[(A2).view.set]{fullShare} fn)
        ∗ owes (c : Thread nD τ) (O + tallyAt (rowRecvCell (px c)) () Nrow) W
        ∗ dutyTok ER (rowSendCell c) 0 false ∗ reached ER (rowSendCell c) 0
        ∗ dutyTok ER (rowRecvCell (px c)) 0 false ∗ reached ER (rowRecvCell (px c)) 0)
      ⊢ iprop(((cred (tallyAt (rowSendCell c) () Nrow) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowSrc c) (.remote (Dev.tc n : Thread nD τ) (A2) (.dma rowSendS) hsc) (.dma rowRecvS) hsrc hdst hsem) k) Q) := by
  subst hn
  exact Rounds.wp_send_pointsTo 𝒱₀ ER (haloRd m) (c : Thread nD τ) none (κ₁ := K (c, 1)) (κ₂ := K (px c, 2))
    (c' := (px c : Thread nD τ)) (src := rowSrc c) (dst := (A2)) (sS := .dma rowSendS) (sem := .dma rowRecvS)
    (r₁ := 0) (r₂ := 0) (d₁ := false) (d₂ := false) (fd := fn) (q := fullShare.right) (fs := xstg m c)
    (by rw [duties_rowSend]; exact Finset.mem_singleton_self _) (by rw [duties_rowRecv]; exact Finset.mem_singleton_self _)
    () () Nrow rfl (amount_rowSend m c false) (amount_rowRecv m (px c) false) O rfl (W := W)
    (by rw [payload_rowSend]; unfold xLent; exact BI.Entails.refl _)
    (by rw [payload_rowRecv]; unfold rrPts; rw [← rowLanded_eq m (px c) fn, px_px])

set_option maxHeartbeats 1600000 in
/-- The same through memrefs that are the whole buffers. -/
theorem wp_send_row' (K : Dev nD × Fin 6 → ℕ) (a0 : Memref sig .tc .vmem S1024x1024 .f32) (a2 : Memref sig .tc .vmem S8x1024 .f32)
    (h0 : a0 = (A0)) (h2 : a2 = (A2)) (c n : Dev nD) (hn : n = px c)
    {hsc : (a2 : Memref sig (Dev.tc n : Thread nD τ).2.kind .vmem S8x1024 .f32).view.ref.isScScratch = false}
    {hsrc : (bandOf a0 c).view.WordExact} {hdst : a2.view.WordExact}
    {hsem : DmaTarget.Typed .vmem (.dma rowRecvS) (.remote (Dev.tc n : Thread nD τ) a2 (.dma rowSendS) hsc)}
    {α : Type} {Q : α → sProp 𝕄} {k : PUnit → Prog (TpuEff nD τ sig (Elt F) Λ₀ .tc) α}
    (f0 : Buf (Elt F) (a0.view.loc (c : Thread nD τ))) (hf0 : a0.view.read (Elt F) f0 = xstg m c)
    (fn : Buf (Elt F) ((A2).view.loc (px c : Thread nD τ))) (O : CellTallies nD τ sig Unit) (W : Waits sig Unit) :
    iprop(cellInv ER (haloRd m) (K (c, 1)) (rowSendCell c) ∗ cellInv ER (haloRd m) (K (px c, 2)) (rowRecvCell (px c))
        ∗ ((bandOf a0 c).view.loc (c : Thread nD τ) ↦[(bandOf a0 c).view.set]{fullShare.right} f0)
        ∗ ((A2).view.loc (px c : Thread nD τ) ↦[(A2).view.set]{fullShare} fn)
        ∗ owes (c : Thread nD τ) (O + tallyAt (rowRecvCell (px c)) () Nrow) W
        ∗ dutyTok ER (rowSendCell c) 0 false ∗ reached ER (rowSendCell c) 0
        ∗ dutyTok ER (rowRecvCell (px c)) 0 false ∗ reached ER (rowRecvCell (px c)) 0)
      ⊢ iprop(((cred (tallyAt (rowSendCell c) () Nrow) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bandOf a0 c) (.remote (Dev.tc n : Thread nD τ) a2 (.dma rowSendS) hsc) (.dma rowRecvS) hsrc hdst hsem) k) Q) := by
  subst h0 h2
  have hf : f0 = xstg m c := ((View.read_whole _ _).symm.trans hf0)
  subst hf
  exact wp_send_row m K c n hn fn O W

set_option maxHeartbeats 1600000 in
/-- The column transfer: the send buffer departs whole, `py c`'s landing buffer arrives holding it. -/
theorem wp_send_col (K : Dev nD × Fin 6 → ℕ) (c n : Dev nD) (hn : n = py c)
    {hsc : ((A3) : Memref sig (Dev.tc n : Thread nD τ).2.kind .vmem S1x1024 .f32).view.ref.isScScratch = false}
    {hsrc : (A4).view.WordExact} {hdst : (A3).view.WordExact}
    {hsem : DmaTarget.Typed .vmem (.dma colRecvS) (.remote (Dev.tc n : Thread nD τ) (A3) (.dma colSendS) hsc)}
    {α : Type} {Q : α → sProp 𝕄} {k : PUnit → Prog (TpuEff nD τ sig (Elt F) Λ₀ .tc) α}
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ ((A4).view.loc (c : Thread nD τ) ↦[(A4).view.set]{fullShare} colMine m c)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (A4) (.remote (Dev.tc n : Thread nD τ) (A3) (.dma colSendS) hsc) (.dma colRecvS) hsrc hdst hsem) k) Q) := by
  subst hn
  exact Rounds.wp_send_pointsTo 𝒱₀ ER (haloRd m) (c : Thread nD τ) none (κ₁ := K (c, 3)) (κ₂ := K (py c, 4))
    (c' := (py c : Thread nD τ)) (src := (A4)) (dst := (A3)) (sS := .dma colSendS) (sem := .dma colRecvS)
    (r₁ := 0) (r₂ := 0) (d₁ := false) (d₂ := false) (fd := fn) (q := fullShare) (fs := colMine m c)
    (by rw [duties_colSend]; exact Finset.mem_singleton_self _) (by rw [duties_colRecv]; exact Finset.mem_singleton_self _)
    () () Ncol rfl (amount_colSend m c false) (amount_colRecv m (py c) false) O rfl (W := W)
    (by rw [payload_colSend]; unfold csPts; exact BI.Entails.refl _)
    (by rw [payload_colRecv]; unfold crPts; rw [← colLanded_eq m (py c) fn, py_py])

set_option maxHeartbeats 1600000 in
theorem wp_send_col' (K : Dev nD × Fin 6 → ℕ) (a4 a3 : Memref sig .tc .vmem S1x1024 .f32)
    (h4 : a4 = (A4)) (h3 : a3 = (A3)) (c n : Dev nD) (hn : n = py c)
    {hsc : (a3 : Memref sig (Dev.tc n : Thread nD τ).2.kind .vmem S1x1024 .f32).view.ref.isScScratch = false}
    {hsrc : a4.view.WordExact} {hdst : a3.view.WordExact}
    {hsem : DmaTarget.Typed .vmem (.dma colRecvS) (.remote (Dev.tc n : Thread nD τ) a3 (.dma colSendS) hsc)}
    {α : Type} {Q : α → sProp 𝕄} {k : PUnit → Prog (TpuEff nD τ sig (Elt F) Λ₀ .tc) α}
    (f4 : Buf (Elt F) (a4.view.loc (c : Thread nD τ))) (hf4 : a4.view.read (Elt F) f4 = colMine m c)
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ (a4.view.loc (c : Thread nD τ) ↦[a4.view.set]{fullShare} f4)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma a4 (.remote (Dev.tc n : Thread nD τ) a3 (.dma colSendS) hsc) (.dma colRecvS) hsrc hdst hsem) k) Q) := by
  subst h4 h3
  have hf : f4 = colMine m c := ((View.read_whole _ _).symm.trans hf4)
  subst hf
  exact wp_send_col m K c n hn fn O W

omit [FloatOps F] in
theorem hz2 : (![0, 0] : Fin 2 → Nat) = fun _ => 0 := funext fun a => by fin_cases a <;> rfl

/-- A whole-buffer store into the column buffer reads back as what was stored. -/
theorem col_written (a4 : Memref sig .tc .vmem S1x1024 .f32) (c : Dev nD) (fs : Buf (Elt F) (a4.view.loc (c : Thread nD τ))) (P : S1x1024.Idx → Elt F .f32) :
    a4.view.read (Elt F) (a4.view.writes (Elt F) fs [⟨Rect.unit (s := S1x1024) ![0, 0] S1x1024.size inb_S1x1024_S1x1024_0_0, P⟩]) = P := by
  rw [View.read_writes_eq_canon _ _ _ (fun y => View.cover_of_tiled [(⟨Rect.unit (s := S1x1024) ![0, 0] S1x1024.size inb_S1x1024_S1x1024_0_0, P⟩ : View.Piece (Elt F) S1x1024 .f32)] S1x1024.size (by rfl) y), View.canon_unit_zero hz2]

set_option maxHeartbeats 1600000 in
/-- The column transfer, the send buffer owned at the column it holds. -/
theorem wp_send_col'' (K : Dev nD × Fin 6 → ℕ) (a4 a3 : Memref sig .tc .vmem S1x1024 .f32)
    (h4 : a4 = (A4)) (h3 : a3 = (A3)) (c n : Dev nD) (hn : n = py c)
    {hsc : (a3 : Memref sig (Dev.tc n : Thread nD τ).2.kind .vmem S1x1024 .f32).view.ref.isScScratch = false}
    {hsrc : a4.view.WordExact} {hdst : a3.view.WordExact}
    {hsem : DmaTarget.Typed .vmem (.dma colRecvS) (.remote (Dev.tc n : Thread nD τ) a3 (.dma colSendS) hsc)}
    {α : Type} {Q : α → sProp 𝕄} {k : PUnit → Prog (TpuEff nD τ sig (Elt F) Λ₀ .tc) α}
    (fn : Buf (Elt F) ((A3).view.loc (py c : Thread nD τ))) (O : CellTallies nD τ sig Unit) (W : Waits sig Unit) :
    iprop(cellInv ER (haloRd m) (K (c, 3)) (colSendCell c) ∗ cellInv ER (haloRd m) (K (py c, 4)) (colRecvCell (py c))
        ∗ owns (Ix := Unit) (Name := ℕ) (U := UU) (Lvl := ℕ) (c : Thread nD τ) a4 fullShare (colMine m c)
        ∗ ((A3).view.loc (py c : Thread nD τ) ↦[(A3).view.set]{fullShare} fn)
        ∗ owes (c : Thread nD τ) (O + tallyAt (colRecvCell (py c)) () Ncol) W
        ∗ dutyTok ER (colSendCell c) 0 false ∗ reached ER (colSendCell c) 0
        ∗ dutyTok ER (colRecvCell (py c)) 0 false ∗ reached ER (colRecvCell (py c)) 0)
      ⊢ iprop(((cred (tallyAt (colSendCell c) () Ncol) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma a4 (.remote (Dev.tc n : Thread nD τ) a3 (.dma colSendS) hsc) (.dma colRecvS) hsrc hdst hsem) k) Q) := by
  unfold owns
  iintro ⟨#H1, #H2, ⟨%f4, %hf4, Hs⟩, Hd, HO, Ht1, #Hr1, Ht2, #Hr2⟩
  iapply (wp_send_col' m K a4 a3 h4 h3 c n hn f4 hf4 fn O W) $$ [Hs Hd HO Ht1 Ht2]
  isplitr; · iexact H1
  isplitr; · iexact H2
  isplitl [Hs]; · iexact Hs
  isplitl [Hd]; · iexact Hd
  isplitl [HO]; · iexact HO
  isplitl [Ht1]; · iexact Ht1
  isplitr; · iexact Hr1
  isplitl [Ht2]; · iexact Ht2
  iexact Hr2

omit [FloatOps F] in
/-- What landed in the eight-row buffer, held through a memref that is the whole buffer. -/
theorem open2_of (a2 : Memref sig .tc .vmem S8x1024 .f32) (h2 : a2 = (A2)) (c' : Dev nD) (X : RC F) :
    ((A2).view.loc (c' : Thread nD τ) ↦[(A2).view.set]{fullShare} X : sProp 𝕄)
      ⊢ iprop(∃ f, ⌜a2.view.read (Elt F) f = X⌝ ∗ (a2.view.loc (c' : Thread nD τ) ↦[a2.view.set]{fullShare} f)) := by
  subst h2; iintro H; iexists X; isplitr; · (ipureintro; exact View.read_whole _ _)
  iexact H
omit [FloatOps F] in
theorem open3_of (a3 : Memref sig .tc .vmem S1x1024 .f32) (h3 : a3 = (A3)) (c' : Dev nD) (X : CC F) :
    ((A3).view.loc (c' : Thread nD τ) ↦[(A3).view.set]{fullShare} X : sProp 𝕄)
      ⊢ iprop(∃ f, ⌜a3.view.read (Elt F) f = X⌝ ∗ (a3.view.loc (c' : Thread nD τ) ↦[a3.view.set]{fullShare} f)) := by
  subst h3; iintro H; iexists X; isplitr; · (ipureintro; exact View.read_whole _ _)
  iexact H

/-- The lent band, as it comes back from the send cell, in the body's own spelling. -/
theorem lent_back (a0 : Memref sig .tc .vmem S1024x1024 .f32) (h0 : a0 = (A0)) (c : Dev nD)
    (f0 : Buf (Elt F) (a0.view.loc (c : Thread nD τ))) (hf0 : a0.view.read (Elt F) f0 = xstg m c) :
    ((rowSrc c).view.loc (c : Thread nD τ) ↦[(rowSrc c).view.set]{fullShare.right} xstg m c : sProp 𝕄)
      ⊢ ((bandOf a0 c).view.loc (c : Thread nD τ) ↦[(bandOf a0 c).view.set]{fullShare.right} f0) := by
  subst h0
  have hf : f0 = xstg m c := ((View.read_whole _ _).symm.trans hf0)
  subst hf
  exact .rfl

/-! ## The result block as the five stores leave it over whatever the buffer held

The run leaves the result buffer as five writes over earlier contents `jk`, the first through the whole block, with the
whole-block and whole-line loads still spelt as reads. Reading a whole buffer whole is the buffer and writing it whole
forgets what it held, so this is the block of `out5`. -/

omit [FloatOps F] in
theorem read_xAll (f : XC F) : (xM : Memref sig .tc .vmem S1024x1024 .f32).view.readAt (Elt F) rAll.toLoadRect f = f :=
  Memref.readAt_unit_zero (Elt F) cc0_stg0_0 hz2 _ f
omit [FloatOps F] in
theorem read_crAll (f : CC F) : (crM : Memref sig .tc .vmem S1x1024 .f32).view.readAt (Elt F) rLine.toLoadRect f = f :=
  Memref.readAt_unit_zero (Elt F) cc0_scratch1 hz2 _ f
omit [FloatOps F] in
theorem write_oAll (f w : OC F) : ((oM : Memref sig .tc .vmem S1024x1024 .f32).access rAll : View sig .tc _ _ _).write (Elt F) f w Finset.univ = w :=
  Memref.write_access_unit_zero_univ (Elt F) cc0_stg1_0 hz2 _ f w

def raw1 (jk : OC F) (xs : XC F) : OC F :=
  ((oM.access rAll : View sig .tc _ _ _)).write (Elt F) jk (k0_pay2 (xM.view.readAt (Elt F) rAll.toLoadRect xs)) Finset.univ
def raw2 (c : Dev nD) (jk : OC F) (xs : XC F) (rr : RC F) : OC F :=
  ((oM.access (rBand c 1) : View sig .tc _ _ _)).write (Elt F) (raw1 jk xs)
    (k0_pay3 (wx c) (rrM.view.readAt (Elt F) rRecv7.toLoadRect rr) (rrM.view.readAt (Elt F) rRecv0.toLoadRect rr)
      (oM.view.readAt (Elt F) (rBand c 1).toLoadRect (raw1 jk xs))) Finset.univ
def raw3 (c : Dev nD) (jk : OC F) (xs : XC F) (rr : RC F) (cr : CC F) : OC F :=
  ((oM.access (rStrip c 1) : View sig .tc _ _ _)).write (Elt F) (raw2 c jk xs rr)
    (k0_pay4 (wy c) (crM.view.readAt (Elt F) rLine.toLoadRect cr) (oM.view.readAt (Elt F) (rStrip c 1).toLoadRect (raw2 c jk xs rr))) Finset.univ
def raw4 (c : Dev nD) (jk : OC F) (xs : XC F) (rr : RC F) (cr : CC F) : OC F :=
  ((oM.access (rBand c 0) : View sig .tc _ _ _)).write (Elt F) (raw3 c jk xs rr cr)
    (k0_pay5 (wx c) (iota .tc S8x1024 32 [0] iota_S8x1024_d0_w32) (xM.view.readAt (Elt F) (rBand c 0).toLoadRect xs)
      (oM.view.readAt (Elt F) (rBand c 0).toLoadRect (raw3 c jk xs rr cr))) Finset.univ
def raw5 (c : Dev nD) (jk : OC F) (xs : XC F) (rr : RC F) (cr : CC F) : OC F :=
  ((oM.access (rStrip c 0) : View sig .tc _ _ _)).write (Elt F) (raw4 c jk xs rr cr)
    (k0_pay6 (wy c) (iota .tc S1024x128 32 [1] iota_S1024x128_d1_w32) (xM.view.readAt (Elt F) (rStrip c 0).toLoadRect xs)
      (oM.view.readAt (Elt F) (rStrip c 0).toLoadRect (raw4 c jk xs rr cr))) Finset.univ

theorem raw1_eq (jk : OC F) (xs : XC F) : raw1 jk xs = out1 xs := by
  unfold raw1 out1; rw [read_xAll, write_oAll]
theorem raw2_eq (c : Dev nD) (jk : OC F) (xs : XC F) (rr : RC F) : raw2 c jk xs rr = out2 c xs rr := by
  unfold raw2 out2; rw [raw1_eq]
theorem raw3_eq (c : Dev nD) (jk : OC F) (xs : XC F) (rr : RC F) (cr : CC F) : raw3 c jk xs rr cr = out3 c xs rr cr := by
  unfold raw3 out3; rw [raw2_eq, read_crAll]
theorem raw4_eq (c : Dev nD) (jk : OC F) (xs : XC F) (rr : RC F) (cr : CC F) : raw4 c jk xs rr cr = out4 c xs rr cr := by
  unfold raw4 out4; rw [raw3_eq]
theorem raw5_eq (c : Dev nD) (jk : OC F) (xs : XC F) (rr : RC F) (cr : CC F) : raw5 c jk xs rr cr = out5 c xs rr cr := by
  unfold raw5 out5; rw [raw4_eq]

section Body
variable (K : Dev nD × Fin 6 → ℕ)
variable (a0 a1 : Memref sig .tc .vmem S1024x1024 .f32) (a2 : Memref sig .tc .vmem S8x1024 .f32) (a3 a4 : Memref sig .tc .vmem S1x1024 .f32)

/-- What the body starts from; the buffers it loads and stores are held through its memref arguments. -/
def bodyPre (c : Dev nD) : sProp 𝕄 :=
  iprop((invs m K c ∗ positions c ∗ marks c ∗ payToks c) ∗ credits c ∗ levAts L lv
    ∗ (∃ f, ((A2).view.loc (c : Thread nD τ) ↦[(A2).view.set]{fullShare} f))
    ∗ (∃ f, ((A3).view.loc (c : Thread nD τ) ↦[(A3).view.set]{fullShare} f))
    ∗ (∃ X, owns (Ix := Unit) (Name := ℕ) (U := UU) (Lvl := ℕ) (c : Thread nD τ) a4 fullShare X)
    ∗ (dats m 0 c).owesAt () t₀.castSucc
    ∗ owns (Ix := Unit) (Name := ℕ) (U := UU) (Lvl := ℕ) (c : Thread nD τ) a0 fullShare (xstg m c)
    ∗ (∃ d, owns (Ix := Unit) (Name := ℕ) (U := UU) (Lvl := ℕ) (c : Thread nD τ) a1 fullShare d))

/-- What it ends with. -/
def bodyPostV (c : Dev nD) : sProp 𝕄 :=
  iprop(owns (Ix := Unit) (Name := ℕ) (U := UU) (Lvl := ℕ) (c : Thread nD τ) a2 fullShare (rowLanded m c)
    ∗ owns (Ix := Unit) (Name := ℕ) (U := UU) (Lvl := ℕ) (c : Thread nD τ) a3 fullShare (colLanded m c)
    ∗ owns (Ix := Unit) (Name := ℕ) (U := UU) (Lvl := ℕ) (c : Thread nD τ) a4 fullShare (colMine m c)
    ∗ semVal (rowSendCell c) 0 ∗ semVal (rowRecvCell c) 0 ∗ semVal (colSendCell c) 0 ∗ semVal (colRecvCell c) 0 ∗ semVal (exitCell c) 0
    ∗ (dats m 0 c).owesAt () t₀.succ
    ∗ owns (Ix := Unit) (Name := ℕ) (U := UU) (Lvl := ℕ) (c : Thread nD τ) a0 fullShare (xstg m c)
    ∗ owns (Ix := Unit) (Name := ℕ) (U := UU) (Lvl := ℕ) (c : Thread nD τ) a1 fullShare (outAt m c))

set_option maxHeartbeats 3200000 in
/-- The body, stepped in program order from `bodyPre` to `bodyPostV`, over memrefs that are the whole buffers. -/
theorem sound_body (ha0 : a0.IsWhole) (ha1 : a1.IsWhole) (ha2 : a2.IsWhole) (ha3 : a3.IsWhole) (ha4 : a4.IsWhole)
    (h0 : a0 = (A0)) (h1 : a1 = (A1)) (h2 : a2 = (A2)) (h3 : a3 = (A3)) (h4 : a4 = (A4))
    (c : Dev nD) (Kt : PUnit → sProp 𝕄) :
    iprop(bodyPre m K a0 a1 a4 c ∗ (bodyPostV m a0 a1 a2 a3 a4 c -∗ Kt ⟨⟩))
      ⊢ wp frame (wpE (defs₀ (F := F)) 𝒱₀ c none) Set.univ
          (cc0_body a0 ha0 a1 ha1 a2 ha2 a3 ha3 a4 ha4 cc0_scratch3 cc0_scratch4 cc0_scoped0) Kt := by
  unfold bodyPre invs positions marks payToks credits Dat.owesAt Pipeline.owesWithin owns
  rw [show (dats m 0 c).owed t₀.castSucc = O₀ c from rfl]
  unfold O₀ O₁ O₂ O₃ O₄ O₅
  iintro ⟨⟨⟨⟨#HIbar, #HIrs, #HIrr, #HIcs, #HIcr, #HIex, #HIbarX, #HIbarY, #HIrrX, #HIcrY, #HIexX, #HIexY⟩,
      ⟨HatB, HatRS, HatRR, HatCS, HatCR, HatE⟩,
      ⟨#HrBX, #HrBY, #HrRRX, #HrCRY, #HrEX, #HrEY, #HrRS, #HrRR, #HrCS, #HrCR⟩,
      ⟨HtBX, HtBY, HtRS, HtRRX, HtCS, HtCRY, HtEX, HtEY⟩⟩,
      ⟨HcB, HcRR, HcCR, HcE⟩, #Hlev, ⟨%fr, Hrr⟩, ⟨%fc, Hcr⟩, ⟨%Xs, %fs, %hfs, Hcs⟩,
    ⟨%W, %hW, HO⟩, ⟨%f0, %hf0, Hx⟩, ⟨%d1, %g1, %hg1, Hout⟩⟩, Hk⟩
  -- the staged block cut for the row transfer
  ihave Hx3 := (xv_split a0 h0 c f0) $$ Hx
  icases Hx3 with ⟨Hx, Hlent, Hxrest⟩
  have hmwB := mayWait_bar (F := F) c
  have hmwRS := mayWait_xfer (F := F) c rowSendS (.inl rfl)
  have hmwRR := mayWait_xfer (F := F) c rowRecvS (.inr (.inl rfl))
  have hmwCS := mayWait_xfer (F := F) c colSendS (.inr (.inr (.inl rfl)))
  have hmwCR := mayWait_xfer (F := F) c colRecvS (.inr (.inr (.inr rfl)))
  unfold O₂ O₃ O₄ O₅ at hmwB
  unfold O₄ O₅ at hmwRS hmwRR hmwCS hmwCR
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  -- the entry barrier's two payloads: the peers' landing buffers
  ihave Hp := (Entails.of_eq (bar_pays m c)) $$ HatB_pay1
  icases Hp with ⟨⟨⟨%fX, HrrX⟩, #HrRRX'⟩, ⟨⟨%fY, HcrY⟩, #HrCRY'⟩⟩
  -- the row transfer to `px c`
  iapply (wp_send_row' m K a0 a2 h0 h2 c _ (dev3_eq c) f0 hf0 fX
    (tallyAt (exitCell (py c)) () 1 + tallyAt (exitCell (px c)) () 1 + tallyAt (colRecvCell (py c)) () Ncol)
    (insert (SemLoc.reg barS, ()) W)) $$ [Hlent HrrX HO HtRS HtRRX]
  · isplitr; · iexact HIrs
    isplitr; · iexact HIrrX
    isplitl [Hlent]; · iexact Hlent
    isplitl [HrrX]; · iexact HrrX
    isplitl [HO]; · iexact HO
    isplitl [HtRS]; · iexact HtRS
    isplitr; · iexact HrRS
    isplitl [HtRRX]; · iexact HtRRX
    iexact HrRRX
  iintro ⟨HcRS, HO⟩
  sl_exec
  -- the column transfer to `py c`: the send buffer now holds the column
  iapply (wp_send_col'' m K a4 a3 h4 h3 c _ (dev4_eq c) fY
    (tallyAt (exitCell (py c)) () 1 + tallyAt (exitCell (px c)) () 1)
    (insert (SemLoc.reg barS, ()) W)) $$ [Hcs HcrY HO HtCS HtCRY]
  · isplitr; · iexact HIcs
    isplitr; · iexact HIcrY
    isplitl [Hcs]
    · unfold owns
      iexists _
      isplitr
      rotate_left
      · iexact Hcs
      · ipureintro
        rw [col_written]
        subst h0
        have hf : f0 = xstg m c := ((View.read_whole _ _).symm.trans hf0)
        subst hf
        rfl
    isplitl [HcrY]; · iexact HcrY
    isplitl [HO]; · iexact HO
    isplitl [HtCS]; · iexact HtCS
    isplitr; · iexact HrCS
    isplitl [HtCRY]; · iexact HtCRY
    iexact HrCRY
  iintro ⟨HcCS, HO⟩
  sl_exec
  -- the eight rows have landed: held through the body's memref from here on
  ihave Hrr2 := (open2_of a2 h2 c (rowLanded m c)) $$ HatRR_pay1
  icases Hrr2 with ⟨%frr, %hfrr, Hrr2⟩
  sl_exec
  -- the column has landed
  ihave Hcr2 := (open3_of a3 h3 c (colLanded m c)) $$ HatCR_pay1
  icases Hcr2 with ⟨%fcr, %hfcr, Hcr2⟩
  sl_exec
  -- the five own cells close: their counters at zero are the device's again
  imod (Rounds.cell_close ER (haloRd m) (Set.mem_univ (K (c, 1))) (fun h => h) (R := 1) (duties_later m (rowSendCell c))) $$ [HatRS] with HzRS
  · isplitr; · iexact HIrs
    iexact HatRS
  imod (Rounds.cell_close ER (haloRd m) (Set.mem_univ (K (c, 2))) (fun h => h) (R := 1) (duties_later m (rowRecvCell c))) $$ [HatRR] with HzRR
  · isplitr; · iexact HIrr
    iexact HatRR
  imod (Rounds.cell_close ER (haloRd m) (Set.mem_univ (K (c, 3))) (fun h => h) (R := 1) (duties_later m (colSendCell c))) $$ [HatCS] with HzCS
  · isplitr; · iexact HIcs
    iexact HatCS
  imod (Rounds.cell_close ER (haloRd m) (Set.mem_univ (K (c, 4))) (fun h => h) (R := 1) (duties_later m (colRecvCell c))) $$ [HatCR] with HzCR
  · isplitr; · iexact HIcr
    iexact HatCR
  imod (Rounds.cell_close ER (haloRd m) (Set.mem_univ (K (c, 5))) (fun h => h) (R := 1) (duties_later m (exitCell c))) $$ [HatE] with HzE
  · isplitr; · iexact HIex
    iexact HatE
  rw [wp_ret]; imodintro
  iapply Hk
  unfold bodyPostV Dat.owesAt Pipeline.owesWithin
  rw [show (dats m 0 c).owed t₀.succ = 0 from rfl]
  isplitl [Hrr2]
  · unfold owns; iexists frr; isplitr; · (ipureintro; exact hfrr)
    iexact Hrr2
  isplitl [Hcr2]
  · unfold owns; iexists fcr; isplitr; · (ipureintro; exact hfcr)
    iexact Hcr2
  isplitl [HatCS_pay1]
  · iapply (own4_of a4 h4 c (colMine m c)); iexact HatCS_pay1
  isplitl [HzRS]; · iexact HzRS
  isplitl [HzRR]; · iexact HzRR
  isplitl [HzCS]; · iexact HzCS
  isplitl [HzCR]; · iexact HzCR
  isplitl [HzE]; · iexact HzE
  isplitl [HO]
  · iexists _
    isplitr
    rotate_left
    · iexact HO
    · ipureintro; exact fun _ _ => Or.inl trivial
  isplitl [Hx HatRS_pay1 Hxrest]
  · ihave Hl := (lent_back m a0 h0 c f0 hf0) $$ HatRS_pay1
    ihave Hx := (xv_join a0 h0 c f0) $$ [Hx Hl Hxrest]
    · isplitl [Hx]; · iexact Hx
      isplitl [Hl]; · iexact Hl
      iexact Hxrest
    unfold owns; iexists f0; isplitr; · (ipureintro; exact hf0)
    iexact Hx
  · unfold owns
    iexists _
    isplitr
    rotate_left
    · iexact Hout
    · ipureintro
      subst h0 h1 h2 h3
      have e0 : f0 = xstg m c := ((View.read_whole _ _).symm.trans hf0)
      have e2 : frr = rowLanded m c := ((View.read_whole _ _).symm.trans hfrr)
      have e3 : fcr = colLanded m c := ((View.read_whole _ _).symm.trans hfcr)
      subst e0 e2 e3
      refine Eq.trans ?_ (raw5_eq c ((A1).view.junk) (xstg m c) (rowLanded m c) (colLanded m c))
      rfl

end Body

/-! ## The body obligation -/

/-- What the launch hands the body at the one grid point, -/
def bodyPre0 (c : Dev nD) : sProp 𝕄 :=
  iprop(Φ₀ m c ∗ (dats m 0 c).owesAt () t₀.castSucc
    ∗ (∃ d, owns (Ix := Unit) (Name := ℕ) (U := UU) (Lvl := ℕ) (c : Thread nD τ) (A0) fullShare ((dats m 0 c).before (0 : Fin 2) t₀ d))
    ∗ (∃ d, owns (Ix := Unit) (Name := ℕ) (U := UU) (Lvl := ℕ) (c : Thread nD τ) (A1) fullShare ((dats m 0 c).before (1 : Fin 2) t₀ d)))

/-- and what it wants back. -/
def bodyPost0 (c : Dev nD) : sProp 𝕄 :=
  iprop(Φ₁ m c ∗ (dats m 0 c).owesAt () t₀.succ
    ∗ owns (Ix := Unit) (Name := ℕ) (U := UU) (Lvl := ℕ) (c : Thread nD τ) (A0) fullShare (xstg m c)
    ∗ owns (Ix := Unit) (Name := ℕ) (U := UU) (Lvl := ℕ) (c : Thread nD τ) (A1) fullShare (outAt m c))

set_option maxHeartbeats 1600000 in
set_option maxRecDepth 8000 in
/-- The body obligation on device `c`: the body lemma at the program's own memrefs, the launch's assertions restated
    as the lemma states them and back. -/
theorem body_obligation (c : Dev nD) : BodyObligation (dats (F := F) m 0 c) (defs₀ (F := F)) 𝒱₀ () Set.univ := fun t => by
  rw [fin_N t]
  rw [bigSep_W, bigSep_W]
  show bodyPre0 m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scoped0) (fun _ => bodyPost0 m c)
  have hx : ∀ d, (dats m 0 c).before (0 : Fin 2) t₀ d = xstg m c := fun d => by unfold Dat.before; rw [if_pos (fetch_0 t₀)]; rfl
  unfold bodyPre0 Φ₀ start scratch
  simp only [hx]
  iintro ⟨⟨⟨⟨%K, Hg⟩, Hcred, Hlev⟩, ⟨%fr, Hrr⟩, ⟨%fc, Hcr⟩, ⟨%fs, Hcs⟩⟩, Ho, ⟨%d0, Hx⟩, Hout⟩
  iapply (sound_body m K (A0) (A1) (A2) (A3) (A4) (Memref.isWhole_whole _) (Memref.isWhole_whole _) (Memref.isWhole_whole _)
    (Memref.isWhole_whole _) (Memref.isWhole_whole _) rfl rfl rfl rfl rfl c (fun _ => bodyPost0 m c))
  isplitr []
  · unfold bodyPre ghost
    isplitl [Hg]; · iexact Hg
    isplitl [Hcred]; · iexact Hcred
    isplitl [Hlev]; · iexact Hlev
    isplitl [Hrr]; · unfold rrPts; iexists fr; iexact Hrr
    isplitl [Hcr]; · unfold crPts; iexists fc; iexact Hcr
    isplitl [Hcs]
    · iexists fs; iapply (own4_of (A4) rfl c fs); unfold csPts; iexact Hcs
    isplitl [Ho]; · iexact Ho
    isplitl [Hx]; · iexact Hx
    iexact Hout
  · iintro H
    unfold bodyPostV bodyPost0 Φ₁
    icases H with ⟨H2, H3, H4, Hz1, Hz2, Hz3, Hz4, Hz5, Ho, Hx, Hout⟩
    isplitl [H2 H3 H4 Hz1 Hz2 Hz3 Hz4 Hz5]
    · isplitl [H2]; · unfold rrPts; iapply (pts2_of (A2) rfl c (rowLanded m c)); iexact H2
      isplitl [H3]; · unfold crPts; iapply (pts3_of (A3) rfl c (colLanded m c)); iexact H3
      isplitl [H4]; · unfold csPts; iapply (pts4_of (A4) rfl c (colMine m c)); iexact H4
      isplitl [Hz1]; · iexact Hz1
      isplitl [Hz2]; · iexact Hz2
      isplitl [Hz3]; · iexact Hz3
      isplitl [Hz4]; · iexact Hz4
      iexact Hz5
    isplitl [Ho]; · iexact Ho
    isplitl [Hx]; · iexact Hx
    iexact Hout

end Cert.KernelIdeal.Halo

end
-- ==== Proof.KernelIdeal.Launch.lean ====
/-
  The launch: from every device's body to the run of the whole mesh.
-/
import proofs.«900187_g7700000000000188_dist_halo2d_stencil_xy_m1024_n1024_v7x_xy2x2_f32_1_alg».proof.Proof.KernelIdeal.Body
import proofs.«900187_g7700000000000188_dist_halo2d_stencil_xy_m1024_n1024_v7x_xy2x2_f32_1_alg».proof.Proof.KernelIdeal.Levels

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch mints -/

theorem ownSemFacts : Pipeline.OwnSemFacts cfg0.spec osem := by decide

/-- Two (device, cell-number) pairs that name one cell are one pair: the device is read off the cell's thread, the
    number off its semaphore, and the six semaphores are pairwise different. -/
theorem kcell_injective : Function.Injective (kcell : Dev nD × Fin 6 → GSem nD τ sig) := by
  rintro ⟨c, k⟩ ⟨c', k'⟩ h
  have hc : c = c' := congrArg (fun g : GSem nD τ sig => g.1.1) h
  subst hc
  have hk : k = k' := csem_injective (congrArg Prod.snd h)
  subst hk; rfl
def haloCells : Finset (GSem nD τ sig) := Finset.univ.map ⟨kcell, kcell_injective⟩

/-- The eight duties of a device's own six cells, numbered: which cell each sits on, and under which name. The two
    barriers carry both names, a transfer cell the name `false` only. -/
abbrev tokCell : Fin 8 → Fin 6 := fun | 0 => 0 | 1 => 0 | 2 => 1 | 3 => 2 | 4 => 3 | 5 => 4 | 6 => 5 | 7 => 5
abbrev tokName : Fin 8 → Bool := fun | 0 => false | 1 => true | 2 => false | 3 => false | 4 => false | 5 => false | 6 => false | 7 => true
theorem tok_pair_injective : ∀ j j' : Fin 8, tokCell j = tokCell j' → tokName j = tokName j' → j = j' := by decide

abbrev tokOf (cj : Dev nD × Fin 8) : GSem nD τ sig × ℕ × Bool := (kcell (cj.1, tokCell cj.2), 0, tokName cj.2)
theorem tokOf_injective : Function.Injective (tokOf : Dev nD × Fin 8 → GSem nD τ sig × ℕ × Bool) := by
  rintro ⟨c, j⟩ ⟨c', j'⟩ h
  have hcell : ((c, tokCell j) : Dev nD × Fin 6) = (c', tokCell j') := kcell_injective (congrArg (fun x : GSem nD τ sig × ℕ × Bool => x.1) h)
  have hname : tokName j = tokName j' := congrArg (fun x : GSem nD τ sig × ℕ × Bool => x.2.2) h
  have hc : c = c' := congrArg Prod.fst hcell
  subst hc
  have hj : j = j' := tok_pair_injective j j' (congrArg Prod.snd hcell) hname
  subst hj; rfl
def haloToks : Finset (GSem nD τ sig × ℕ × Bool) := Finset.univ.map ⟨tokOf, tokOf_injective⟩

/-- The launch element: the pipeline's cells beside the exchange's. -/
def u₀ : UU :=
  (initOf (Pipeline.cells cfgs cellOf_inj) (Pipeline.launchToks cfgs cellOf_inj), initOf haloCells haloToks)

/-- The duty tokens of device `c`'s own cells, as minted. -/
def toks (c : Dev nD) : sProp 𝕄 :=
  iprop(dutyTok ER (barCell c) 0 false ∗ dutyTok ER (barCell c) 0 true ∗ dutyTok ER (rowSendCell c) 0 false ∗ dutyTok ER (rowRecvCell c) 0 false
    ∗ dutyTok ER (colSendCell c) 0 false ∗ dutyTok ER (colRecvCell c) 0 false ∗ dutyTok ER (exitCell c) 0 false ∗ dutyTok ER (exitCell c) 0 true)

/-- What the launch element deals device `c`: the round states of its six cells, its position on each with the fact that
    round 0 of each is reached, and its own cells' tokens. -/
def G (c : Dev nD) : sProp 𝕄 :=
  iprop((bigSep Finset.univ fun k : Fin 6 => roundState ER (haloRd m) (kcell (c, k)) 0)
    ∗ (bigSep Finset.univ fun k : Fin 6 => iprop(atPos ER (kcell (c, k)) 0 ∅ 0 ∗ reached ER (kcell (c, k)) 0)) ∗ toks c)

/-- What the step over all devices makes of it: the ghost state a body starts from, at some allocation of names. -/
def G' (c : Dev nD) : sProp 𝕄 := iprop(∃ K, ghost m K c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The exchange's half of the launch element pays out every device's share. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 6 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin8]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, allocated from its counter at zero -/

omit [FloatOps F] in
/-- The kernel's own five semaphores are the four transfer cells and the exit barrier; -/
theorem ownSems0_eq (c : Dev nD) : (Pipeline.ownSems0 (Ix := Unit) (Name := ℕ) (U := UU) (Lvl := ℕ) (Val := Elt F) (τ := τ) osem c : sProp 𝕄)
    = iprop(semVal (rowSendCell c) 0 ∗ semVal (rowRecvCell c) 0 ∗ semVal (colSendCell c) 0 ∗ semVal (colRecvCell c) 0 ∗ semVal (exitCell c) 0) := by
  rw [Pipeline.ownSems0_eq_of_list c osem [0, 1, 2, 3, 4] (by decide) (by decide)]; rfl
omit [FloatOps F] in
/-- the entry barrier's semaphore is the one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨⟨H1, H2, H3, H4, H5⟩, HB⟩
  isplitl [HB]; · iexact HB
  isplitl [H1]; · iexact H1
  isplitl [H2]; · iexact H2
  isplitl [H3]; · iexact H3
  isplitl [H4] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may know once all is allocated: the twenty-four invariants under their names, and that round 0
    of each of the twenty-four cells is reached. -/
def records (K : Dev nD × Fin 6 → ℕ) : sProp 𝕄 :=
  iprop((bigSep Finset.univ fun ck : Dev nD × Fin 6 => cellInv ER (haloRd m) (K ck) (kcell ck))
    ∗ bigSep Finset.univ fun ck : Dev nD × Fin 6 => reached ER (kcell ck) 0)

instance records_persistent (K : Dev nD × Fin 6 → ℕ) : BI.Persistent (records m K) := by unfold records; infer_instance

theorem inv_at (K : Dev nD × Fin 6 → ℕ) (ck : Dev nD × Fin 6) :
    (bigSep Finset.univ fun ck : Dev nD × Fin 6 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 6) :
    (bigSep Finset.univ fun ck : Dev nD × Fin 6 => (reached ER (kcell ck) 0 : sProp 𝕄)) ⊢ reached ER (kcell ck) 0 :=
  bigSep_elim (Finset.mem_univ ck)

/-- What stays with device `c`: its six positions, and the tokens of the eight duties it pays. -/
def linear (c : Dev nD) : sProp 𝕄 := iprop(positions c ∗ payToks c)

theorem ghost_intro (K : Dev nD × Fin 6 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (px c, 0)); iexact HI
    isplitr; · iapply (inv_at m K (py c, 0)); iexact HI
    isplitr; · iapply (inv_at m K (px c, 2)); iexact HI
    isplitr; · iapply (inv_at m K (py c, 4)); iexact HI
    isplitr; · iapply (inv_at m K (px c, 5)); iexact HI
    iapply (inv_at m K (py c, 5)); iexact HI
  isplitl [Hpos]; · iexact Hpos
  isplitr
  · isplitr; · iapply (reached_at (F := F) (px c, 0)); iexact HR
    isplitr; · iapply (reached_at (F := F) (py c, 0)); iexact HR
    isplitr; · iapply (reached_at (F := F) (px c, 2)); iexact HR
    isplitr; · iapply (reached_at (F := F) (py c, 4)); iexact HR
    isplitr; · iapply (reached_at (F := F) (px c, 5)); iexact HR
    isplitr; · iapply (reached_at (F := F) (py c, 5)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  iexact Htok

omit [FloatOps F] in
/-- The tokens go to their payers. A cell of `c` that `px c` pays (the `false` duty of either barrier, the
    row-receive cell's duty) hands its token across the row cut, one that `py c` pays (the `true` duty of either
    barrier, the column-receive cell's duty) across the column cut; both flips are permutations of the mesh, so summed
    over all devices nothing is lost. The two send cells' tokens stay where they are. -/
theorem toks_around : (bigSep Finset.univ fun c : Dev nD => (toks c : sProp 𝕄)) ⊢ bigSep Finset.univ fun c : Dev nD => payToks c := by
  unfold toks payToks
  simp only [bigSep_sep']
  rw [bigSep_univ_equiv flipX (fun c : Dev nD => (dutyTok ER (barCell c) 0 false : sProp 𝕄)),
    bigSep_univ_equiv flipY (fun c : Dev nD => (dutyTok ER (barCell c) 0 true : sProp 𝕄)),
    bigSep_univ_equiv flipX (fun c : Dev nD => (dutyTok ER (rowRecvCell c) 0 false : sProp 𝕄)),
    bigSep_univ_equiv flipY (fun c : Dev nD => (dutyTok ER (colRecvCell c) 0 false : sProp 𝕄)),
    bigSep_univ_equiv flipX (fun c : Dev nD => (dutyTok ER (exitCell c) 0 false : sProp 𝕄)),
    bigSep_univ_equiv flipY (fun c : Dev nD => (dutyTok ER (exitCell c) 0 true : sProp 𝕄))]
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 6 => iprop(∃ κ : ℕ, cellInv ER (haloRd m) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 6 => (atPos ER (kcell (c, k)) 0 ∅ 0 : sProp 𝕄)) payToks).symm).trans
      (bigSep_mono fun c _ => show _ ⊢ linear c from Entails.of_eq (by unfold linear positions; rw [bigSep_fin6])))
    isplitl [Hat]; · iexact Hat
    iexact Htk

/-- The step over all devices at once: every device's own semaphores and its entry barrier's, all at zero, become the
    invariants of its six cells, and the names and tokens are dealt out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' credits
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩⟩
  isplitl [Hs]; · iexact Hs
  isplitl [H0]; · iexists f0; rw [rrPts_eq]; iexact H0
  isplitl [H1]; · iexists f1; rw [crPts_eq]; iexact H1
  iexists f2; rw [csPts_eq]; iexact H2

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hc, Hs, Hz1, Hz2, Hz3, Hz4, Hz5⟩
  isplitr; · iempintro
  isplitl [Hz1 Hz2 Hz3 Hz4 Hz5]
  · isplitl [Hz1]; · iexact Hz1
    isplitl [Hz2]; · iexact Hz2
    isplitl [Hz3]; · iexact Hz3
    isplitl [Hz4] <;> iassumption
  isplitl [Hr]; · iexists (rowLanded m c); rw [← rrPts_eq]; iexact Hr
  isplitl [Hc]; · iexists (colLanded m c); rw [← crPts_eq]; iexact Hc
  iexists (colMine m c); rw [← csPts_eq]; iexact Hs

/-- Every wait of the staging pipeline is allowed: before the body the device owes its six payments, after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What each window's array holds when the program ends. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every semaphore at zero, every weakly fair execution of the four devices ends, nothing faults,
    and each window's array on each device ends at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Halo.run_main' depends on axioms: [propext, Classical.choice, Quot.sound] -/
#guard_msgs in #print axioms run_main

end Cert.KernelIdeal.Halo

end
-- ==== Proof.KernelIdeal.Final.lean ====
/-
  What the arrays hold when the program ends: a device's input block as it was, its result block the block the body
  leaves; and the run restated with those contents named.
-/
import proofs.«900187_g7700000000000188_dist_halo2d_stencil_xy_m1024_n1024_v7x_xy2x2_f32_1_alg».proof.Proof.KernelIdeal.Launch

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
/-- The staged input block is the device's input array, read whole. -/
theorem xstg_eq (c : Dev nD) : xstg m c = m ((c : Thread nD τ).loc main_arg0) := by
  unfold xstg
  have hz : (fun a => win0_0.index (0 : Fin 1) a * main_arg0.ty.shape.size a) = fun _ => 0 := funext fun a => Nat.zero_mul _
  exact Memref.read_access_unit_zero (Elt F) main_arg0 hz (fun a => by rw [congrFun hz a]; simp) _

set_option maxHeartbeats 1600000 in
/-- The input array ends as it began. -/
theorem finalA_x (c : Dev nD) : finalA m c (0 : Fin 2) = m (win0_0.arr.view.loc (c : Thread nD τ)) :=
  (dats (F := F) m 0 c).arrAt_in (0 : Fin 2) rfl _

omit [FloatOps F] in
set_option maxHeartbeats 1600000 in
/-- The result window is the whole result array and is written back at the one grid point; so whatever proof data one
    takes, the array ends holding what the data say the body leaves in the staging buffer at that point. -/
theorem arrAt_out (c : Dev nD) (d : Dat τ (Elt F) Unit ℕ UU ℕ cfg0 c) :
    d.arrAt (1 : Fin 2) cfg0.N = d.after (1 : Fin 2) t₀ := by
  have hz : (fun a => win0_1.index t₀ a * main_v1.ty.shape.size a) = fun _ => 0 := funext fun a => Nat.zero_mul _
  refine (congrArg (d.arrAt (1 : Fin 2)) cfg0_N).trans ?_
  refine (d.arrAt_succ (1 : Fin 2) t₀).trans ?_
  rw [if_pos (flush0_1 t₀)]
  exact Memref.write_access_unit_zero_univ (Elt F) main_v1 hz (fun a => by rw [congrFun hz a]; simp) _ _

set_option maxHeartbeats 1600000 in
/-- The result array ends holding the block the body leaves in its staging buffer. -/
theorem finalA_out (c : Dev nD) : finalA m c (1 : Fin 2) = outAt m c := by
  refine (arrAt_out c (dats m 0 c)).trans ?_
  unfold dats
  rfl

set_option maxHeartbeats 1600000 in
/-- The run, with each device's result named and its input unchanged. -/
theorem run_value : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun _ h c => ⟨(h c 1).trans (finalA_out m c), (h c 0).trans (finalA_x m c)⟩) (run_main m ρ)

end Cert.KernelIdeal.Halo

end
-- ==== Proof.Spec.lean ====
/-
  The five-point stencil on the whole 2048 × 2048 array, as the reference spells it: an entry strictly inside the
  array becomes ½ of itself plus ⅛ of each of its four neighbours, summed in the order centre, above, below, left,
  right; an entry on the array's outermost rows or columns is kept.
-/
import Idealize.ShloMosaic.PureOps.Ideal
import Idealize.ShloMosaic.Lib.ValueIdx

noncomputable section

namespace Cert.Halo

open Idealize.ShloMosaic Idealize.ShloMosaic.ValueIdx

/-- The whole array's shape and a device's block's. -/
abbrev SW : Shape := ⟨2, ![2048, 2048]⟩
abbrev SB : Shape := ⟨2, ![1024, 1024]⟩

/-- The two weights, ½ and ⅛, as the single-precision words both programs carry. -/
def wHalf : EReal := Ideal.ofBits .f32 0x3F000000#32
def wEighth : EReal := Ideal.ofBits .f32 0x3E000000#32

/-- The stencil at row `i`, column `j`. -/
def stencilAt (X : SW.Idx → EReal) (i j : Fin 2048) : EReal :=
  if h : 1 ≤ i.val ∧ i.val ≤ 2046 ∧ 1 ≤ j.val ∧ j.val ≤ 2046 then
    (((wHalf * X (ix2 i j) + wEighth * X (ix2 (⟨i.val - 1, by omega⟩ : Fin 2048) j))
        + wEighth * X (ix2 (⟨i.val + 1, by omega⟩ : Fin 2048) j))
      + wEighth * X (ix2 i (⟨j.val - 1, by omega⟩ : Fin 2048)))
    + wEighth * X (ix2 i (⟨j.val + 1, by omega⟩ : Fin 2048))
  else X (ix2 i j)

/-- The stencil of the whole array. -/
def stencil (X : SW.Idx → EReal) : SW.Idx → EReal := fun I => stencilAt X (I 0) (I 1)

theorem stencil_ix2 (X : SW.Idx → EReal) (i j : Fin 2048) : stencil X (ix2 i j) = stencilAt X i j := rfl

end Cert.Halo

end
-- ==== Proof.KValue.Pay.lean ====
/-
  The kernel's six pure values read at one entry, on the extended reals. The local sum: half an entry plus an eighth of
  the sum of its four neighbours inside the block, a neighbour outside the block counted zero (the four shifted copies
  of the block are a slice with a zero row or column put before or after it). The two halo shares: an eighth of a
  received line, added on one row of an eight-row band or one column of a 128-column strip and nothing elsewhere. The two
  rewrites: the input on one row of a band or one column of a strip, the old entry elsewhere. The sent column: a
  column of the block laid as a row. Each lemma on a device-dependent choice is stated once per value of the one-bit
  test that makes the choice.
-/
import proofs.«900187_g7700000000000188_dist_halo2d_stencil_xy_m1024_n1024_v7x_xy2x2_f32_1_alg».proof.Proof.KernelIdeal.Contents
import proofs.«900187_g7700000000000188_dist_halo2d_stencil_xy_m1024_n1024_v7x_xy2x2_f32_1_alg».proof.Proof.Spec
import Idealize.ShloMosaic.Lib.ValueLayout
import Idealize.ShloMosaic.PureOps.Ideal
import Idealize.ShloMosaic.PureOps.Ideal.Laws

noncomputable section

namespace Cert.KernelIdeal.Halo

open Cert.KernelIdeal Cert.KernelIdeal.Gen Cert.Halo
open Idealize.ShloMosaic Idealize.SL.Sem Idealize.ShloMosaic.ValueIdx

/-! ## The four shifted copies of a block, zero outside it -/

section Shift
variable (x : Vec Ideal S1024x1024 .f32) (z : EReal)

/-- The block moved one row down under a constant row: at row `i ≥ 1` the entry above, the constant at row 0. -/
theorem shiftN_apply (hsl : S1024x1024.Slices ![0, 0] S1023x1024)
    (hc : Shape.Concatenates [S1x1024, S1023x1024] S1024x1024 0) (i j : Fin 1024) :
    concatenate S1024x1024 0 [⟨S1x1024, broadcast S1x1024 z⟩,
        ⟨S1023x1024, extractStridedSlice S1023x1024 ![0, 0] x hsl⟩] hc (ix2 i j)
      = if h : 1 ≤ i.val then x (ix2 (⟨i.val - 1, by omega⟩ : Fin 1024) j) else z := by
  by_cases h : 1 ≤ i.val
  · rw [dif_pos h]
    refine (concatenate_pair_apply_right (t := S1024x1024) (s₁ := S1x1024) (s₂ := S1023x1024) (0 : Fin 2) _ _ hc (ix2 i j) rfl rfl
      (ix2 (⟨i.val - 1, by omega⟩ : Fin 1023) j) ?_ ?_).trans ?_
    · intro b hb
      match b with
      | ⟨0, _⟩ => exact absurd rfl hb
      | ⟨1, _⟩ => rfl
    · show (i.val - 1) + 1 = i.val
      omega
    · exact slice2_axis0_apply 0 x hsl _ j _ (by simp)
  · rw [dif_neg h]
    exact concatenate_pair_apply_left (t := S1024x1024) (s₁ := S1x1024) (s₂ := S1023x1024) (0 : Fin 2) _ _ hc (ix2 i j) rfl (ix2 (0 : Fin 1) j)
      (fun b => match b with
        | ⟨0, _⟩ => by show 0 = i.val; omega
        | ⟨1, _⟩ => rfl)

/-- The block moved one row up over a constant row: at row `i ≤ 1022` the entry below, the constant at row 1023. -/
theorem shiftS_apply (hsl : S1024x1024.Slices ![1, 0] S1023x1024)
    (hc : Shape.Concatenates [S1023x1024, S1x1024] S1024x1024 0) (i j : Fin 1024) :
    concatenate S1024x1024 0 [⟨S1023x1024, extractStridedSlice S1023x1024 ![1, 0] x hsl⟩,
        ⟨S1x1024, broadcast S1x1024 z⟩] hc (ix2 i j)
      = if h : i.val + 1 < 1024 then x (ix2 (⟨i.val + 1, h⟩ : Fin 1024) j) else z := by
  by_cases h : i.val + 1 < 1024
  · rw [dif_pos h]
    refine (concatenate_pair_apply_left (t := S1024x1024) (s₁ := S1023x1024) (s₂ := S1x1024) (0 : Fin 2) _ _ hc (ix2 i j) rfl
      (ix2 (⟨i.val, by omega⟩ : Fin 1023) j) (fun b => match b with
        | ⟨0, _⟩ => rfl
        | ⟨1, _⟩ => rfl)).trans ?_
    exact slice2_axis0_apply 1 x hsl _ j _ (by show i.val + 1 = 1 + i.val; omega)
  · rw [dif_neg h]
    refine concatenate_pair_apply_right (t := S1024x1024) (s₁ := S1023x1024) (s₂ := S1x1024) (0 : Fin 2) _ _ hc (ix2 i j) rfl rfl (ix2 (0 : Fin 1) j) ?_ ?_
    · intro b hb
      match b with
      | ⟨0, _⟩ => exact absurd rfl hb
      | ⟨1, _⟩ => rfl
    · show 0 + 1023 = i.val
      omega

/-- The block moved one column right behind a constant column. -/
theorem shiftW_apply (hsl : S1024x1024.Slices ![0, 0] S1024x1023)
    (hc : Shape.Concatenates [S1024x1, S1024x1023] S1024x1024 1) (i j : Fin 1024) :
    concatenate S1024x1024 1 [⟨S1024x1, broadcast S1024x1 z⟩,
        ⟨S1024x1023, extractStridedSlice S1024x1023 ![0, 0] x hsl⟩] hc (ix2 i j)
      = if h : 1 ≤ j.val then x (ix2 i (⟨j.val - 1, by omega⟩ : Fin 1024)) else z := by
  by_cases h : 1 ≤ j.val
  · rw [dif_pos h]
    refine (concatenate_pair_apply_right (t := S1024x1024) (s₁ := S1024x1) (s₂ := S1024x1023) (1 : Fin 2) _ _ hc (ix2 i j) rfl rfl
      (ix2 i (⟨j.val - 1, by omega⟩ : Fin 1023)) ?_ ?_).trans ?_
    · intro b hb
      match b with
      | ⟨0, _⟩ => rfl
      | ⟨1, _⟩ => exact absurd rfl hb
    · show (j.val - 1) + 1 = j.val
      omega
    · exact slice2_axis1_apply 0 x hsl i _ _ (by simp)
  · rw [dif_neg h]
    exact concatenate_pair_apply_left (t := S1024x1024) (s₁ := S1024x1) (s₂ := S1024x1023) (1 : Fin 2) _ _ hc (ix2 i j) rfl (ix2 i (0 : Fin 1))
      (fun b => match b with
        | ⟨0, _⟩ => rfl
        | ⟨1, _⟩ => by show 0 = j.val; omega)

/-- The block moved one column left before a constant column. -/
theorem shiftE_apply (hsl : S1024x1024.Slices ![0, 1] S1024x1023)
    (hc : Shape.Concatenates [S1024x1023, S1024x1] S1024x1024 1) (i j : Fin 1024) :
    concatenate S1024x1024 1 [⟨S1024x1023, extractStridedSlice S1024x1023 ![0, 1] x hsl⟩,
        ⟨S1024x1, broadcast S1024x1 z⟩] hc (ix2 i j)
      = if h : j.val + 1 < 1024 then x (ix2 i (⟨j.val + 1, h⟩ : Fin 1024)) else z := by
  by_cases h : j.val + 1 < 1024
  · rw [dif_pos h]
    refine (concatenate_pair_apply_left (t := S1024x1024) (s₁ := S1024x1023) (s₂ := S1024x1) (1 : Fin 2) _ _ hc (ix2 i j) rfl
      (ix2 i (⟨j.val, by omega⟩ : Fin 1023)) (fun b => match b with
        | ⟨0, _⟩ => rfl
        | ⟨1, _⟩ => rfl)).trans ?_
    exact slice2_axis1_apply 1 x hsl i _ _ (by show j.val + 1 = 1 + j.val; omega)
  · rw [dif_neg h]
    refine concatenate_pair_apply_right (t := S1024x1024) (s₁ := S1024x1023) (s₂ := S1024x1) (1 : Fin 2) _ _ hc (ix2 i j) rfl rfl (ix2 i (0 : Fin 1)) ?_ ?_
    · intro b hb
      match b with
      | ⟨0, _⟩ => rfl
      | ⟨1, _⟩ => exact absurd rfl hb
    · show 0 + 1023 = j.val
      omega

end Shift

/-! ## The weights and the zero -/

theorem ofBits_half : FloatOps.ofBits (F := Ideal) .f32 0x3F000000#32 = wHalf := rfl
theorem ofBits_eighth : FloatOps.ofBits (F := Ideal) .f32 0x3E000000#32 = wEighth := rfl
theorem ofBits_zero : FloatOps.ofBits (F := Ideal) .f32 0x00000000#32 = (0 : EReal) := Ideal.ofBits_zero_f32

/-! ## The local sum -/

/-- The first payload at an entry: half the entry plus an eighth of the sum, in the order above, below, left, right, of
    its four neighbours inside the block, a neighbour outside the block counted zero. -/
theorem pay2_apply (x : Vec Ideal S1024x1024 .f32) (i j : Fin 1024) :
    k0_pay2 (F := Ideal) x (ix2 i j)
      = wHalf * x (ix2 i j) + wEighth * ((((if h : 1 ≤ i.val then x (ix2 (⟨i.val - 1, by omega⟩ : Fin 1024) j) else 0)
          + (if h : i.val + 1 < 1024 then x (ix2 (⟨i.val + 1, h⟩ : Fin 1024) j) else 0))
          + (if h : 1 ≤ j.val then x (ix2 i (⟨j.val - 1, by omega⟩ : Fin 1024)) else 0))
          + (if h : j.val + 1 < 1024 then x (ix2 i (⟨j.val + 1, h⟩ : Fin 1024)) else 0)) := by
  unfold k0_pay2
  simp only [addf_apply, mulf_apply, broadcast_apply, shiftN_apply, shiftS_apply, shiftW_apply, shiftE_apply,
    shapeCast_self, ofBits_half, ofBits_eighth, ofBits_zero]
  rw [shiftS_apply, shiftE_apply]

/-! ## Words: an equality test against a small constant, and a select on it -/

/-- Two words below `2 ^ 32` compare equal exactly when the numbers are equal. -/
theorem select_cmpi_ofNat {α : Type} (n k : ℕ) (hn : n < 2 ^ 32) (hk : k < 2 ^ 32) (a b : α) :
    Scalar.select (IntOp.cmpi .eq (BitVec.ofNat 32 n) (BitVec.ofNat 32 k)) a b = if n = k then a else b := by
  by_cases h : n = k
  · subst h
    rw [if_pos rfl, IntOp.cmpi_eq.mpr rfl]
    exact select_one a b
  · rw [if_neg h]
    have h0 : IntOp.cmpi .eq (BitVec.ofNat 32 n) (BitVec.ofNat 32 k) = 0#1 := by
      refine eq_zero_of_ne_one fun h1 => h ?_
      have e := congrArg BitVec.toNat (IntOp.cmpi_eq.mp h1)
      rw [BitVec.toNat_ofNat, BitVec.toNat_ofNat, Nat.mod_eq_of_lt hn, Nat.mod_eq_of_lt hk] at e
      exact e
    rw [h0]
    exact select_zero a b

/-! ## The halo row's share -/

/-- The second payload at an entry of the band, the device in mesh row 1: the band's entry, plus on the band's row 0 an
    eighth of the last received row. -/
theorem pay3_apply_one (v2 : BitVec 32) (hb : Scalar.cmpi .eq v2 1#32 = 1#1) (r7 r0 : Vec Ideal S1x1024 .f32)
    (band : Vec Ideal S8x1024 .f32) (p : Fin 8) (q : Fin 1024) :
    k0_pay3 (F := Ideal) v2 r7 r0 band (ix2 p q)
      = band (ix2 p q) + (if p.val = 0 then wEighth * r7 (ix2 (0 : Fin 1) q) else 0) := by
  unfold k0_pay3
  simp only [hb, select_one, shapeCast_self, addf_apply, select_apply, mulf_apply, broadcast_apply, ofBits_eighth,
    ofBits_zero, broadcastTo_1b_ab_apply]
  congr 1
  refine (congrArg (fun w => Scalar.select w _ _) ?_).trans (select_cmpi_ofNat p.val 0 (by omega) (by omega) _ _)
  show IntOp.cmpi .eq _ _ = _
  rw [iota_single_apply]
  rfl

/-- The same, the device in mesh row 0: on the band's row 7, an eighth of the first received row. -/
theorem pay3_apply_zero (v2 : BitVec 32) (hb : Scalar.cmpi .eq v2 1#32 = 0#1) (r7 r0 : Vec Ideal S1x1024 .f32)
    (band : Vec Ideal S8x1024 .f32) (p : Fin 8) (q : Fin 1024) :
    k0_pay3 (F := Ideal) v2 r7 r0 band (ix2 p q)
      = band (ix2 p q) + (if p.val = 7 then wEighth * r0 (ix2 (0 : Fin 1) q) else 0) := by
  unfold k0_pay3
  simp only [hb, select_zero, shapeCast_self, addf_apply, select_apply, mulf_apply, broadcast_apply, ofBits_eighth,
    ofBits_zero, broadcastTo_1b_ab_apply]
  congr 1
  refine (congrArg (fun w => Scalar.select w _ _) ?_).trans (select_cmpi_ofNat p.val 7 (by omega) (by omega) _ _)
  show IntOp.cmpi .eq _ _ = _
  rw [iota_single_apply]
  rfl

/-! ## The halo column's share -/

/-- One column broadcast over many: a `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The third payload at an entry of the strip, the device in mesh column 1: the strip's entry, plus on the strip's
    column 0 an eighth of the received column. -/
theorem pay4_apply_one (v5 : BitVec 32) (hb : Scalar.cmpi .eq v5 1#32 = 1#1) (cr : Vec Ideal S1x1024 .f32)
    (strip : Vec Ideal S1024x128 .f32) (i : Fin 1024) (l : Fin 128) :
    k0_pay4 (F := Ideal) v5 cr strip (ix2 i l)
      = strip (ix2 i l) + (if l.val = 0 then wEighth * cr (ix2 (0 : Fin 1) i) else 0) := by
  unfold k0_pay4
  simp only [hb, select_one, shapeCast_self, addf_apply, select_apply, mulf_apply, broadcast_apply, ofBits_eighth,
    ofBits_zero, broadcastTo_a1_ab_apply]
  rw [transpose_ix2_apply]
  congr 1
  refine (congrArg (fun w => Scalar.select w _ _) ?_).trans (select_cmpi_ofNat l.val 0 (by omega) (by omega) _ _)
  show IntOp.cmpi .eq _ _ = _
  rw [iota_single_apply]
  rfl

/-- The same, the device in mesh column 0: on the strip's column 127. -/
theorem pay4_apply_zero (v5 : BitVec 32) (hb : Scalar.cmpi .eq v5 1#32 = 0#1) (cr : Vec Ideal S1x1024 .f32)
    (strip : Vec Ideal S1024x128 .f32) (i : Fin 1024) (l : Fin 128) :
    k0_pay4 (F := Ideal) v5 cr strip (ix2 i l)
      = strip (ix2 i l) + (if l.val = 127 then wEighth * cr (ix2 (0 : Fin 1) i) else 0) := by
  unfold k0_pay4
  simp only [hb, select_zero, shapeCast_self, addf_apply, select_apply, mulf_apply, broadcast_apply, ofBits_eighth,
    ofBits_zero, broadcastTo_a1_ab_apply]
  rw [transpose_ix2_apply]
  congr 1
  refine (congrArg (fun w => Scalar.select w _ _) ?_).trans (select_cmpi_ofNat l.val 127 (by omega) (by omega) _ _)
  show IntOp.cmpi .eq _ _ = _
  rw [iota_single_apply]
  rfl

/-! ## The two rewrites of the outermost row and column -/

/-- The fourth payload at an entry of the band, the device in mesh row 0: the input on the band's row 0, the band elsewhere. -/
theorem pay5_apply_one (v2 : BitVec 32) (hb : Scalar.cmpi .eq v2 0#32 = 1#1) (xband band : Vec Ideal S8x1024 .f32)
    (p : Fin 8) (q : Fin 1024) :
    k0_pay5 (F := Ideal) v2 (iota .tc S8x1024 32 [0] iota_S8x1024_d0_w32) xband band (ix2 p q)
      = if p.val = 0 then xband (ix2 p q) else band (ix2 p q) := by
  unfold k0_pay5
  simp only [hb, select_one, shapeCast_self, select_apply, broadcast_apply]
  refine (congrArg (fun w => Scalar.select w _ _) ?_).trans (select_cmpi_ofNat p.val 0 (by omega) (by omega) _ _)
  show IntOp.cmpi .eq _ _ = _
  rw [iota_single_apply]
  rfl

/-- The same, the device in mesh row 1: the input on the band's row 7. -/
theorem pay5_apply_zero (v2 : BitVec 32) (hb : Scalar.cmpi .eq v2 0#32 = 0#1) (xband band : Vec Ideal S8x1024 .f32)
    (p : Fin 8) (q : Fin 1024) :
    k0_pay5 (F := Ideal) v2 (iota .tc S8x1024 32 [0] iota_S8x1024_d0_w32) xband band (ix2 p q)
      = if p.val = 7 then xband (ix2 p q) else band (ix2 p q) := by
  unfold k0_pay5
  simp only [hb, select_zero, shapeCast_self, select_apply, broadcast_apply]
  refine (congrArg (fun w => Scalar.select w _ _) ?_).trans (select_cmpi_ofNat p.val 7 (by omega) (by omega) _ _)
  show IntOp.cmpi .eq _ _ = _
  rw [iota_single_apply]
  rfl

/-- The fifth payload at an entry of the strip, the device in mesh column 0: the input on the strip's column 0. -/
theorem pay6_apply_one (v5 : BitVec 32) (hb : Scalar.cmpi .eq v5 0#32 = 1#1) (xstrip strip : Vec Ideal S1024x128 .f32)
    (i : Fin 1024) (l : Fin 128) :
    k0_pay6 (F := Ideal) v5 (iota .tc S1024x128 32 [1] iota_S1024x128_d1_w32) xstrip strip (ix2 i l)
      = if l.val = 0 then xstrip (ix2 i l) else strip (ix2 i l) := by
  unfold k0_pay6
  simp only [hb, select_one, shapeCast_self, select_apply, broadcast_apply]
  refine (congrArg (fun w => Scalar.select w _ _) ?_).trans (select_cmpi_ofNat l.val 0 (by omega) (by omega) _ _)
  show IntOp.cmpi .eq _ _ = _
  rw [iota_single_apply]
  rfl

/-- The same, the device in mesh column 1: the input on the strip's column 127. -/
theorem pay6_apply_zero (v5 : BitVec 32) (hb : Scalar.cmpi .eq v5 0#32 = 0#1) (xstrip strip : Vec Ideal S1024x128 .f32)
    (i : Fin 1024) (l : Fin 128) :
    k0_pay6 (F := Ideal) v5 (iota .tc S1024x128 32 [1] iota_S1024x128_d1_w32) xstrip strip (ix2 i l)
      = if l.val = 127 then xstrip (ix2 i l) else strip (ix2 i l) := by
  unfold k0_pay6
  simp only [hb, select_zero, shapeCast_self, select_apply, broadcast_apply]
  refine (congrArg (fun w => Scalar.select w _ _) ?_).trans (select_cmpi_ofNat l.val 127 (by omega) (by omega) _ _)
  show IntOp.cmpi .eq _ _ = _
  rw [iota_single_apply]
  rfl

/-! ## The column a device sends -/

/-- The sent line at position `q`, the device in mesh column 0: row `q` of its block's last column. -/
theorem pay1_apply_one (v5 c0 : BitVec 32) (hb : Scalar.cmpi .eq v5 c0 = 1#1) (cl cf : Vec Ideal S1024x1 .f32)
    (u : Fin 1) (q : Fin 1024) :
    k0_pay1 (F := Ideal) v5 c0 cl cf (ix2 u q) = cl (ix2 q u) := by
  unfold k0_pay1
  simp only [hb, select_one, shapeCast_self]
  exact transpose_ix2_apply cl _ u q

/-- The same, the device in mesh column 1: row `q` of its block's first column. -/
theorem pay1_apply_zero (v5 c0 : BitVec 32) (hb : Scalar.cmpi .eq v5 c0 = 0#1) (cl cf : Vec Ideal S1024x1 .f32)
    (u : Fin 1) (q : Fin 1024) :
    k0_pay1 (F := Ideal) v5 c0 cl cf (ix2 u q) = cf (ix2 q u) := by
  unfold k0_pay1
  simp only [hb, select_zero, shapeCast_self]
  exact transpose_ix2_apply cf _ u q

end Cert.KernelIdeal.Halo

end
-- ==== Proof.KValue.Mem.lean ====
/-
  A load and a store through a unit-stride rectangle of a whole buffer, read at one entry given by its two coordinates:
  a load at entry (p, q) of the rectangle reads the buffer at (off 0 + p, off 1 + q); a store leaves its payload at the
  entries inside the rectangle and what was there at the entries outside it.
-/
import proofs.«900187_g7700000000000188_dist_halo2d_stencil_xy_m1024_n1024_v7x_xy2x2_f32_1_alg».proof.Proof.KernelIdeal.Contents
import proofs.«900187_g7700000000000188_dist_halo2d_stencil_xy_m1024_n1024_v7x_xy2x2_f32_1_alg».proof.Proof.Spec
import Idealize.ShloMosaic.Lib.ValueLayout
import Idealize.ShloMosaic.PureOps.Ideal

noncomputable section

namespace Cert.KernelIdeal.Halo

open Cert.KernelIdeal Cert.KernelIdeal.Gen Cert.Halo
open Idealize.ShloMosaic Idealize.SL.Sem Idealize.ShloMosaic.ValueIdx

/-! ## Indices of a rectangle of a matrix, by coordinates -/

/-- Two entries of a matrix at coordinates equal as numbers are the same entry. -/
theorem ix2_congr {α : Type} {m0 m1 : ℕ} (f : (⟨2, ![m0, m1]⟩ : Shape).Idx → α) {i i' : Fin m0} {j j' : Fin m1}
    (hi : i.val = i'.val) (hj : j.val = j'.val) : f (ix2 i j) = f (ix2 i' j') := by
  rw [Fin.ext hi, Fin.ext hj]

/-- Where entry `(p, q)` of a unit-stride rectangle of a matrix lies in the matrix. -/
theorem idx_unit_ix2 {m0 m1 n0 n1 : ℕ} (off : Fin 2 → ℕ)
    (inb : ∀ a, off a + (![n0, n1] : Fin 2 → ℕ) a ≤ (⟨2, ![m0, m1]⟩ : Shape).size a) (p : Fin n0) (q : Fin n1)
    (i : Fin m0) (j : Fin m1) (hi : i.val = off 0 + p.val) (hj : j.val = off 1 + q.val) :
    (Rect.unit (s := ⟨2, ![m0, m1]⟩) off ![n0, n1] inb).toLoadRect.idx (ix2 p q) = ix2 i j := by
  funext a
  refine Fin.ext ?_
  match a with
  | ⟨0, _⟩ => show off 0 + 1 * p.val = i.val; omega
  | ⟨1, _⟩ => show off 1 + 1 * q.val = j.val; omega

/-- A matrix index lies in a unit-stride rectangle exactly when both coordinates lie in its spans. -/
theorem mem_unit_ix2 {m0 m1 n0 n1 : ℕ} (off : Fin 2 → ℕ)
    (inb : ∀ a, off a + (![n0, n1] : Fin 2 → ℕ) a ≤ (⟨2, ![m0, m1]⟩ : Shape).size a) (i : Fin m0) (j : Fin m1) :
    ix2 i j ∈ (Rect.unit (s := ⟨2, ![m0, m1]⟩) off ![n0, n1] inb).set
      ↔ (off 0 ≤ i.val ∧ i.val < off 0 + n0) ∧ (off 1 ≤ j.val ∧ j.val < off 1 + n1) := by
  rw [Rect.mem_set_unit]
  exact Fin.forall_fin_two

/-! ## A load and a store through a rectangle of a whole buffer, at an entry -/

section Mem
variable {n0 n1 : ℕ} (off : Fin 2 → ℕ)

/-- A load from the input block through a rectangle reads, at `(p, q)`, the block at `(off 0 + p, off 1 + q)`. -/
theorem readX_apply (inb : ∀ a, off a + (![n0, n1] : Fin 2 → ℕ) a ≤ S1024x1024.size a) (f : XC Ideal)
    (p : Fin n0) (q : Fin n1) (i j : Fin 1024) (hi : i.val = off 0 + p.val) (hj : j.val = off 1 + q.val) :
    xM.view.readAt (Elt Ideal) (Rect.unit (s := S1024x1024) off ![n0, n1] inb).toLoadRect f (ix2 p q) = f (ix2 i j) :=
  congrArg f (idx_unit_ix2 off inb p q i j hi hj)

/-- The same of the result block. -/
theorem readO_apply (inb : ∀ a, off a + (![n0, n1] : Fin 2 → ℕ) a ≤ S1024x1024.size a) (f : OC Ideal)
    (p : Fin n0) (q : Fin n1) (i j : Fin 1024) (hi : i.val = off 0 + p.val) (hj : j.val = off 1 + q.val) :
    oM.view.readAt (Elt Ideal) (Rect.unit (s := S1024x1024) off ![n0, n1] inb).toLoadRect f (ix2 p q) = f (ix2 i j) :=
  congrArg f (idx_unit_ix2 off inb p q i j hi hj)

/-- The same of the eight received rows. -/
theorem readR_apply (inb : ∀ a, off a + (![n0, n1] : Fin 2 → ℕ) a ≤ S8x1024.size a) (f : RC Ideal)
    (p : Fin n0) (q : Fin n1) (i : Fin 8) (j : Fin 1024) (hi : i.val = off 0 + p.val) (hj : j.val = off 1 + q.val) :
    rrM.view.readAt (Elt Ideal) (Rect.unit (s := S8x1024) off ![n0, n1] inb).toLoadRect f (ix2 p q) = f (ix2 i j) :=
  congrArg f (idx_unit_ix2 off inb p q i j hi hj)

/-- A store to the result block through a rectangle leaves, at an entry inside the rectangle, the payload there; -/
theorem writeO_in (inb : ∀ a, off a + (![n0, n1] : Fin 2 → ℕ) a ≤ S1024x1024.size a) (f : OC Ideal)
    (w : (⟨2, ![n0, n1]⟩ : Shape).Idx → EReal) (p : Fin n0) (q : Fin n1) (i j : Fin 1024)
    (hi : i.val = off 0 + p.val) (hj : j.val = off 1 + q.val) :
    ((oM.access (Rect.unit (s := S1024x1024) off ![n0, n1] inb) : View sig .tc _ _ _)).write (Elt Ideal) f w Finset.univ (ix2 i j)
      = w (ix2 p q) := by
  have h := View.write_emb_of_mem (v := (oM.access (Rect.unit (s := S1024x1024) off ![n0, n1] inb) : View sig .tc _ _ _))
    (Val := Elt Ideal) f w (M := Finset.univ) (x := ix2 p q) (Finset.mem_univ _)
  have he : ((oM.access (Rect.unit (s := S1024x1024) off ![n0, n1] inb) : View sig .tc _ _ _)).emb (ix2 p q) = ix2 i j :=
    idx_unit_ix2 off inb p q i j hi hj
  rw [he] at h
  exact h

/-- and at an entry outside it, what was there. -/
theorem writeO_out (inb : ∀ a, off a + (![n0, n1] : Fin 2 → ℕ) a ≤ S1024x1024.size a) (f : OC Ideal)
    (w : (⟨2, ![n0, n1]⟩ : Shape).Idx → EReal) (i j : Fin 1024)
    (h : ¬((off 0 ≤ i.val ∧ i.val < off 0 + n0) ∧ (off 1 ≤ j.val ∧ j.val < off 1 + n1))) :
    ((oM.access (Rect.unit (s := S1024x1024) off ![n0, n1] inb) : View sig .tc _ _ _)).write (Elt Ideal) f w Finset.univ (ix2 i j)
      = f (ix2 i j) := by
  refine View.write_of_not_mem _ _ _ ?_
  rw [View.setOn_univ]
  intro hm
  have hs := View.set_slice_whole cc0_stg1_0 (Rect.unit (s := S1024x1024) off ![n0, n1] inb)
  rw [hs] at hm
  exact h ((mem_unit_ix2 off inb i j).mp hm)

end Mem

end Cert.KernelIdeal.Halo

end
-- ==== Proof.KValue.Stores.lean ====
/-
  The result block after each of the five stores, at one entry. The second store adds the halo row's share on the edge
  row towards the peer in the other mesh row, the third the halo column's share on the edge column towards the peer in
  the other mesh column; the fourth and fifth put the input back on the block's row and column that are an outermost
  row and column of the whole array. Each is proved in the two cases of the device's mesh row or column, and in each
  by whether the entry lies in the band or strip the store writes.
-/
import proofs.«900187_g7700000000000188_dist_halo2d_stencil_xy_m1024_n1024_v7x_xy2x2_f32_1_alg».proof.Proof.KValue.Pay
import proofs.«900187_g7700000000000188_dist_halo2d_stencil_xy_m1024_n1024_v7x_xy2x2_f32_1_alg».proof.Proof.KValue.Mem

noncomputable section

namespace Cert.KernelIdeal.Halo

open Cert.KernelIdeal Cert.KernelIdeal.Gen Cert.Halo
open Idealize.ShloMosaic Idealize.SL.Sem Idealize.ShloMosaic.ValueIdx

/-! ## The device's mesh coordinates, tested -/

theorem wx_cmp1 (c : Dev nD) : Scalar.cmpi .eq (wx c) 1#32 = if c.val / 2 = 1 then 1#1 else 0#1 := by
  unfold wx; revert c; decide
theorem wx_cmp0 (c : Dev nD) : Scalar.cmpi .eq (wx c) 0#32 = if c.val / 2 = 0 then 1#1 else 0#1 := by
  unfold wx; revert c; decide
theorem wy_cmp1 (c : Dev nD) : Scalar.cmpi .eq (wy c) 1#32 = if c.val % 2 = 1 then 1#1 else 0#1 := by
  unfold wy; revert c; decide
theorem wy_cmp0 (c : Dev nD) : Scalar.cmpi .eq (wy c) 0#32 = if c.val % 2 = 0 then 1#1 else 0#1 := by
  unfold wy; revert c; decide

/-! ## The result block after each store, as a matrix of extended reals -/

abbrev O1 (xs : SB.Idx → EReal) : SB.Idx → EReal := out1 (F := Ideal) xs
abbrev O2 (c : Dev nD) (xs : SB.Idx → EReal) (rr : S8x1024.Idx → EReal) : SB.Idx → EReal := out2 (F := Ideal) c xs rr
abbrev O3 (c : Dev nD) (xs : SB.Idx → EReal) (rr : S8x1024.Idx → EReal) (cr : S1x1024.Idx → EReal) : SB.Idx → EReal :=
  out3 (F := Ideal) c xs rr cr
abbrev O4 (c : Dev nD) (xs : SB.Idx → EReal) (rr : S8x1024.Idx → EReal) (cr : S1x1024.Idx → EReal) : SB.Idx → EReal :=
  out4 (F := Ideal) c xs rr cr
abbrev O5 (c : Dev nD) (xs : SB.Idx → EReal) (rr : S8x1024.Idx → EReal) (cr : S1x1024.Idx → EReal) : SB.Idx → EReal :=
  out5 (F := Ideal) c xs rr cr

/-! ## The five stores, at an entry -/

/-- The halo row's share at an entry: an eighth of the received row next to the peer's block, on the block's edge row
    towards that peer. -/
def haloR (c : Dev nD) (rr : S8x1024.Idx → EReal) (i j : Fin 1024) : EReal :=
  if c.val / 2 = 1 then (if i.val = 0 then wEighth * rr (ix2 (7 : Fin 8) j) else 0)
  else (if i.val = 1023 then wEighth * rr (ix2 (0 : Fin 8) j) else 0)

theorem O2_apply (c : Dev nD) (xs : SB.Idx → EReal) (rr : S8x1024.Idx → EReal) (i j : Fin 1024) :
    O2 c xs rr (ix2 i j) = O1 xs (ix2 i j) + haloR c rr i j := by
  unfold haloR
  have hoff := k0_off2_eq c 1
  have h0 : k0_off2 c (BitVec.ofNat 32 (1 : Fin 2).val) 0 = if c.val / 2 = 1 then 0 else 1016 := congrFun hoff 0
  have h1 : k0_off2 c (BitVec.ofNat 32 (1 : Fin 2).val) 1 = 0 := congrFun hoff 1
  by_cases hc : c.val / 2 = 1
  · rw [if_pos hc] at h0
    rw [if_pos hc]
    have hb : Scalar.cmpi .eq (wx c) 1#32 = 1#1 := by rw [wx_cmp1, if_pos hc]
    by_cases hi : i.val < 8
    · refine (writeO_in (k0_off2 c (BitVec.ofNat 32 (1 : Fin 2).val)) (k0_off2_inb c 1) _ _ (⟨i.val, hi⟩ : Fin 8) j i j
        (by show i.val = _ + i.val; omega) (by show j.val = _ + j.val; omega)).trans ?_
      rw [pay3_apply_one _ hb,
        readO_apply (k0_off2 c (BitVec.ofNat 32 (1 : Fin 2).val)) (k0_off2_inb c 1) (out1 (F := Ideal) xs) (⟨i.val, hi⟩ : Fin 8) j i j
          (by show i.val = _ + i.val; omega) (by show j.val = _ + j.val; omega),
        readR_apply ![7, 0] inb_S8x1024_S1x1024_7_0 rr (0 : Fin 1) j (7 : Fin 8) j rfl (by show j.val = 0 + j.val; omega)]
    · refine (writeO_out (k0_off2 c (BitVec.ofNat 32 (1 : Fin 2).val)) (k0_off2_inb c 1) _ _ i j
        (fun h => by have := h.1.2; omega)).trans ?_
      rw [if_neg (by omega), add_zero]
  · have hc0 : c.val / 2 = 0 := by have : c.val < 4 := c.isLt; omega
    rw [if_neg hc] at h0
    rw [if_neg hc]
    have hb : Scalar.cmpi .eq (wx c) 1#32 = 0#1 := by rw [wx_cmp1, if_neg hc]
    by_cases hi : 1016 ≤ i.val
    · have hp : i.val - 1016 < 8 := by have := i.isLt; omega
      refine (writeO_in (k0_off2 c (BitVec.ofNat 32 (1 : Fin 2).val)) (k0_off2_inb c 1) _ _ (⟨i.val - 1016, hp⟩ : Fin 8) j i j
        (by show i.val = _ + (i.val - 1016); omega) (by show j.val = _ + j.val; omega)).trans ?_
      rw [pay3_apply_zero _ hb,
        readO_apply (k0_off2 c (BitVec.ofNat 32 (1 : Fin 2).val)) (k0_off2_inb c 1) (out1 (F := Ideal) xs) (⟨i.val - 1016, hp⟩ : Fin 8) j i j
          (by show i.val = _ + (i.val - 1016); omega) (by show j.val = _ + j.val; omega),
        readR_apply ![0, 0] inb_S8x1024_S1x1024_0_0 rr (0 : Fin 1) j (0 : Fin 8) j rfl (by show j.val = 0 + j.val; omega)]
      exact congrArg _ (if_congr (by show i.val - 1016 = 7 ↔ i.val = 1023; omega) rfl rfl)
    · refine (writeO_out (k0_off2 c (BitVec.ofNat 32 (1 : Fin 2).val)) (k0_off2_inb c 1) _ _ i j
        (fun h => by have := h.1.1; omega)).trans ?_
      rw [if_neg (by omega), add_zero]

/-- The halo column's share at an entry: an eighth of the received column, on the block's edge column towards the peer
    it came from. -/
def haloC (c : Dev nD) (cr : S1x1024.Idx → EReal) (i j : Fin 1024) : EReal :=
  if c.val % 2 = 1 then (if j.val = 0 then wEighth * cr (ix2 (0 : Fin 1) i) else 0)
  else (if j.val = 1023 then wEighth * cr (ix2 (0 : Fin 1) i) else 0)

theorem O3_apply (c : Dev nD) (xs : SB.Idx → EReal) (rr : S8x1024.Idx → EReal) (cr : S1x1024.Idx → EReal) (i j : Fin 1024) :
    O3 c xs rr cr (ix2 i j) = O2 c xs rr (ix2 i j) + haloC c cr i j := by
  unfold haloC
  have hoff := k0_off3_eq c 1
  have h0 : k0_off3 c (BitVec.ofNat 32 (1 : Fin 2).val) 0 = 0 := congrFun hoff 0
  have h1 : k0_off3 c (BitVec.ofNat 32 (1 : Fin 2).val) 1 = if c.val % 2 = 1 then 0 else 896 := congrFun hoff 1
  by_cases hc : c.val % 2 = 1
  · rw [if_pos hc] at h1
    rw [if_pos hc]
    have hb : Scalar.cmpi .eq (wy c) 1#32 = 1#1 := by rw [wy_cmp1, if_pos hc]
    by_cases hj : j.val < 128
    · refine (writeO_in (k0_off3 c (BitVec.ofNat 32 (1 : Fin 2).val)) (k0_off3_inb c 1) _ _ i (⟨j.val, hj⟩ : Fin 128) i j
        (by show i.val = _ + i.val; omega) (by show j.val = _ + j.val; omega)).trans ?_
      rw [pay4_apply_one _ hb,
        readO_apply (k0_off3 c (BitVec.ofNat 32 (1 : Fin 2).val)) (k0_off3_inb c 1) (out2 (F := Ideal) c xs rr) i (⟨j.val, hj⟩ : Fin 128) i j
          (by show i.val = _ + i.val; omega) (by show j.val = _ + j.val; omega)]
    · refine (writeO_out (k0_off3 c (BitVec.ofNat 32 (1 : Fin 2).val)) (k0_off3_inb c 1) _ _ i j
        (fun h => by have := h.2.2; omega)).trans ?_
      rw [if_neg (by omega), add_zero]
  · rw [if_neg hc] at h1
    rw [if_neg hc]
    have hb : Scalar.cmpi .eq (wy c) 1#32 = 0#1 := by rw [wy_cmp1, if_neg hc]
    by_cases hj : 896 ≤ j.val
    · have hq : j.val - 896 < 128 := by have := j.isLt; omega
      refine (writeO_in (k0_off3 c (BitVec.ofNat 32 (1 : Fin 2).val)) (k0_off3_inb c 1) _ _ i (⟨j.val - 896, hq⟩ : Fin 128) i j
        (by show i.val = _ + i.val; omega) (by show j.val = _ + (j.val - 896); omega)).trans ?_
      rw [pay4_apply_zero _ hb,
        readO_apply (k0_off3 c (BitVec.ofNat 32 (1 : Fin 2).val)) (k0_off3_inb c 1) (out2 (F := Ideal) c xs rr) i (⟨j.val - 896, hq⟩ : Fin 128) i j
          (by show i.val = _ + i.val; omega) (by show j.val = _ + (j.val - 896); omega)]
      exact congrArg _ (if_congr (by show j.val - 896 = 127 ↔ j.val = 1023; omega) rfl rfl)
    · refine (writeO_out (k0_off3 c (BitVec.ofNat 32 (1 : Fin 2).val)) (k0_off3_inb c 1) _ _ i j
        (fun h => by have := h.2.1; omega)).trans ?_
      rw [if_neg (by omega), add_zero]

/-- The fourth store: the input on the block's row that is an outermost row of the whole array. -/
theorem O4_apply (c : Dev nD) (xs : SB.Idx → EReal) (rr : S8x1024.Idx → EReal) (cr : S1x1024.Idx → EReal) (i j : Fin 1024) :
    O4 c xs rr cr (ix2 i j)
      = if i.val = (if c.val / 2 = 0 then 0 else 1023) then xs (ix2 i j) else O3 c xs rr cr (ix2 i j) := by
  have hoff := k0_off2_eq c 0
  have h0 : k0_off2 c (BitVec.ofNat 32 (0 : Fin 2).val) 0 = if c.val / 2 = 0 then 0 else 1016 := congrFun hoff 0
  have h1 : k0_off2 c (BitVec.ofNat 32 (0 : Fin 2).val) 1 = 0 := congrFun hoff 1
  by_cases hc : c.val / 2 = 0
  · rw [if_pos hc] at h0
    rw [if_pos hc]
    have hb : Scalar.cmpi .eq (wx c) 0#32 = 1#1 := by rw [wx_cmp0, if_pos hc]
    by_cases hi : i.val < 8
    · refine (writeO_in (k0_off2 c (BitVec.ofNat 32 (0 : Fin 2).val)) (k0_off2_inb c 0) _ _ (⟨i.val, hi⟩ : Fin 8) j i j
        (by show i.val = _ + i.val; omega) (by show j.val = _ + j.val; omega)).trans ?_
      rw [pay5_apply_one _ hb,
        readX_apply (k0_off2 c (BitVec.ofNat 32 (0 : Fin 2).val)) (k0_off2_inb c 0) xs (⟨i.val, hi⟩ : Fin 8) j i j
          (by show i.val = _ + i.val; omega) (by show j.val = _ + j.val; omega),
        readO_apply (k0_off2 c (BitVec.ofNat 32 (0 : Fin 2).val)) (k0_off2_inb c 0) (out3 (F := Ideal) c xs rr cr) (⟨i.val, hi⟩ : Fin 8) j i j
          (by show i.val = _ + i.val; omega) (by show j.val = _ + j.val; omega)]
    · refine (writeO_out (k0_off2 c (BitVec.ofNat 32 (0 : Fin 2).val)) (k0_off2_inb c 0) _ _ i j
        (fun h => by have := h.1.2; omega)).trans ?_
      rw [if_neg (by omega)]
  · rw [if_neg hc] at h0
    rw [if_neg hc]
    have hb : Scalar.cmpi .eq (wx c) 0#32 = 0#1 := by rw [wx_cmp0, if_neg hc]
    by_cases hi : 1016 ≤ i.val
    · have hp : i.val - 1016 < 8 := by have := i.isLt; omega
      refine (writeO_in (k0_off2 c (BitVec.ofNat 32 (0 : Fin 2).val)) (k0_off2_inb c 0) _ _ (⟨i.val - 1016, hp⟩ : Fin 8) j i j
        (by show i.val = _ + (i.val - 1016); omega) (by show j.val = _ + j.val; omega)).trans ?_
      rw [pay5_apply_zero _ hb,
        readX_apply (k0_off2 c (BitVec.ofNat 32 (0 : Fin 2).val)) (k0_off2_inb c 0) xs (⟨i.val - 1016, hp⟩ : Fin 8) j i j
          (by show i.val = _ + (i.val - 1016); omega) (by show j.val = _ + j.val; omega),
        readO_apply (k0_off2 c (BitVec.ofNat 32 (0 : Fin 2).val)) (k0_off2_inb c 0) (out3 (F := Ideal) c xs rr cr) (⟨i.val - 1016, hp⟩ : Fin 8) j i j
          (by show i.val = _ + (i.val - 1016); omega) (by show j.val = _ + j.val; omega)]
      exact if_congr (by show i.val - 1016 = 7 ↔ i.val = 1023; omega) rfl rfl
    · refine (writeO_out (k0_off2 c (BitVec.ofNat 32 (0 : Fin 2).val)) (k0_off2_inb c 0) _ _ i j
        (fun h => by have := h.1.1; omega)).trans ?_
      rw [if_neg (by omega)]

/-- The fifth store: the input on the block's column that is an outermost column of the whole array. -/
theorem O5_apply (c : Dev nD) (xs : SB.Idx → EReal) (rr : S8x1024.Idx → EReal) (cr : S1x1024.Idx → EReal) (i j : Fin 1024) :
    O5 c xs rr cr (ix2 i j)
      = if j.val = (if c.val % 2 = 0 then 0 else 1023) then xs (ix2 i j) else O4 c xs rr cr (ix2 i j) := by
  have hoff := k0_off3_eq c 0
  have h0 : k0_off3 c (BitVec.ofNat 32 (0 : Fin 2).val) 0 = 0 := congrFun hoff 0
  have h1 : k0_off3 c (BitVec.ofNat 32 (0 : Fin 2).val) 1 = if c.val % 2 = 0 then 0 else 896 := congrFun hoff 1
  by_cases hc : c.val % 2 = 0
  · rw [if_pos hc] at h1
    rw [if_pos hc]
    have hb : Scalar.cmpi .eq (wy c) 0#32 = 1#1 := by rw [wy_cmp0, if_pos hc]
    by_cases hj : j.val < 128
    · refine (writeO_in (k0_off3 c (BitVec.ofNat 32 (0 : Fin 2).val)) (k0_off3_inb c 0) _ _ i (⟨j.val, hj⟩ : Fin 128) i j
        (by show i.val = _ + i.val; omega) (by show j.val = _ + j.val; omega)).trans ?_
      rw [pay6_apply_one _ hb,
        readX_apply (k0_off3 c (BitVec.ofNat 32 (0 : Fin 2).val)) (k0_off3_inb c 0) xs i (⟨j.val, hj⟩ : Fin 128) i j
          (by show i.val = _ + i.val; omega) (by show j.val = _ + j.val; omega),
        readO_apply (k0_off3 c (BitVec.ofNat 32 (0 : Fin 2).val)) (k0_off3_inb c 0) (out4 (F := Ideal) c xs rr cr) i (⟨j.val, hj⟩ : Fin 128) i j
          (by show i.val = _ + i.val; omega) (by show j.val = _ + j.val; omega)]
    · refine (writeO_out (k0_off3 c (BitVec.ofNat 32 (0 : Fin 2).val)) (k0_off3_inb c 0) _ _ i j
        (fun h => by have := h.2.2; omega)).trans ?_
      rw [if_neg (by omega)]
  · rw [if_neg hc] at h1
    rw [if_neg hc]
    have hb : Scalar.cmpi .eq (wy c) 0#32 = 0#1 := by rw [wy_cmp0, if_neg hc]
    by_cases hj : 896 ≤ j.val
    · have hq : j.val - 896 < 128 := by have := j.isLt; omega
      refine (writeO_in (k0_off3 c (BitVec.ofNat 32 (0 : Fin 2).val)) (k0_off3_inb c 0) _ _ i (⟨j.val - 896, hq⟩ : Fin 128) i j
        (by show i.val = _ + i.val; omega) (by show j.val = _ + (j.val - 896); omega)).trans ?_
      rw [pay6_apply_zero _ hb,
        readX_apply (k0_off3 c (BitVec.ofNat 32 (0 : Fin 2).val)) (k0_off3_inb c 0) xs i (⟨j.val - 896, hq⟩ : Fin 128) i j
          (by show i.val = _ + i.val; omega) (by show j.val = _ + (j.val - 896); omega),
        readO_apply (k0_off3 c (BitVec.ofNat 32 (0 : Fin 2).val)) (k0_off3_inb c 0) (out4 (F := Ideal) c xs rr cr) i (⟨j.val - 896, hq⟩ : Fin 128) i j
          (by show i.val = _ + i.val; omega) (by show j.val = _ + (j.val - 896); omega)]
      exact if_congr (by show j.val - 896 = 127 ↔ j.val = 1023; omega) rfl rfl
    · refine (writeO_out (k0_off3 c (BitVec.ofNat 32 (0 : Fin 2).val)) (k0_off3_inb c 0) _ _ i j
        (fun h => by have := h.2.1; omega)).trans ?_
      rw [if_neg (by omega)]

end Cert.KernelIdeal.Halo

end
-- ==== Proof.KValue.Whole.lean ====
/-
  From blocks to the whole array: the two weights as reals and the rearrangement of the sum on reals; entry (i, j) of
  device c's block is entry (1024 (c / 2) + i, 1024 (c % 2) + j) of the whole array; the mesh coordinates of the two
  peers; every entry of the whole array is a real when every entry of every block is; and what the rows and the column
  a device sends are, entry by entry.
-/
import proofs.«900187_g7700000000000188_dist_halo2d_stencil_xy_m1024_n1024_v7x_xy2x2_f32_1_alg».proof.Proof.KValue.Stores
import Idealize.ShloMosaic.Lib.Layout

noncomputable section

namespace Cert.KernelIdeal.Halo

open Cert.KernelIdeal Cert.KernelIdeal.Gen Cert.Halo
open Idealize.ShloMosaic Idealize.SL.Sem Idealize.ShloMosaic.ValueIdx

/-! ## The two weights are reals -/

theorem wHalf_eq : wHalf = (((1 : ℝ) / 2 : ℝ) : EReal) := by
  unfold wHalf
  simp [Ideal.ofBits, Ideal.ieee, -EReal.coe_mul]; norm_num

theorem wEighth_eq : wEighth = (((1 : ℝ) / 8 : ℝ) : EReal) := by
  unfold wEighth
  simp [Ideal.ofBits, Ideal.ieee, -EReal.coe_mul]; norm_num

/-! ## The rearrangement, on reals -/

/-- The kernel adds an eighth of the sum of the neighbours inside the block and then the two halo shares; the
    specification adds an eighth of each of the four neighbours in turn. Where the row part and the column part agree
    and every entry is a real, the two sums are equal. -/
theorem stencil_algebra {a N S W E R C Nn Ss Ww Ee : EReal}
    (ha : ∃ r : ℝ, a = r) (hN : ∃ r : ℝ, N = r) (hS : ∃ r : ℝ, S = r) (hW : ∃ r : ℝ, W = r) (hE : ∃ r : ℝ, E = r)
    (hR : ∃ r : ℝ, R = r) (hC : ∃ r : ℝ, C = r)
    (hNn : ∃ r : ℝ, Nn = r) (hSs : ∃ r : ℝ, Ss = r) (hWw : ∃ r : ℝ, Ww = r) (hEe : ∃ r : ℝ, Ee = r)
    (hrow : wEighth * N + wEighth * S + R = wEighth * Nn + wEighth * Ss)
    (hcol : wEighth * W + wEighth * E + C = wEighth * Ww + wEighth * Ee) :
    ((wHalf * a + wEighth * (((N + S) + W) + E)) + R) + C
      = (((wHalf * a + wEighth * Nn) + wEighth * Ss) + wEighth * Ww) + wEighth * Ee := by
  obtain ⟨a, rfl⟩ := ha
  obtain ⟨N, rfl⟩ := hN
  obtain ⟨S, rfl⟩ := hS
  obtain ⟨W, rfl⟩ := hW
  obtain ⟨E, rfl⟩ := hE
  obtain ⟨R, rfl⟩ := hR
  obtain ⟨C, rfl⟩ := hC
  obtain ⟨Nn, rfl⟩ := hNn
  obtain ⟨Ss, rfl⟩ := hSs
  obtain ⟨Ww, rfl⟩ := hWw
  obtain ⟨Ee, rfl⟩ := hEe
  rw [wHalf_eq]
  rw [wEighth_eq] at hrow hcol ⊢
  simp only [← EReal.coe_mul, ← EReal.coe_add, EReal.coe_eq_coe_iff] at hrow hcol ⊢
  linear_combination hrow + hcol

/-! ## Blocks of the whole array, by coordinates -/

/-- Device `c`'s block of a whole array: rows `1024 (c / 2) …`, columns `1024 (c % 2) …`. -/
abbrev dblk (c : Dev nD) (X : SW.Idx → EReal) : SB.Idx → EReal :=
  Layout.blockN SB SW (Layout.meshBlock [2, 2] ![[0], [1]] c) X

theorem mb0 (c : Dev nD) : ((Layout.meshBlock [2, 2] ![[0], [1]] c) 0).val = c.val / 2 := by revert c; decide
theorem mb1 (c : Dev nD) : ((Layout.meshBlock [2, 2] ![[0], [1]] c) 1).val = c.val % 2 := by revert c; decide

/-- Entry `(i, j)` of device `c`'s block is entry `(1024 (c / 2) + i, 1024 (c % 2) + j)` of the whole array. -/
theorem dblk_apply (c : Dev nD) (X : SW.Idx → EReal) (i j : Fin 1024) (I J : Fin 2048)
    (hI : I.val = (c.val / 2) * 1024 + i.val) (hJ : J.val = (c.val % 2) * 1024 + j.val) :
    dblk c X (ix2 i j) = X (ix2 I J) := by
  show X _ = X _
  congr 1
  funext a
  refine Fin.ext ?_
  match a with
  | ⟨0, _⟩ =>
    show ((Layout.meshBlock [2, 2] ![[0], [1]] c) 0).val * 1024 + i.val = I.val
    rw [mb0, hI]
  | ⟨1, _⟩ =>
    show ((Layout.meshBlock [2, 2] ![[0], [1]] c) 1).val * 1024 + j.val = J.val
    rw [mb1, hJ]

theorem px_div (c : Dev nD) : (px c).val / 2 = 1 - c.val / 2 := by revert c; decide
theorem px_mod (c : Dev nD) : (px c).val % 2 = c.val % 2 := by revert c; decide
theorem py_div (c : Dev nD) : (py c).val / 2 = c.val / 2 := by revert c; decide
theorem py_mod (c : Dev nD) : (py c).val % 2 = 1 - c.val % 2 := by revert c; decide

/-- Every entry of the whole array is a real, every entry of every block being one. -/
theorem X_real (X : SW.Idx → EReal) (hfin : ∀ (d : Dev nD) (i : SB.Idx), ∃ r : ℝ, dblk d X i = (r : EReal))
    (I J : Fin 2048) : ∃ r : ℝ, X (ix2 I J) = (r : EReal) := by
  have hd : 2 * (I.val / 1024) + J.val / 1024 < 4 := by have := I.isLt; have := J.isLt; omega
  obtain ⟨r, hr⟩ := hfin ⟨2 * (I.val / 1024) + J.val / 1024, hd⟩
    (ix2 (⟨I.val % 1024, Nat.mod_lt _ (by norm_num)⟩ : Fin 1024) (⟨J.val % 1024, Nat.mod_lt _ (by norm_num)⟩ : Fin 1024))
  refine ⟨r, ?_⟩
  rw [← hr]
  refine (dblk_apply _ X _ _ I J ?_ ?_).symm
  · show I.val = (2 * (I.val / 1024) + J.val / 1024) / 2 * 1024 + I.val % 1024
    have := I.isLt; have := J.isLt; omega
  · show J.val = (2 * (I.val / 1024) + J.val / 1024) % 2 * 1024 + J.val % 1024
    have := I.isLt; have := J.isLt; omega

/-! ## What a device receives -/

/-- Row `p` of the eight rows a device sends is row `off + p` of its block, `off` the band's first row. -/
theorem rowSent_apply (d : Dev nD) (xs : SB.Idx → EReal) (p : Fin 8) (q : Fin 1024) (i j : Fin 1024)
    (hi : i.val = k0_off1 d 0 + p.val) (hj : j.val = k0_off1 d 1 + q.val) :
    rowSent (F := Ideal) d xs (ix2 p q) = xs (ix2 i j) :=
  congrArg xs (idx_unit_ix2 (k0_off1 d) (k0_off1_inb d) p q i j hi hj)

/-- Position `q` of the line a device sends is row `q` of its block's edge column: the last column in mesh column 0, the
    first in mesh column 1. -/
theorem colSent_apply (d : Dev nD) (xs : SB.Idx → EReal) (u : Fin 1) (q : Fin 1024) (j : Fin 1024)
    (hj : j.val = if d.val % 2 = 0 then 1023 else 0) :
    colSent (F := Ideal) d xs (ix2 u q) = xs (ix2 q j) := by
  unfold colSent
  by_cases hd : d.val % 2 = 0
  · rw [if_pos hd] at hj
    rw [pay1_apply_one _ _ (by rw [wy_cmp0, if_pos hd])]
    exact readX_apply ![0, 1023] inb_S1024x1024_S1024x1_0_1023 xs q u q j (by show q.val = 0 + q.val; omega)
      (by show j.val = 1023 + u.val; omega)
  · rw [if_neg hd] at hj
    rw [pay1_apply_zero _ _ (by rw [wy_cmp0, if_neg hd])]
    exact readX_apply ![0, 0] inb_S1024x1024_S1024x1_0_0 xs q u q j (by show q.val = 0 + q.val; omega)
      (by show j.val = 0 + u.val; omega)

end Cert.KernelIdeal.Halo

end
-- ==== Proof.KValue.Block.lean ====
/-
  The block a device returns is its block of the stencil of the whole array. At an entry on an outermost row or column of
  the whole array both are the input entry. Elsewhere the kernel's sum is half the entry, an eighth of the neighbours
  inside the block summed together, and the two halo shares; an eighth of the vertical neighbours inside the block plus
  the halo row's share is an eighth of the two vertical neighbours in the whole array (the missing one is exactly the
  received row's entry), likewise horizontally, and on reals the two orders of summation agree.
-/
import proofs.«900187_g7700000000000188_dist_halo2d_stencil_xy_m1024_n1024_v7x_xy2x2_f32_1_alg».proof.Proof.KValue.Whole

noncomputable section

namespace Cert.KernelIdeal.Halo

open Cert.KernelIdeal Cert.KernelIdeal.Gen Cert.Halo
open Idealize.ShloMosaic Idealize.SL.Sem Idealize.ShloMosaic.ValueIdx

/-! ## The row part and the column part of the sum -/

/-- At an entry whose row is not an outermost row of the whole array: an eighth of the neighbour above and of the
    neighbour below inside the block, plus the halo row's share, is an eighth of the two neighbours in the whole array. -/
theorem row_fact (X : SW.Idx → EReal) (c : Dev nD) (i j : Fin 1024) (I J : Fin 2048)
    (hI : I.val = (c.val / 2) * 1024 + i.val) (hJ : J.val = (c.val % 2) * 1024 + j.val) (h1 : 1 ≤ I.val) (h2 : I.val ≤ 2046) :
    wEighth * (if h : 1 ≤ i.val then dblk c X (ix2 (⟨i.val - 1, by omega⟩ : Fin 1024) j) else 0)
        + wEighth * (if h : i.val + 1 < 1024 then dblk c X (ix2 (⟨i.val + 1, h⟩ : Fin 1024) j) else 0)
        + haloR c (rowSent (F := Ideal) (px c) (dblk (px c) X)) i j
      = wEighth * X (ix2 (⟨I.val - 1, by omega⟩ : Fin 2048) J) + wEighth * X (ix2 (⟨I.val + 1, by omega⟩ : Fin 2048) J) := by
  have hc4 : c.val < 4 := c.isLt
  have hi4 := i.isLt
  unfold haloR
  by_cases hx : c.val / 2 = 1
  · rw [if_pos hx]
    by_cases hi0 : i.val = 0
    · rw [if_pos hi0, dif_neg (show ¬ (1 ≤ i.val) by omega), dif_pos (show i.val + 1 < 1024 by omega), mul_zero, zero_add,
        rowSent_apply (px c) _ (7 : Fin 8) j (⟨1023, by norm_num⟩ : Fin 1024) j
          (by rw [k0_off1_eq]; show 1023 = (if (px c).val / 2 = 0 then 1016 else 0) + 7; rw [px_div, hx]; rfl)
          (by rw [k0_off1_eq]; show j.val = 0 + j.val; omega),
        dblk_apply (px c) X _ j (⟨I.val - 1, by omega⟩ : Fin 2048) J
          (by rw [px_div, hx]; show I.val - 1 = 0 * 1024 + 1023; omega) (by rw [px_mod]; exact hJ),
        dblk_apply c X (⟨i.val + 1, by omega⟩ : Fin 1024) j (⟨I.val + 1, by omega⟩ : Fin 2048) J
          (by show I.val + 1 = _ + (i.val + 1); omega) hJ]
      exact add_comm _ _
    · rw [if_neg hi0, add_zero, dif_pos (show 1 ≤ i.val by omega), dif_pos (show i.val + 1 < 1024 by omega),
        dblk_apply c X (⟨i.val - 1, by omega⟩ : Fin 1024) j (⟨I.val - 1, by omega⟩ : Fin 2048) J
          (by show I.val - 1 = _ + (i.val - 1); omega) hJ,
        dblk_apply c X (⟨i.val + 1, by omega⟩ : Fin 1024) j (⟨I.val + 1, by omega⟩ : Fin 2048) J
          (by show I.val + 1 = _ + (i.val + 1); omega) hJ]
  · have hx0 : c.val / 2 = 0 := by omega
    rw [if_neg hx]
    by_cases hi : i.val = 1023
    · rw [if_pos hi, dif_pos (show 1 ≤ i.val by omega), dif_neg (show ¬ (i.val + 1 < 1024) by omega), mul_zero, add_zero,
        rowSent_apply (px c) _ (0 : Fin 8) j (⟨0, by norm_num⟩ : Fin 1024) j
          (by rw [k0_off1_eq]; show 0 = (if (px c).val / 2 = 0 then 1016 else 0) + 0; rw [px_div, hx0]; rfl)
          (by rw [k0_off1_eq]; show j.val = 0 + j.val; omega),
        dblk_apply (px c) X _ j (⟨I.val + 1, by omega⟩ : Fin 2048) J
          (by rw [px_div, hx0]; show I.val + 1 = 1 * 1024 + 0; omega) (by rw [px_mod]; exact hJ),
        dblk_apply c X (⟨i.val - 1, by omega⟩ : Fin 1024) j (⟨I.val - 1, by omega⟩ : Fin 2048) J
          (by show I.val - 1 = _ + (i.val - 1); omega) hJ]
    · rw [if_neg hi, add_zero, dif_pos (show 1 ≤ i.val by omega), dif_pos (show i.val + 1 < 1024 by omega),
        dblk_apply c X (⟨i.val - 1, by omega⟩ : Fin 1024) j (⟨I.val - 1, by omega⟩ : Fin 2048) J
          (by show I.val - 1 = _ + (i.val - 1); omega) hJ,
        dblk_apply c X (⟨i.val + 1, by omega⟩ : Fin 1024) j (⟨I.val + 1, by omega⟩ : Fin 2048) J
          (by show I.val + 1 = _ + (i.val + 1); omega) hJ]

/-- The same of the left and right neighbours and the halo column's share, at an entry whose column is not an
    outermost column of the whole array. -/
theorem col_fact (X : SW.Idx → EReal) (c : Dev nD) (i j : Fin 1024) (I J : Fin 2048)
    (hI : I.val = (c.val / 2) * 1024 + i.val) (hJ : J.val = (c.val % 2) * 1024 + j.val) (h1 : 1 ≤ J.val) (h2 : J.val ≤ 2046) :
    wEighth * (if h : 1 ≤ j.val then dblk c X (ix2 i (⟨j.val - 1, by omega⟩ : Fin 1024)) else 0)
        + wEighth * (if h : j.val + 1 < 1024 then dblk c X (ix2 i (⟨j.val + 1, h⟩ : Fin 1024)) else 0)
        + haloC c (colSent (F := Ideal) (py c) (dblk (py c) X)) i j
      = wEighth * X (ix2 I (⟨J.val - 1, by omega⟩ : Fin 2048)) + wEighth * X (ix2 I (⟨J.val + 1, by omega⟩ : Fin 2048)) := by
  have hc4 : c.val < 4 := c.isLt
  have hj4 := j.isLt
  unfold haloC
  by_cases hy : c.val % 2 = 1
  · rw [if_pos hy]
    by_cases hj0 : j.val = 0
    · rw [if_pos hj0, dif_neg (show ¬ (1 ≤ j.val) by omega), dif_pos (show j.val + 1 < 1024 by omega), mul_zero, zero_add,
        colSent_apply (py c) _ (0 : Fin 1) i (⟨1023, by norm_num⟩ : Fin 1024)
          (by rw [py_mod, hy]; rfl),
        dblk_apply (py c) X i _ I (⟨J.val - 1, by omega⟩ : Fin 2048)
          (by rw [py_div]; exact hI) (by rw [py_mod, hy]; show J.val - 1 = 0 * 1024 + 1023; omega),
        dblk_apply c X i (⟨j.val + 1, by omega⟩ : Fin 1024) I (⟨J.val + 1, by omega⟩ : Fin 2048)
          hI (by show J.val + 1 = _ + (j.val + 1); omega)]
      exact add_comm _ _
    · rw [if_neg hj0, add_zero, dif_pos (show 1 ≤ j.val by omega), dif_pos (show j.val + 1 < 1024 by omega),
        dblk_apply c X i (⟨j.val - 1, by omega⟩ : Fin 1024) I (⟨J.val - 1, by omega⟩ : Fin 2048)
          hI (by show J.val - 1 = _ + (j.val - 1); omega),
        dblk_apply c X i (⟨j.val + 1, by omega⟩ : Fin 1024) I (⟨J.val + 1, by omega⟩ : Fin 2048)
          hI (by show J.val + 1 = _ + (j.val + 1); omega)]
  · have hy0 : c.val % 2 = 0 := by omega
    rw [if_neg hy]
    by_cases hj : j.val = 1023
    · rw [if_pos hj, dif_pos (show 1 ≤ j.val by omega), dif_neg (show ¬ (j.val + 1 < 1024) by omega), mul_zero, add_zero,
        colSent_apply (py c) _ (0 : Fin 1) i (⟨0, by norm_num⟩ : Fin 1024)
          (by rw [py_mod, hy0]; rfl),
        dblk_apply (py c) X i _ I (⟨J.val + 1, by omega⟩ : Fin 2048)
          (by rw [py_div]; exact hI) (by rw [py_mod, hy0]; show J.val + 1 = 1 * 1024 + 0; omega),
        dblk_apply c X i (⟨j.val - 1, by omega⟩ : Fin 1024) I (⟨J.val - 1, by omega⟩ : Fin 2048)
          hI (by show J.val - 1 = _ + (j.val - 1); omega)]
    · rw [if_neg hj, add_zero, dif_pos (show 1 ≤ j.val by omega), dif_pos (show j.val + 1 < 1024 by omega),
        dblk_apply c X i (⟨j.val - 1, by omega⟩ : Fin 1024) I (⟨J.val - 1, by omega⟩ : Fin 2048)
          hI (by show J.val - 1 = _ + (j.val - 1); omega),
        dblk_apply c X i (⟨j.val + 1, by omega⟩ : Fin 1024) I (⟨J.val + 1, by omega⟩ : Fin 2048)
          hI (by show J.val + 1 = _ + (j.val + 1); omega)]

/-! ## Every term of the sum is a real -/

theorem dite_real {p : Prop} [Decidable p] {f : p → EReal} (hf : ∀ h, ∃ r : ℝ, f h = (r : EReal)) :
    ∃ r : ℝ, (if h : p then f h else 0) = (r : EReal) := by
  split
  · exact hf _
  · exact ⟨0, EReal.coe_zero.symm⟩

theorem eighth_mul_real {v : EReal} (hv : ∃ r : ℝ, v = (r : EReal)) : ∃ r : ℝ, wEighth * v = (r : EReal) := by
  obtain ⟨r, rfl⟩ := hv
  exact ⟨1 / 8 * r, by rw [wEighth_eq, EReal.coe_mul]⟩

theorem haloR_real (c : Dev nD) (rr : S8x1024.Idx → EReal) (hrr : ∀ idx, ∃ r : ℝ, rr idx = (r : EReal)) (i j : Fin 1024) :
    ∃ r : ℝ, haloR c rr i j = (r : EReal) := by
  unfold haloR
  split_ifs
  · exact eighth_mul_real (hrr _)
  · exact ⟨0, EReal.coe_zero.symm⟩
  · exact eighth_mul_real (hrr _)
  · exact ⟨0, EReal.coe_zero.symm⟩

theorem haloC_real (c : Dev nD) (cr : S1x1024.Idx → EReal) (hcr : ∀ idx, ∃ r : ℝ, cr idx = (r : EReal)) (i j : Fin 1024) :
    ∃ r : ℝ, haloC c cr i j = (r : EReal) := by
  unfold haloC
  split_ifs
  · exact eighth_mul_real (hcr _)
  · exact ⟨0, EReal.coe_zero.symm⟩
  · exact eighth_mul_real (hcr _)
  · exact ⟨0, EReal.coe_zero.symm⟩

theorem rowSent_real (d : Dev nD) (xs : SB.Idx → EReal) (hxs : ∀ idx, ∃ r : ℝ, xs idx = (r : EReal)) (idx : S8x1024.Idx) :
    ∃ r : ℝ, rowSent (F := Ideal) d xs idx = (r : EReal) :=
  hxs ((Rect.unit (s := S1024x1024) (k0_off1 d) S8x1024.size (k0_off1_inb d)).toLoadRect.idx idx)

theorem colSent_real (d : Dev nD) (xs : SB.Idx → EReal) (hxs : ∀ idx, ∃ r : ℝ, xs idx = (r : EReal)) (idx : S1x1024.Idx) :
    ∃ r : ℝ, colSent (F := Ideal) d xs idx = (r : EReal) := by
  obtain ⟨u, q, rfl⟩ : ∃ u q, idx = ix2 u q := ⟨idx 0, idx 1, eq_ix2 idx⟩
  rw [colSent_apply d xs u q (⟨if d.val % 2 = 0 then 1023 else 0, by split <;> norm_num⟩ : Fin 1024) rfl]
  exact hxs _

/-! ## The block a device returns -/

theorem O5_eq_dblk (X : SW.Idx → EReal) (hfin : ∀ (d : Dev nD) (i : SB.Idx), ∃ r : ℝ, dblk d X i = (r : EReal)) (c : Dev nD) :
    O5 c (dblk c X) (rowSent (F := Ideal) (px c) (dblk (px c) X)) (colSent (F := Ideal) (py c) (dblk (py c) X))
      = dblk c (stencil X) := by
  funext idx
  obtain ⟨i, j, rfl⟩ : ∃ i j, idx = ix2 i j := ⟨idx 0, idx 1, eq_ix2 idx⟩
  have hc4 : c.val < 4 := c.isLt
  have hi4 := i.isLt
  have hj4 := j.isLt
  have hIlt : (c.val / 2) * 1024 + i.val < 2048 := by omega
  have hJlt : (c.val % 2) * 1024 + j.val < 2048 := by omega
  rw [dblk_apply c (stencil X) i j ⟨_, hIlt⟩ ⟨_, hJlt⟩ rfl rfl, stencil_ix2, O5_apply]
  unfold stencilAt
  by_cases hjE : j.val = (if c.val % 2 = 0 then 0 else 1023)
  · rw [if_pos hjE, dif_neg (by intro h; simp only at h; split_ifs at hjE <;> omega), dblk_apply c X i j ⟨_, hIlt⟩ ⟨_, hJlt⟩ rfl rfl]
  · rw [if_neg hjE, O4_apply]
    by_cases hiE : i.val = (if c.val / 2 = 0 then 0 else 1023)
    · rw [if_pos hiE, dif_neg (by intro h; simp only at h; split_ifs at hiE <;> omega), dblk_apply c X i j ⟨_, hIlt⟩ ⟨_, hJlt⟩ rfl rfl]
    · have hint : 1 ≤ (c.val / 2) * 1024 + i.val ∧ (c.val / 2) * 1024 + i.val ≤ 2046
          ∧ 1 ≤ (c.val % 2) * 1024 + j.val ∧ (c.val % 2) * 1024 + j.val ≤ 2046 := by
        split_ifs at hiE hjE <;> omega
      rw [if_neg hiE, O3_apply, O2_apply, dif_pos hint,
        show O1 (dblk c X) (ix2 i j) = _ from pay2_apply (dblk c X) i j,
        dblk_apply c X i j ⟨_, hIlt⟩ ⟨_, hJlt⟩ rfl rfl]
      exact stencil_algebra (X_real X hfin _ _)
        (dite_real fun _ => hfin c _) (dite_real fun _ => hfin c _) (dite_real fun _ => hfin c _) (dite_real fun _ => hfin c _)
        (haloR_real c _ (rowSent_real (px c) _ (hfin (px c))) i j)
        (haloC_real c _ (colSent_real (py c) _ (hfin (py c))) i j)
        (X_real X hfin _ _) (X_real X hfin _ _) (X_real X hfin _ _) (X_real X hfin _ _)
        (row_fact X c i j ⟨_, hIlt⟩ ⟨_, hJlt⟩ rfl rfl hint.1 hint.2.1)
        (col_fact X c i j ⟨_, hIlt⟩ ⟨_, hJlt⟩ rfl rfl hint.2.2.1 hint.2.2.2)

end Cert.KernelIdeal.Halo

end
-- ==== Proof.KValue.lean ====
/-
  The kernel's value on the extended reals: the block a device returns is its block of the stencil of the whole array.
  The statement is over the block as this file names it; the proof is the same statement over the same block under
  another name, the two names unfolding to one term.
-/
import proofs.«900187_g7700000000000188_dist_halo2d_stencil_xy_m1024_n1024_v7x_xy2x2_f32_1_alg».proof.Proof.KernelIdeal.Contents
import proofs.«900187_g7700000000000188_dist_halo2d_stencil_xy_m1024_n1024_v7x_xy2x2_f32_1_alg».proof.Proof.Spec
import Idealize.ShloMosaic.Lib.Layout
import Idealize.ShloMosaic.PureOps.Ideal
import proofs.«900187_g7700000000000188_dist_halo2d_stencil_xy_m1024_n1024_v7x_xy2x2_f32_1_alg».proof.Proof.KValue.Block

noncomputable section

namespace Cert.KernelIdeal.Halo

open Cert.KernelIdeal Cert.KernelIdeal.Gen Cert.Halo
open Idealize.ShloMosaic Idealize.SL.Sem

/-- Device `c`'s block of a whole array: rows `1024 (c / 2) …`, columns `1024 (c % 2) …`. -/
abbrev blk (c : Dev nD) (X : SW.Idx → EReal) : SB.Idx → EReal :=
  Layout.blockN SB SW (Layout.meshBlock [2, 2] ![[0], [1]] c) X

theorem out5_eq_block (X : SW.Idx → EReal) (hfin : ∀ (d : Dev nD) (i : SB.Idx), ∃ r : ℝ, blk d X i = (r : EReal)) (c : Dev nD) :
    out5 (F := Ideal) c (blk c X) (rowSent (F := Ideal) (px c) (blk (px c) X)) (colSent (F := Ideal) (py c) (blk (py c) X))
      = blk c (stencil X) :=
  O5_eq_dblk X hfin c

end Cert.KernelIdeal.Halo

end
-- ==== Proof.RefValue.lean ====
/-
  The reference's value: its run, read back one operation at a time, is the five-point stencil of the whole array.

  The last operation of the reference writes a 2046 × 2046 window into a copy of its argument, as a fold over the
  window's entries in which each step overwrites the one entry it lands on. Such a fold is first read at a single
  entry (the step that lands there decides it, or none does); then the landing place of each window entry is
  computed (one row down, one column right), which gives the result inside the window and on the border; last the
  window's entries are read through the five shifted slices, their weights and their sum.
-/
import proofs.«900187_g7700000000000188_dist_halo2d_stencil_xy_m1024_n1024_v7x_xy2x2_f32_1_alg».proof.Defs
import proofs.«900187_g7700000000000188_dist_halo2d_stencil_xy_m1024_n1024_v7x_xy2x2_f32_1_alg».proof.Proof.Gen.ReferenceIdeal.Run
import proofs.«900187_g7700000000000188_dist_halo2d_stencil_xy_m1024_n1024_v7x_xy2x2_f32_1_alg».proof.Proof.Gen.ReferenceIdeal.Read
import proofs.«900187_g7700000000000188_dist_halo2d_stencil_xy_m1024_n1024_v7x_xy2x2_f32_1_alg».proof.Proof.Spec

noncomputable section

namespace Cert.Halo.RefValue

open Idealize.ShloMosaic Idealize.ShloMosaic.ValueIdx Idealize.SL.Sem
open Cert.ReferenceIdeal Cert.ReferenceIdeal.Gen

/-! ## An overwriting fold, read at one entry -/

section Fold
variable {ι κ β : Type}

/-- An entry no step touches keeps its first value. -/
theorem foldl_keep (step : (ι → β) → κ → ι → β) (i' : ι) (P : κ → Prop)
    (hstep : ∀ r n, ¬ P n → step r n i' = r i') :
    ∀ (l : List κ) (x : ι → β), (∀ n ∈ l, ¬ P n) → (l.foldl step x) i' = x i'
  | [], _, _ => rfl
  | n :: l, x, h => by
    rw [List.foldl_cons, foldl_keep step i' P hstep l _ (fun m hm => h m (List.mem_cons_of_mem _ hm))]
    exact hstep x n (h n List.mem_cons_self)

/-- An entry exactly one step of the list touches, that step setting it to `b` whatever it held, ends at `b`. -/
theorem foldl_set (step : (ι → β) → κ → ι → β) (i' : ι) (P : κ → Prop)
    (hstep : ∀ r n, ¬ P n → step r n i' = r i') (n₀ : κ) (b : β) (hset : ∀ r, step r n₀ i' = b) :
    ∀ (l : List κ) (x : ι → β), n₀ ∈ l → (∀ n ∈ l, P n → n = n₀) → (l.foldl step x) i' = b
  | [], _, hm, _ => absurd hm List.not_mem_nil
  | n :: l, x, hm, hu => by
    rw [List.foldl_cons]
    by_cases hin : n₀ ∈ l
    · exact foldl_set step i' P hstep n₀ b hset l _ hin (fun m hm' => hu m (List.mem_cons_of_mem _ hm'))
    · have hn : n = n₀ := by
        rcases List.mem_cons.1 hm with h | h
        · exact h.symm
        · exact absurd h hin
      subst hn
      rw [foldl_keep step i' P hstep l _ (fun m hm' e => hin (hu m (List.mem_cons_of_mem _ hm') e ▸ hm'))]
      exact hset x

end Fold

/-! ## A scatter whose body returns the update, read at one entry -/

section Scatter
variable {s si u : Shape} {α : Type} {w : Nat}

/-- Where no update lands, the result is the operand's entry. -/
theorem scatter_miss (d : ScatterDims s si u) (f : α → α → α) (x : s.Idx → α) (idx : IVec si w) (upd : u.Idx → α) (I : s.Idx)
    (h : ∀ J', d.resultIdx? J' idx ≠ some I) :
    Host.scatter d f x idx upd I = x I := by
  unfold Host.scatter
  refine foldl_keep _ I (fun _ => False) (fun r n _ => ?_) _ x (fun _ _ => id)
  have hn := h (u.rowMajor.symm n)
  generalize d.resultIdx? (u.rowMajor.symm n) idx = o at hn
  cases o with
  | none => rfl
  | some i =>
    have : I ≠ i := fun e => hn (e ▸ rfl)
    show (if I = i then _ else r I) = r I
    rw [if_neg this]

/-- Where exactly one update lands, the body returning the update, the result is that update's entry. -/
theorem scatter_hit (d : ScatterDims s si u) (x : s.Idx → α) (idx : IVec si w) (upd : u.Idx → α) (I : s.Idx) (J : u.Idx)
    (hJ : d.resultIdx? J idx = some I) (hu : ∀ J', d.resultIdx? J' idx = some I → J' = J) :
    Host.scatter d (fun _ b => b) x idx upd I = upd J := by
  unfold Host.scatter
  refine foldl_set _ I (fun n => d.resultIdx? (u.rowMajor.symm n) idx = some I) (fun r n hn => ?_) (u.rowMajor J) (upd J)
    (fun r => ?_) _ x (List.mem_finRange _) (fun n _ hn => ?_)
  · generalize d.resultIdx? (u.rowMajor.symm n) idx = o at hn
    cases o with
    | none => rfl
    | some i =>
      have : I ≠ i := fun e => hn (e ▸ rfl)
      show (if I = i then _ else r I) = r I
      rw [if_neg this]
  · rw [Equiv.symm_apply_apply, hJ]
    show (if I = I then upd J else r I) = upd J
    rw [if_pos rfl]
  · rw [← hu _ hn, Equiv.apply_symm_apply]

end Scatter

/-! ## The reference's scatter: one 2046 × 2046 window written at row 1, column 1 -/

/-- Where the window's entry lands: one row down, one column to the right. -/
def shift (J : S2046x2046.Idx) : S2048x2048.Idx :=
  ix2 (⟨(J 0).val + 1, by have := idx2_lt0 J; omega⟩ : Fin 2048) (⟨(J 1).val + 1, by have := idx2_lt1 J; omega⟩ : Fin 2048)

section Window
variable (idx : IVec S2 32) (hidx : ∀ k, idx k = 1#32)
include hidx

/-- With both components of the start index the word one, the window starts at one on either axis … -/
theorem start_eq (J : S2046x2046.Idx) (a : Fin S2048x2048.rank) :
    scatter_S2048x2048_S2_S2046x2046_01_n_01_0.start J idx a = 1 := by
  unfold ScatterDims.start
  rw [dif_pos (by fin_cases a <;> decide), hidx]
  rfl

omit hidx in
/-- … an update's window coordinate on an axis is its own coordinate there … -/
theorem window_eq (J : S2046x2046.Idx) (a : Fin S2048x2048.rank) :
    scatter_S2048x2048_S2_S2046x2046_01_n_01_0.window J a = (J a).val := by
  fin_cases a <;> rfl

/-- … so every entry of the window lands, at its shifted place. -/
theorem resultIdx_eq (J : S2046x2046.Idx) :
    scatter_S2048x2048_S2_S2046x2046_01_n_01_0.resultIdx? J idx = some (shift J) := by
  have hb : ∀ a : Fin S2048x2048.rank,
      0 ≤ scatter_S2048x2048_S2_S2046x2046_01_n_01_0.start J idx a + scatter_S2048x2048_S2_S2046x2046_01_n_01_0.window J a
      ∧ scatter_S2048x2048_S2_S2046x2046_01_n_01_0.start J idx a + scatter_S2048x2048_S2_S2046x2046_01_n_01_0.window J a
          < S2048x2048.size a := by
    intro a
    rw [start_eq idx hidx, window_eq]
    match a with
    | ⟨0, _⟩ =>
      have := idx2_lt0 J
      exact ⟨by omega, by show (1 : Int) + ((J 0).val : Int) < ((2048 : Nat) : Int); omega⟩
    | ⟨1, _⟩ =>
      have := idx2_lt1 J
      exact ⟨by omega, by show (1 : Int) + ((J 1).val : Int) < ((2048 : Nat) : Int); omega⟩
  unfold ScatterDims.resultIdx?
  rw [dif_pos hb]
  refine congrArg some (funext fun a => Fin.ext ?_)
  show (scatter_S2048x2048_S2_S2046x2046_01_n_01_0.start J idx a
      + scatter_S2048x2048_S2_S2046x2046_01_n_01_0.window J a).toNat = (shift J a).val
  rw [start_eq idx hidx, window_eq]
  match a with
  | ⟨0, _⟩ => show ((1 : Int) + ((J 0).val : Int)).toNat = (J 0).val + 1; omega
  | ⟨1, _⟩ => show ((1 : Int) + ((J 1).val : Int)).toNat = (J 1).val + 1; omega

omit hidx in
theorem shift_injective : Function.Injective shift := by
  intro J J' h
  have h0 := congrArg (fun I : S2048x2048.Idx => (I 0).val) h
  have h1 := congrArg (fun I : S2048x2048.Idx => (I 1).val) h
  rw [eq_ix2 J, eq_ix2 J']
  have e0 : J 0 = J' 0 := Fin.ext (by simpa [shift] using h0)
  have e1 : J 1 = J' 1 := Fin.ext (by simpa [shift] using h1)
  rw [e0, e1]

/-- Inside the window the reference's scatter reads the update … -/
theorem scatter_window (x : S2048x2048.Idx → EReal) (upd : S2046x2046.Idx → EReal) (J : S2046x2046.Idx) :
    Host.scatter scatter_S2048x2048_S2_S2046x2046_01_n_01_0 (fun _ b => b) x idx upd (shift J) = upd J :=
  scatter_hit _ x idx upd (shift J) J (resultIdx_eq idx hidx J)
    (fun J' h => shift_injective (Option.some.inj ((resultIdx_eq idx hidx J').symm.trans h)))

/-- … and off it the operand. -/
theorem scatter_border (x : S2048x2048.Idx → EReal) (upd : S2046x2046.Idx → EReal) (I : S2048x2048.Idx)
    (h : ∀ J, shift J ≠ I) :
    Host.scatter scatter_S2048x2048_S2_S2046x2046_01_n_01_0 (fun _ b => b) x idx upd I = x I :=
  scatter_miss _ _ x idx upd I (fun J' e => h J' (Option.some.inj ((resultIdx_eq idx hidx J').symm.trans e)))

end Window

/-! ## The reference's value -/

/-- A rank-2 index with the coordinates of `ix2 a b` is `ix2 a b`. -/
theorem eq_ix2_of_val {n0 n1 : Nat} (I : (⟨2, ![n0, n1]⟩ : Shape).Idx) (a : Fin n0) (b : Fin n1)
    (h0 : (I 0).val = a.val) (h1 : (I 1).val = b.val) : I = ix2 a b := by
  funext d
  match d with
  | ⟨0, _⟩ => exact Fin.ext h0
  | ⟨1, _⟩ => exact Fin.ext h1

open Cert.ReferenceIdeal.Read in
/-- The start index the reference builds — two broadcast ones joined — has the word one in both places. -/
theorem val_main_v21_apply (k : S2.Idx) : val_main_v21 (F := Ideal) k = 1#32 := by
  obtain ⟨a, rfl⟩ : ∃ a, k = ix1 a := ⟨k 0, eq_ix1 k⟩
  fin_cases a <;> rfl

open Cert.ReferenceIdeal.Read in
/-- The reference's result, read back operation by operation, is the five-point stencil of its argument: strictly
    inside the array the scatter reads the weighted sum of the five shifted slices, each slice the argument at a
    neighbour; on the outermost rows and columns it reads the argument. -/
theorem ref_value (x : (⟨S2048x2048, .f32⟩ : BufTy).Contents (Elt Ideal)) :
    val_main_v22 (F := Ideal) x = Cert.Halo.stencil x := by
  funext I
  obtain ⟨i, j, rfl⟩ : ∃ i j, I = ix2 i j := ⟨I 0, I 1, eq_ix2 I⟩
  rw [stencil_ix2]
  unfold val_main_v22 stencilAt
  by_cases h : 1 ≤ i.val ∧ i.val ≤ 2046 ∧ 1 ≤ j.val ∧ j.val ≤ 2046
  · rw [dif_pos h]
    have hI : (ix2 i j : S2048x2048.Idx)
        = shift (ix2 (⟨i.val - 1, by omega⟩ : Fin 2046) (⟨j.val - 1, by omega⟩ : Fin 2046)) :=
      eq_ix2_of_val _ _ _ (by show i.val - 1 + 1 = i.val; omega) (by show j.val - 1 + 1 = j.val; omega) |>.symm
    refine ((congrArg _ hI).trans (scatter_window _ val_main_v21_apply x _ _)).trans ?_
    rw [val_main_v18_apply, val_main_v14_apply, val_main_v10_apply, val_main_v6_apply, val_main_v2_apply,
      val_main_v5_apply, val_main_v9_apply, val_main_v13_apply, val_main_v17_apply,
      val_main_v1_apply, val_main_v4_apply, val_main_v8_apply, val_main_v12_apply, val_main_v16_apply,
      val_main_cst_apply, val_main_cst_0_apply, val_main_cst_1_apply, val_main_cst_2_apply, val_main_cst_3_apply,
      val_main_v0_apply, val_main_v3_apply, val_main_v7_apply, val_main_v11_apply, val_main_v15_apply]
    rw [eq_ix2_of_val (idx_main_v0 _) i j (by show 1 + (i.val - 1) = i.val; omega) (by show 1 + (j.val - 1) = j.val; omega),
      eq_ix2_of_val (idx_main_v3 _) (⟨i.val - 1, by omega⟩ : Fin 2048) j (by show i.val - 1 = i.val - 1; rfl)
        (by show 1 + (j.val - 1) = j.val; omega),
      eq_ix2_of_val (idx_main_v7 _) (⟨i.val + 1, by omega⟩ : Fin 2048) j (by show 2 + (i.val - 1) = i.val + 1; omega)
        (by show 1 + (j.val - 1) = j.val; omega),
      eq_ix2_of_val (idx_main_v11 _) i (⟨j.val - 1, by omega⟩ : Fin 2048) (by show 1 + (i.val - 1) = i.val; omega)
        (by show j.val - 1 = j.val - 1; rfl),
      eq_ix2_of_val (idx_main_v15 _) i (⟨j.val + 1, by omega⟩ : Fin 2048) (by show 1 + (i.val - 1) = i.val; omega)
        (by show 2 + (j.val - 1) = j.val + 1; omega)]
    rfl
  · rw [dif_neg h]
    refine scatter_border _ val_main_v21_apply _ _ _ (fun J e => h ?_)
    have e0 : (J 0).val + 1 = i.val := congrArg (fun I : S2048x2048.Idx => (I 0).val) e
    have e1 : (J 1).val + 1 = j.val := congrArg (fun I : S2048x2048.Idx => (I 1).val) e
    have l0 := idx2_lt0 J
    have l1 := idx2_lt1 J
    omega

/-! ## The reference's run -/

/-- From any memory with zero counters every weakly fair execution of the reference terminates with its result the
    stencil of its argument and the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v22) = Cert.Halo.stencil (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans ((Cert.ReferenceIdeal.Read.val_main_v22_eq _).trans (ref_value _)), (h 0).2⟩)
    (Cert.ReferenceIdeal.Value.run (F := Ideal) m' g')

/-- The reference runs and leaves its argument as it found it: its run, the result dropped. -/
theorem ref_frame [hPre : Cert.Pre_finite_inputs_ReferenceIdeal.Facts] : Cert.frame_ReferenceIdeal := fun m ρ _ =>
  (θ_run (Cert.ReferenceIdeal.defs (F := Ideal)) _ _).mono (fun _ h c => (h c).2) (Cert.ReferenceIdeal.Value.run (F := Ideal) m ρ)

end Cert.Halo.RefValue

end
-- ==== Proof.Finite.lean ====
/-
  The precondition, decoded: it states that every entry of each device's block has absolute value below +∞, and an
  extended real with that property is a real number.
-/
import proofs.«900187_g7700000000000188_dist_halo2d_stencil_xy_m1024_n1024_v7x_xy2x2_f32_1_alg».proof.Defs
import proofs.«900187_g7700000000000188_dist_halo2d_stencil_xy_m1024_n1024_v7x_xy2x2_f32_1_alg».proof.Proof.Spec
import Idealize.ShloMosaic.Lib.ReduceAll
import Idealize.ShloMosaic.Lib.ValueIdx

noncomputable section

namespace Cert.Halo.Finite

open Idealize.ShloMosaic Idealize.ShloMosaic.ValueIdx Idealize.SL.Sem

/-- The scalar shape has one index. -/
instance : Subsingleton Cert.Pre_finite_inputs_Kernel.S_.Idx := ⟨fun _ _ => funext fun d => d.elim0⟩

/-- The single-precision word of +∞ is the top of the extended reals. -/
theorem inf_word : Ideal.ofBits .f32 0x7F800000#32 = ⊤ := by simp [Ideal.ofBits, Ideal.ieee]

/-- An extended real whose absolute value compares below +∞ is a real: at either infinity the absolute value is
    +∞ itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every entry of every device's block is a real number. -/
theorem finite_of_pre [hPre : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Halo.SB.Idx) :
    ∃ r : ℝ, m ((c.tc : Thread Cert.KernelIdeal.nD Cert.KernelIdeal.τ).loc Cert.KernelIdeal.main_arg0) i = (r : EReal) := by
  have h0 := congrFun (h c) ix0
  dsimp only [Cert.Pre_finite_inputs_Kernel.fn] at h0
  have h1 := Host.reduce_andi_all _ _ _ _ _ h0 i
  exact real_of_abs_lt_inf _ h1

end Cert.Halo.Finite

end
-- ==== Proof.lean ====
/-
  The five claims about the 2 × 2 halo-exchange stencil, and their conjunction.

  A 2048 × 2048 array X of single-precision floats is cut into four 1024 × 1024 blocks, one per device of a 2 × 2
  mesh. Each device returns its block of the five-point stencil of X: ½ of an entry plus ⅛ of each of its four
  neighbours strictly inside X, and X itself on X's outermost rows and columns. A device's neighbours across the cuts
  live on two other devices, which send it the eight rows and the one column at their edges.

  • The kernel runs (every weakly fair execution terminates, nothing faults) and each device's input block ends as it
    began: read with floats as words, and read with floats as extended reals.
  • The one-device reference runs and its argument ends as it began.
  • The extended-real reading of the kernel is the kernel's own text, no operation rewritten: nothing to preserve.
  • Kernel against reference on the extended reals, from finite inputs of which each device holds its block: the
    reference ends holding the stencil of X — its five shifted slices, their weights, their sum and the window it
    writes back, read entry by entry —; device c ends holding the composite of its five stores over its own block,
    the rows sent by the device across the row cut and the column sent by the device across the column cut; and
    that composite is block c of the stencil of X. The law that joins the two: finite extended reals add and
    multiply as the real numbers do, so a sum may be reassociated and reordered, a zero summand dropped and a
    product with zero is zero; with it the kernel's order of accumulation — the sum inside the block with zeros
    for the neighbours beyond it, then the share of the row that arrived, then the share of the column — is the
    reference's sum centre, above, below, left, right, and the two rewrites of the outermost row and column give
    back X there as the reference's window does.
-/
import proofs.«900187_g7700000000000188_dist_halo2d_stencil_xy_m1024_n1024_v7x_xy2x2_f32_1_alg».proof.Defs
import proofs.«900187_g7700000000000188_dist_halo2d_stencil_xy_m1024_n1024_v7x_xy2x2_f32_1_alg».proof.Proof.Gen.Kernel
import proofs.«900187_g7700000000000188_dist_halo2d_stencil_xy_m1024_n1024_v7x_xy2x2_f32_1_alg».proof.Proof.Gen.KernelIdeal
import proofs.«900187_g7700000000000188_dist_halo2d_stencil_xy_m1024_n1024_v7x_xy2x2_f32_1_alg».proof.Proof.Gen.ReferenceIdeal
import proofs.«900187_g7700000000000188_dist_halo2d_stencil_xy_m1024_n1024_v7x_xy2x2_f32_1_alg».proof.Proof.Gen.Pre_finite_inputs_Kernel
import proofs.«900187_g7700000000000188_dist_halo2d_stencil_xy_m1024_n1024_v7x_xy2x2_f32_1_alg».proof.Proof.Gen.Pre_finite_inputs_ReferenceIdeal
import proofs.«900187_g7700000000000188_dist_halo2d_stencil_xy_m1024_n1024_v7x_xy2x2_f32_1_alg».proof.Proof.Kernel.Final
import proofs.«900187_g7700000000000188_dist_halo2d_stencil_xy_m1024_n1024_v7x_xy2x2_f32_1_alg».proof.Proof.KernelIdeal.Final
import proofs.«900187_g7700000000000188_dist_halo2d_stencil_xy_m1024_n1024_v7x_xy2x2_f32_1_alg».proof.Proof.KValue
import proofs.«900187_g7700000000000188_dist_halo2d_stencil_xy_m1024_n1024_v7x_xy2x2_f32_1_alg».proof.Proof.RefValue
import proofs.«900187_g7700000000000188_dist_halo2d_stencil_xy_m1024_n1024_v7x_xy2x2_f32_1_alg».proof.Proof.Finite

noncomputable section

/-! ## The claims -/

namespace Cert.Proof.HaloClaims

open Idealize.ShloMosaic Idealize.SL.Sem

/-- With floats as words the kernel runs and every device's input block is left as it was: the run, its result
    dropped. -/
theorem frame_k : Cert.frame_Kernel := fun m g _ =>
  (θ_run (Cert.Kernel.defs (F := Bits)) _ _).mono (fun _ h c => (h c).2) (Cert.Kernel.Halo.run_value (F := Bits) m g)

/-- The same with floats as extended reals. -/
theorem frame_ki : Cert.frame_KernelIdeal := fun m g _ =>
  (θ_run (Cert.KernelIdeal.defs (F := Ideal)) _ _).mono (fun _ h c => (h c).2)
    (Cert.KernelIdeal.Halo.run_value (F := Ideal) m g)

/-- The reference runs and leaves its argument as it was. -/
theorem frame_ri : Cert.frame_ReferenceIdeal := Cert.Halo.RefValue.ref_frame

/-- No operation of the kernel was rewritten for the extended-real reading. -/
theorem preserves : Cert.preserves_Kernel_KernelIdeal := trivial

open Cert.KernelIdeal.Halo in
/-- From finite inputs, each device holding its block of the whole array `X`: the reference ends holding the stencil
    of `X`, and device `c` ends holding the composite of its five stores over its own block and the edge rows and
    column its two peers hold, which is block `c` of the stencil of `X`. -/
theorem algebraic : Cert.algebraic_KernelIdeal_ReferenceIdeal := by
  intro m g m' g' hpre hagree
  refine ⟨Cert.Halo.stencil (m' (((0 : Dev Cert.ReferenceIdeal.nD).tc : Thread Cert.ReferenceIdeal.nD Cert.ReferenceIdeal.τ).loc
      Cert.ReferenceIdeal.main_arg0)), ?_, Cert.Halo.RefValue.ref_run m' g'⟩
  refine (θ_run (Cert.KernelIdeal.defs (F := Ideal)) _ _).mono (fun _ h c => ⟨(h c).1.trans ?_, (h c).2⟩)
    (Cert.KernelIdeal.Halo.run_value (F := Ideal) m g)
  -- every device's staged block is its block of `X`, and its entries are real numbers
  have hx : ∀ d : Dev Cert.KernelIdeal.nD, xstg m d
      = blk d (m' (((0 : Dev Cert.ReferenceIdeal.nD).tc : Thread Cert.ReferenceIdeal.nD Cert.ReferenceIdeal.τ).loc
          Cert.ReferenceIdeal.main_arg0)) :=
    fun d => (xstg_eq m d).trans (hagree d)
  have hfin : ∀ (d : Dev Cert.KernelIdeal.nD) (i : Cert.Halo.SB.Idx), ∃ r : ℝ,
      blk d (m' (((0 : Dev Cert.ReferenceIdeal.nD).tc : Thread Cert.ReferenceIdeal.nD Cert.ReferenceIdeal.τ).loc
        Cert.ReferenceIdeal.main_arg0)) i = (r : EReal) := fun d i => by
    obtain ⟨r, hr⟩ := Cert.Halo.Finite.finite_of_pre m hpre d i
    exact ⟨r, (congrFun (hagree d) i).symm.trans hr⟩
  unfold outAt rowLanded colLanded
  rw [hx c, hx (px c), hx (py c)]
  exact out5_eq_block _ hfin c

end Cert.Proof.HaloClaims

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  HaloClaims.frame_k, HaloClaims.frame_ki, HaloClaims.frame_ri, HaloClaims.preserves, HaloClaims.algebraic⟩

end Cert.Proof

end
